-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000x128 : Shape := ⟨2, ![1600000, 128]⟩
abbrev S512x128 : Shape := ⟨2, ![512, 128]⟩
abbrev S50000 : Shape := ⟨1, ![50000]⟩
abbrev S512x512 : Shape := ⟨2, ![512, 512]⟩
abbrev S512 : Shape := ⟨1, ![512]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S512x128 : S_.BroadcastsInDim S512x128 (![] : Fin 0 → Fin S512x128.rank)
  reducesTo_S512x128_S_d0_1 : S512x128.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S512x128 .f32) (main_arg10 : FVec F S128 .f32) (main_v33 : IVec S_ 1) : IVec S_ 1 :=
  let main_v34 : FVec F S512x128 .f32 := Host.absf main_arg9
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S512 .f32) (main_arg7 : FVec F S512 .f32) (main_arg8 : FVec F S512 .f32) (main_arg9 : FVec F S512x128 .f32) (main_arg10 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S2x1600000 32) (main_arg2 : FVec F S1600000x128 .f32) (main_arg3 : FVec F S512x128 .f32) (main_arg4 : IVec S50000 32) (main_arg5 : FVec F S512x512 .f32) (main_arg6 : FVec F S512 .f32) (main_arg7 : FVec F S512 .f32) (main_arg8 : FVec F S512 .f32) (main_arg9 : FVec F S512x128 .f32) (main_arg10 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S2x1600000 : Shape := ⟨2, ![2, 1600000]⟩
abbrev S1600000x128 : Shape := ⟨2, ![1600000, 128]⟩
abbrev S512x128 : Shape := ⟨2, ![512, 128]⟩
abbrev S50000 : Shape := ⟨1, ![50000]⟩
abbrev S512x512 : Shape := ⟨2, ![512, 512]⟩
abbrev S512 : Shape := ⟨1, ![512]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S51200x256 : Shape := ⟨2, ![51200, 256]⟩
abbrev S51200 : Shape := ⟨1, ![51200]⟩
abbrev S1x51200 : Shape := ⟨2, ![1, 51200]⟩
abbrev S2x512x256 : Shape := ⟨3, ![2, 512, 256]⟩
abbrev S2x512x1 : Shape := ⟨3, ![2, 512, 1]⟩
abbrev S6400x256 : Shape := ⟨2, ![6400, 256]⟩
abbrev S1x6400 : Shape := ⟨2, ![1, 6400]⟩
abbrev S1x512x256 : Shape := ⟨3, ![1, 512, 256]⟩
abbrev S1x512x1 : Shape := ⟨3, ![1, 512, 1]⟩
abbrev S512x256 : Shape := ⟨2, ![512, 256]⟩
abbrev S512x1 : Shape := ⟨2, ![512, 1]⟩
abbrev S512x1280 : Shape := ⟨2, ![512, 1280]⟩
abbrev S1280x256 : Shape := ⟨2, ![1280, 256]⟩
abbrev S1x1280 : Shape := ⟨2, ![1, 1280]⟩
abbrev S2x128x512 : Shape := ⟨3, ![2, 128, 512]⟩
abbrev S16000x128 : Shape := ⟨2, ![16000, 128]⟩
abbrev S1x16000 : Shape := ⟨2, ![1, 16000]⟩
abbrev S1x128x512 : Shape := ⟨3, ![1, 128, 512]⟩
abbrev S128x512 : Shape := ⟨2, ![128, 512]⟩
abbrev S512x3200 : Shape := ⟨2, ![512, 3200]⟩
abbrev S3200x128 : Shape := ⟨2, ![3200, 128]⟩
abbrev S1x3200 : Shape := ⟨2, ![1, 3200]⟩
abbrev S256x512 : Shape := ⟨2, ![256, 512]⟩
abbrev S1x512 : Shape := ⟨2, ![1, 512]⟩
abbrev S1x128 : Shape := ⟨2, ![1, 128]⟩

abbrev nBuf : Space → Nat
  | .hbm => 38
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x128, .f32⟩
  | .hbm, ⟨3, _⟩ => ⟨S512x128, .f32⟩
  | .hbm, ⟨4, _⟩ => ⟨S50000, .i32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000, .i32⟩
  | .hbm, ⟨22, _⟩ => ⟨S_, .i32⟩
  | .hbm, ⟨23, _⟩ => ⟨S_, .f32⟩
  | .hbm, ⟨24, _⟩ => ⟨S51200x256, .f32⟩
  | .hbm, ⟨25, _⟩ => ⟨S_, .i32⟩
  | .hbm, ⟨26, _⟩ => ⟨S_, .i32⟩
  | .hbm, ⟨27, _⟩ => ⟨S51200, .i32⟩
  | .hbm, ⟨28, _⟩ => ⟨S1x51200, .i32⟩
  | .hbm, ⟨29, _⟩ => ⟨S1x1600000, .i32⟩
  | .hbm, ⟨30, _⟩ => ⟨S2x512x256, .f32⟩
  | .hbm, ⟨31, _⟩ => ⟨S2x512x1, .f32⟩
  | .hbm, ⟨32, _⟩ => ⟨S2x128x512, .f32⟩
  | .hbm, ⟨33, _⟩ => ⟨S2x512x1, .f32⟩
  | .hbm, ⟨34, _⟩ => ⟨S128x512, .f32⟩
  | .hbm, ⟨35, _⟩ => ⟨S256x512, .f32⟩
  | .hbm, ⟨36, _⟩ => ⟨S128x512, .f32⟩
  | .hbm, ⟨37, _⟩ => ⟨S512x128, .f32⟩
  | .local _ .vmem, ⟨0, _⟩ => ⟨S6400x256, .f32⟩
  | .local _ .vmem, ⟨1, _⟩ => ⟨S6400x256, .f32⟩
  | .local _ .vmem, ⟨2, _⟩ => ⟨S1x6400, .i32⟩
  | .local _ .vmem, ⟨3, _⟩ => ⟨S1x6400, .i32⟩
  | .local _ .vmem, ⟨4, _⟩ => ⟨S1x512x256, .f32⟩
  | .local _ .vmem, ⟨5, _⟩ => ⟨S1x512x256, .f32⟩
  | .local _ .vmem, ⟨6, _⟩ => ⟨S1x512x1, .f32⟩
  | .local _ .vmem, ⟨7, _⟩ => ⟨S1x512x1, .f32⟩
  | .local _ .vmem, ⟨8, _⟩ => ⟨S16000x128, .f32⟩
  | .local _ .vmem, ⟨9, _⟩ => ⟨S16000x128, .f32⟩
  | .local _ .vmem, ⟨10, _⟩ => ⟨S1x16000, .i32⟩
  | .local _ .vmem, ⟨11, _⟩ => ⟨S1x16000, .i32⟩
  | .local _ .vmem, ⟨12, _⟩ => ⟨S1x128x512, .f32⟩
  | .local _ .vmem, ⟨13, _⟩ => ⟨S1x128x512, .f32⟩
  | .local _ .vmem, ⟨14, _⟩ => ⟨S1x512x1, .f32⟩
  | .local _ .vmem, ⟨15, _⟩ => ⟨S1x512x1, .f32⟩
  | .local _ .vmem, ⟨16, _⟩ => ⟨S512x128, .f32⟩
  | .local _ .vmem, ⟨17, _⟩ => ⟨S2x512x256, .f32⟩
  | .local _ .vmem, ⟨18, _⟩ => ⟨S2x512x1, .f32⟩
  | .local _ .vmem, ⟨19, _⟩ => ⟨S2x128x512, .f32⟩
  | .local _ .vmem, ⟨20, _⟩ => ⟨S2x512x1, .f32⟩
  | .local _ .vmem, ⟨21, _⟩ => ⟨S128x512, .f32⟩
  | .local _ .vmem, ⟨22, _⟩ => ⟨S256x512, .f32⟩
  | .local _ .vmem, ⟨23, _⟩ => ⟨S128x512, .f32⟩
  | .local _ .vmem, ⟨24, _⟩ => ⟨S512, .f32⟩
  | .local _ .vmem, ⟨25, _⟩ => ⟨S512, .f32⟩
  | .local _ .vmem, ⟨26, _⟩ => ⟨S512, .f32⟩
  | .local _ .vmem, ⟨27, _⟩ => ⟨S512x128, .f32⟩
  | .local _ .vmem, ⟨28, _⟩ => ⟨S128, .f32⟩
  | .local _ .vmem, ⟨29, _⟩ => ⟨S512x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call0_v0 : Ref sig .tc := ⟨.hbm, 23, rfl⟩
abbrev main_v9 : Ref sig .tc := ⟨.hbm, 24, rfl⟩
abbrev main_c_2 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v14_0 : Ref sig .tc := ⟨.hbm, 32, rfl⟩
abbrev main_v14_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_1 : BitVec 32 := 0#32
  let c5_i32 : BitVec 32 := 5#32
  let v4 : BitVec 32 := Scalar.addi c0_i32_1 c5_i32
  let c1_i32 : BitVec 32 := 1#32
  ⟨c0_i32_1, v4, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v5 : BitVec 32 := Scalar.muli arg6 c1_i32_3
  let v6 : BitVec 32 := Scalar.addi c0_i32_4 v5
  let c1280_i32 : BitVec 32 := 1280#32
  let v7 : BitVec 32 := Scalar.muli v6 c1280_i32
  v7
def k0_off1 (k0_t1 : Fin k0_t1_loop.trips) : Fin 2 → Nat :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v5 : BitVec 32 := Scalar.muli arg6 c1_i32_3
  let v6 : BitVec 32 := Scalar.addi c0_i32_4 v5
  let c1280_i32 : BitVec 32 := 1280#32
  let v7 : BitVec 32 := Scalar.muli v6 c1280_i32
  let v8 : BitVec 32 := v7
  let v9 : Index := Scalar.indexCast v8
  let c0 : Index := 0#32
  ![v9.toNat, 0]
def k0_off2 (k0_t1 : Fin k0_t1_loop.trips) : Fin 2 → Nat :=
  let c0_5 : Index := 0#32
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v5 : BitVec 32 := Scalar.muli arg6 c1_i32_3
  let v6 : BitVec 32 := Scalar.addi c0_i32_4 v5
  let c1280_i32 : BitVec 32 := 1280#32
  let v7 : BitVec 32 := Scalar.muli v6 c1280_i32
  let v8 : BitVec 32 := v7
  let v13 : Index := Scalar.indexCast v8
  ![0, v13.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 50], ![false, false]⟩

@[reducible] def k1_t1_loop : Scf.Loop 32 :=
  let c0_i32_1 : BitVec 32 := 0#32
  let c5_i32 : BitVec 32 := 5#32
  let v4 : BitVec 32 := Scalar.addi c0_i32_1 c5_i32
  let c1_i32 : BitVec 32 := 1#32
  ⟨c0_i32_1, v4, c1_i32⟩
def k1_mult1 (k1_t1 : Fin k1_t1_loop.trips) : BitVec 32 :=
  let c0_i32_4 : BitVec 32 := 0#32
  let c0_i32_1 : BitVec 32 := 0#32
  let c1_i32 : BitVec 32 := 1#32
  let arg6 : BitVec 32 := Scf.iv c0_i32_1 c1_i32 k1_t1
  let c1_i32_3 : BitVec 32 := 1#32
  let v5 : BitVec 32 := Scalar.muli arg6 c1_i32_3
  let v6 : BitVec 32 := Scalar.addi c0_i32_4 v5
  let c3200_i32 : BitVec 32 := 3200#32
  let v7 : BitVec 32 := Scalar.muli v6 c3200_i32
  v7
def k1_off1 (k1_t1 : Fin k1_t1_loop.trips) : Fin 2 → Nat :=
  let c0_i32_4 : BitVec 32 := 0#32
  let c0_i32_1 : BitVec 32 := 0#32
  let c1_i32 : BitVec 32 := 1#32
  let arg6 : BitVec 32 := Scf.iv c0_i32_1 c1_i32 k1_t1
  let c1_i32_3 : BitVec 32 := 1#32
  let v5 : BitVec 32 := Scalar.muli arg6 c1_i32_3
  let v6 : BitVec 32 := Scalar.addi c0_i32_4 v5
  let c3200_i32 : BitVec 32 := 3200#32
  let v7 : BitVec 32 := Scalar.muli v6 c3200_i32
  let v8 : BitVec 32 := v7
  let v9 : Index := Scalar.indexCast v8
  let c0 : Index := 0#32
  ![v9.toNat, 0]
def k1_off2 (k1_t1 : Fin k1_t1_loop.trips) : Fin 2 → Nat :=
  let c0_5 : Index := 0#32
  let c0_i32_4 : BitVec 32 := 0#32
  let c0_i32_1 : BitVec 32 := 0#32
  let c1_i32 : BitVec 32 := 1#32
  let arg6 : BitVec 32 := Scf.iv c0_i32_1 c1_i32 k1_t1
  let c1_i32_3 : BitVec 32 := 1#32
  let v5 : BitVec 32 := Scalar.muli arg6 c1_i32_3
  let v6 : BitVec 32 := Scalar.addi c0_i32_4 v5
  let c3200_i32 : BitVec 32 := 3200#32
  let v7 : BitVec 32 := Scalar.muli v6 c3200_i32
  let v8 : BitVec 32 := v7
  let v12 : Index := Scalar.indexCast v8
  ![0, v12.toNat]
def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2x512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x512x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2x512x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S512x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S512x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  pads_S50000x256_S51200x256_012000_000 : S50000x256.Pads (![0, 0] : Fin 2 → Nat) ![1200, 0] ![0, 0] S51200x256
  h_S_ : 0 < S_.numel
  pads_S50000_S51200_012000 : S50000.Pads (![0] : Fin 1 → Nat) ![1200] ![0] S51200
  shapeCasts_S51200_S1x51200 : S51200.ShapeCasts S1x51200
  shapeCasts_S1600000_S1x1600000 : S1600000.ShapeCasts S1x1600000
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  iota_S512x1280_d0_w32 : S512x1280.Iotas .tc 32 [0]
  h_S1280x256 : 0 < S1280x256.numel
  shapeCasts_S1280x256_S1280x256 : S1280x256.ShapeCasts S1280x256
  bitsLt_bf16_f32 : FTy.bits .bf16 < FTy.bits .f32
  h_S1x1280 : 0 < S1x1280.numel
  shapeCasts_S1x1280_S1x1280 : S1x1280.ShapeCasts S1x1280
  broadcasts_S1x1280_S512x1280 : S1x1280.Broadcasts S512x1280
  natLt_1_32 : 1 < 32
  reduces_S512x1280_S512 : S512x1280.Reduces [1] S512
  shapeCasts_S512_S512x1 : S512.ShapeCasts S512x1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  iota_S512x3200_d0_w32 : S512x3200.Iotas .tc 32 [0]
  h_S3200x128 : 0 < S3200x128.numel
  h_S1x3200 : 0 < S1x3200.numel
  shapeCasts_S1x3200_S1x3200 : S1x3200.ShapeCasts S1x3200
  broadcasts_S1x3200_S512x3200 : S1x3200.Broadcasts S512x3200
  reduces_S512x3200_S512 : S512x3200.Reduces [1] S512
  slices_S512x512_S128x512_0_0 : S512x512.Slices ![0, 0] S128x512
  slices_S512x512_S256x512_128_0 : S512x512.Slices ![128, 0] S256x512
  slices_S512x512_S128x512_384_0 : S512x512.Slices ![384, 0] S128x512
  inb_S512x128_S512x128_0_0 : ∀ a, (![0, 0] : Fin 2 → Nat) a + S512x128.size a ≤ S512x128.size a
  h_S512x128 : 0 < S512x128.numel
  inb_S2x512x256_S2x512x256_0_0_0 : ∀ a, (![0, 0, 0] : Fin 3 → Nat) a + S2x512x256.size a ≤ S2x512x256.size a
  h_S2x512x256 : 0 < S2x512x256.numel
  shapeCasts_S2x512x256_S2x512x256 : S2x512x256.ShapeCasts S2x512x256
  reduces_S2x512x256_S512x256 : S2x512x256.Reduces [0] S512x256
  inb_S2x512x1_S2x512x1_0_0_0 : ∀ a, (![0, 0, 0] : Fin 3 → Nat) a + S2x512x1.size a ≤ S2x512x1.size a
  h_S2x512x1 : 0 < S2x512x1.numel
  shapeCasts_S2x512x1_S2x512x1 : S2x512x1.ShapeCasts S2x512x1
  reduces_S2x512x1_S512x1 : S2x512x1.Reduces [0] S512x1
  broadcasts_S512x1_S512x256 : S512x1.Broadcasts S512x256
  inb_S2x128x512_S2x128x512_0_0_0 : ∀ a, (![0, 0, 0] : Fin 3 → Nat) a + S2x128x512.size a ≤ S2x128x512.size a
  h_S2x128x512 : 0 < S2x128x512.numel
  shapeCasts_S2x128x512_S2x128x512 : S2x128x512.ShapeCasts S2x128x512
  reduces_S2x128x512_S128x512 : S2x128x512.Reduces [0] S128x512
  transposes_S128x512_p1_0_S512x128 : S128x512.Transposes [1, 0] S512x128
  broadcasts_S512x1_S512x128 : S512x1.Broadcasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  reduces_S512x512_S512 : S512x512.Reduces [0] S512
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  gather_S50000_S1600000x1_S1600000_n_0_n_n_0_1_1_wf : GatherDims.WF S50000 S1600000x1 S1600000 [] [0] [] [0] [] 1 ![1]
  dot_S512x1280_S1280x256_S512x256_1_0_0_1_n_n_wf : DotDims.WF S512x1280 S1280x256 S512x256 [1] [0] [0] [1] [] []
  dot_S3200x128_S512x3200_S128x512_0_1_1_0_n_n_wf : DotDims.WF S3200x128 S512x3200 S128x512 [0] [1] [1] [0] [] []
  dot_S512x128_S128x512_S512x512_1_0_0_1_n_n_wf : DotDims.WF S512x128 S128x512 S512x512 [1] [0] [0] [1] [] []
  dot_S512x256_S256x512_S512x512_1_0_0_1_n_n_wf : DotDims.WF S512x256 S256x512 S512x512 [1] [0] [0] [1] [] []
  dot_S512x512_S512x128_S512x128_1_0_0_1_n_n_wf : DotDims.WF S512x512 S512x128 S512x128 [1] [0] [0] [1] [] []
  hrank0 : 0 < grid0.rank
  k0_t1_ok : k0_t1_loop.OK
  k0_mult1_dvd : ∀ k0_t1 : Fin k0_t1_loop.trips, 1280 ∣ (k0_mult1 k0_t1).toNat
  k0_off1_inb : ∀ k0_t1 : Fin k0_t1_loop.trips, ∀ a, (k0_off1 k0_t1) a + S1280x256.size a ≤ S6400x256.size a
  k0_off2_inb : ∀ k0_t1 : Fin k0_t1_loop.trips, ∀ a, (k0_off2 k0_t1) a + S1x1280.size a ≤ S1x6400.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S51200x256.size a
  hwx0_0 : ∀ i : grid0.Coords, EltTy.bits .f32 = 32 ∨ (Rect.block (s := S51200x256) S6400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6400.size a ≤ S1x51200.size a
  hwx0_1 : ∀ i : grid0.Coords, EltTy.bits .i32 = 32 ∨ (Rect.block (s := S1x51200) S1x6400.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x512x256.size a
  hwx0_2 : ∀ i : grid0.Coords, EltTy.bits .f32 = 32 ∨ (Rect.block (s := S2x512x256) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hrank1 : 0 < grid1.rank
  k1_t1_ok : k1_t1_loop.OK
  k1_mult1_dvd : ∀ k1_t1 : Fin k1_t1_loop.trips, 3200 ∣ (k1_mult1 k1_t1).toNat
  k1_off1_inb : ∀ k1_t1 : Fin k1_t1_loop.trips, ∀ a, (k1_off1 k1_t1) a + S3200x128.size a ≤ S16000x128.size a
  k1_off2_inb : ∀ k1_t1 : Fin k1_t1_loop.trips, ∀ a, (k1_off2 k1_t1) a + S1x3200.size a ≤ S1x16000.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S1600000x128.size a
  hwx1_0 : ∀ i : grid1.Coords, EltTy.bits .f32 = 32 ∨ (Rect.block (s := S1600000x128) S16000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16000.size a ≤ S1x1600000.size a
  hwx1_1 : ∀ i : grid1.Coords, EltTy.bits .i32 = 32 ∨ (Rect.block (s := S1x1600000) S1x16000.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x512.size a ≤ S2x128x512.size a
  hwx1_2 : ∀ i : grid1.Coords, EltTy.bits .f32 = 32 ∨ (Rect.block (s := S2x128x512) S1x128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S2x512x1.size a
  hwx1_3 : ∀ i : grid1.Coords, EltTy.bits .f32 = 32 ∨ (Rect.block (s := S2x512x1) S1x512x1.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x512x256.size a ≤ S2x512x256.size a
  hwx2_1 : ∀ i : grid2.Coords, EltTy.bits .f32 = 32 ∨ (Rect.block (s := S2x512x256) S2x512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x512x1.size a ≤ S2x512x1.size a
  hwx2_2 : ∀ i : grid2.Coords, EltTy.bits .f32 = 32 ∨ (Rect.block (s := S2x512x1) S2x512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x128x512.size a ≤ S2x128x512.size a
  hwx2_3 : ∀ i : grid2.Coords, EltTy.bits .f32 = 32 ∨ (Rect.block (s := S2x128x512) S2x128x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2x512x1.size a ≤ S2x512x1.size a
  hwx2_4 : ∀ i : grid2.Coords, EltTy.bits .f32 = 32 ∨ (Rect.block (s := S2x512x1) S2x512x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x512.size a ≤ S128x512.size a
  hwx2_5 : ∀ i : grid2.Coords, EltTy.bits .f32 = 32 ∨ (Rect.block (s := S128x512) S128x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x512.size a ≤ S256x512.size a
  hwx2_6 : ∀ i : grid2.Coords, EltTy.bits .f32 = 32 ∨ (Rect.block (s := S256x512) S256x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x512.size a ≤ S128x512.size a
  hwx2_7 : ∀ i : grid2.Coords, EltTy.bits .f32 = 32 ∨ (Rect.block (s := S128x512) S128x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S512.size a ≤ S512.size a
  hwx2_8 : ∀ i : grid2.Coords, EltTy.bits .f32 = 32 ∨ (Rect.block (s := S512) S512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512.size a ≤ S512.size a
  hwx2_9 : ∀ i : grid2.Coords, EltTy.bits .f32 = 32 ∨ (Rect.block (s := S512) S512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S512.size a ≤ S512.size a
  hwx2_10 : ∀ i : grid2.Coords, EltTy.bits .f32 = 32 ∨ (Rect.block (s := S512) S512.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S512x128.size a ≤ S512x128.size a
  hwx2_11 : ∀ i : grid2.Coords, EltTy.bits .f32 = 32 ∨ (Rect.block (s := S512x128) S512x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S512x128.size a ≤ S512x128.size a
  hwx2_13 : ∀ i : grid2.Coords, EltTy.bits .f32 = 32 ∨ (Rect.block (s := S512x128) S512x128.size (cc2_transform_13 i) (hinb2_13 i)).WholeWords (EltTy.packing .f32)

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S512x1280_S1280x256_S512x256_1_0_0_1_n_n : DotDims S512x1280 S1280x256 S512x256 where
  lhsContracting := [1]
  rhsContracting := [0]
  lhsNonContracting := [0]
  rhsNonContracting := [1]
  lhsBatch := []
  rhsBatch := []
  wf := dot_S512x1280_S1280x256_S512x256_1_0_0_1_n_n_wf
def dot_S3200x128_S512x3200_S128x512_0_1_1_0_n_n : DotDims S3200x128 S512x3200 S128x512 where
  lhsContracting := [0]
  rhsContracting := [1]
  lhsNonContracting := [1]
  rhsNonContracting := [0]
  lhsBatch := []
  rhsBatch := []
  wf := dot_S3200x128_S512x3200_S128x512_0_1_1_0_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v9) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x16000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S1x128x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S1x512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg3) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v13_0) S2x512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13_1) S2x512x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14_0) S2x128x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14_1) S2x512x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S128x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S256x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v17) S128x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg7) S512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg8) S512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg9) S512x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg10) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v18) S512x128.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000x128 : Shape := ⟨2, ![1600000, 128]⟩
abbrev S512x128 : Shape := ⟨2, ![512, 128]⟩
abbrev S50000 : Shape := ⟨1, ![50000]⟩
abbrev S512x512 : Shape := ⟨2, ![512, 512]⟩
abbrev S512 : Shape := ⟨1, ![512]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S512x256 : Shape := ⟨2, ![512, 256]⟩
abbrev S50000x1 : Shape := ⟨2, ![50000, 1]⟩
abbrev S512x1 : Shape := ⟨2, ![512, 1]⟩
abbrev S1600000x1 : Shape := ⟨2, ![1600000, 1]⟩
abbrev S1x512 : Shape := ⟨2, ![1, 512]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x128, .f32⟩
  | .hbm, ⟨3, _⟩ => ⟨S512x128, .f32⟩
  | .hbm, ⟨4, _⟩ => ⟨S50000, .i32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S512x256, .f32⟩
  | .hbm, ⟨15, _⟩ => ⟨S50000x1, .i32⟩
  | .hbm, ⟨16, _⟩ => ⟨S512x256, .f32⟩
  | .hbm, ⟨17, _⟩ => ⟨S_, .f32⟩
  | .hbm, ⟨18, _⟩ => ⟨S50000, .f32⟩
  | .hbm, ⟨19, _⟩ => ⟨S_, .f32⟩
  | .hbm, ⟨20, _⟩ => ⟨S512, .f32⟩
  | .hbm, ⟨21, _⟩ => ⟨S50000x1, .i32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512x1, .f32⟩
  | .hbm, ⟨27, _⟩ => ⟨S512x256, .f32⟩
  | .hbm, ⟨28, _⟩ => ⟨S512x256, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .i32⟩
  | .hbm, ⟨38, _⟩ => ⟨S_, .f32⟩
  | .hbm, ⟨39, _⟩ => ⟨S512x128, .f32⟩
  | .hbm, ⟨40, _⟩ => ⟨S1600000x1, .i32⟩
  | .hbm, ⟨41, _⟩ => ⟨S512x128, .f32⟩
  | .hbm, ⟨42, _⟩ => ⟨S_, .f32⟩
  | .hbm, ⟨43, _⟩ => ⟨S1600000, .f32⟩
  | .hbm, ⟨44, _⟩ => ⟨S_, .f32⟩
  | .hbm, ⟨45, _⟩ => ⟨S512, .f32⟩
  | .hbm, ⟨46, _⟩ => ⟨S1600000x1, .i32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512x1, .f32⟩
  | .hbm, ⟨52, _⟩ => ⟨S512x128, .f32⟩
  | .hbm, ⟨53, _⟩ => ⟨S512x128, .f32⟩
  | .hbm, ⟨54, _⟩ => ⟨S512x512, .f32⟩
  | .hbm, ⟨55, _⟩ => ⟨S512x512, .f32⟩
  | .hbm, ⟨56, _⟩ => ⟨S1x512, .f32⟩
  | .hbm, ⟨57, _⟩ => ⟨S512x512, .f32⟩
  | .hbm, ⟨58, _⟩ => ⟨S512x512, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S1x512, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S1x512, .f32⟩
  | .hbm, ⟨74, _⟩ => ⟨S512x512, .f32⟩
  | .hbm, ⟨75, _⟩ => ⟨S512x512, .f32⟩
  | .hbm, ⟨76, _⟩ => ⟨S_, .f32⟩
  | .hbm, ⟨77, _⟩ => ⟨S512, .f32⟩
  | .hbm, ⟨78, _⟩ => ⟨S512, .f32⟩
  | .hbm, ⟨79, _⟩ => ⟨S512, .f32⟩
  | .hbm, ⟨80, _⟩ => ⟨S1x512, .f32⟩
  | .hbm, ⟨81, _⟩ => ⟨S512x512, .f32⟩
  | .hbm, ⟨82, _⟩ => ⟨S512x512, .f32⟩
  | .hbm, ⟨83, _⟩ => ⟨S1x512, .f32⟩
  | .hbm, ⟨84, _⟩ => ⟨S512x512, .f32⟩
  | .hbm, ⟨85, _⟩ => ⟨S512x512, .f32⟩
  | .hbm, ⟨86, _⟩ => ⟨S1x512, .f32⟩
  | .hbm, ⟨87, _⟩ => ⟨S512x512, .f32⟩
  | .hbm, ⟨88, _⟩ => ⟨S512x512, .f32⟩
  | .hbm, ⟨89, _⟩ => ⟨S_, .f32⟩
  | .hbm, ⟨90, _⟩ => ⟨S512x512, .f32⟩
  | .hbm, ⟨91, _⟩ => ⟨S512x512, .f32⟩
  | .hbm, ⟨92, _⟩ => ⟨S512x128, .f32⟩
  | .hbm, ⟨93, _⟩ => ⟨S1x128, .f32⟩
  | .hbm, ⟨94, _⟩ => ⟨S512x128, .f32⟩
  | .hbm, ⟨95, _⟩ => ⟨S512x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call0_cst : Ref sig .tc := ⟨.hbm, 89, rfl⟩
abbrev main_call0_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  concatenates_S512x128_S512x256_S512x128_S512x512_d1 : Shape.Concatenates [S512x128, S512x256, S512x128] S512x512 1
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  reducesTo_S512x512_S512_d0 : S512x512.ReducesTo [0] S512
  h_S_ : 0 < S_.numel
  bcast_S_S512x512 : S_.BroadcastsInDim S512x512 (![] : Fin 0 → Fin S512x512.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  gather_S50000_S1600000x1_S1600000_n_0_n_n_0_1_1_wf : GatherDims.WF S50000 S1600000x1 S1600000 [] [0] [] [0] [] 1 ![1]
  scatter_S512x128_S1600000x1_S1600000x128_1_0_0_1_wf : ScatterDims.WF S512x128 S1600000x1 S1600000x128 [1] [0] [0] 1
  scatter_S512_S1600000x1_S1600000_n_0_0_1_wf : ScatterDims.WF S512 S1600000x1 S1600000 [] [0] [0] 1
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []

variable [Facts₀]

def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S512x128_S1600000x1_S1600000x128_1_0_0_1 : ScatterDims S512x128 S1600000x1 S1600000x128 where
  updateWindowDims := [1]
  insertedWindowDims := [0]
  scatterDimsToOperandDims := [0]
  indexVectorDim := 1
  wf := scatter_S512x128_S1600000x1_S1600000x128_1_0_0_1_wf
def scatter_S512_S1600000x1_S1600000_n_0_0_1 : ScatterDims S512 S1600000x1 S1600000 where
  updateWindowDims := []
  insertedWindowDims := [0]
  scatterDimsToOperandDims := [0]
  indexVectorDim := 1
  wf := scatter_S512_S1600000x1_S1600000_n_0_0_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

class Facts : Prop extends Facts₀ where

variable [Facts]
-- ==== Proof.K.Reg0.lean ====
import proofs.«411700_j6279242186981_3_alg».proof.Proof.Gen.Kernel.Launch
import proofs.«411700_j6279242186981_3_alg».proof.Proof.Gen.Kernel.Skeleton
import proofs.«411700_j6279242186981_3_alg».proof.Proof.Gen.Kernel.Loops
import proofs.«411700_j6279242186981_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the node rows' segment sums and counts, per core

The grid is 2 cores × 4 tiles of 6400 padded node rows; a point's body walks its tile in five chunks of 1280 rows, each
chunk adding to the core's running [1, 512, 256] sum block and [1, 512, 1] count block; the first tile of a core
starts both blocks from zero, the later ones from what the tile before left. Everything is stated at a PARAMETER `V`,
the TensorCore's buffer contents when the region is entered. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one branch: "this is the core's first tile" (the second grid coordinate is 0). -/
abbrev cond (i : grid0.Coords) : Prop := (Scalar.cmpi .ne (Scalar.extui (Scalar.cmpi .eq (BitVec.ofNat 32 (i 1).val) 0#32)) 0#32) = 1#1
/-- It holds at the points 0 and 4. -/
theorem hcond : ∀ t : Fin cfg0.N, cond (grid0.coords t) ↔ t.val % 4 = 0 :=
  (by decide +kernel : ∀ t : Fin grid0.N, cond (grid0.coords t) ↔ t.val % 4 = 0)

/-- The rows and the ids chunk `k` reads: rows [1280 k, 1280 k + 1280) of the tile. -/
abbrev rx (k : Fin k0_t1_loop.trips) : Rect S6400x256 := Rect.unit (s := S6400x256) (k0_off1 k) S1280x256.size (k0_off1_inb k)
abbrev rs (k : Fin k0_t1_loop.trips) : Rect S1x6400 := Rect.unit (s := S1x6400) (k0_off2 k) S1x1280.size (k0_off2_inb k)

/-- One chunk: the sum block gains the one-hot product of the chunk's ids with its rows, the count block the ids' hits. -/
def chunk (x : Vec F S6400x256 .f32) (seg : Vec F S1x6400 .i32) (k : Fin k0_t1_loop.trips)
    (a : Vec F S1x512x256 .f32 × Vec F S1x512x1 .f32) : Vec F S1x512x256 .f32 × Vec F S1x512x1 .f32 :=
  (k0_pay4 (View.ld x (rx k)) (View.ld seg (rs k)) a.1, k0_pay5 (View.ld seg (rs k)) a.2)

/-- The first `k` chunks of a tile, in order, from `init`. -/
def accum (x : Vec F S6400x256 .f32) (seg : Vec F S1x6400 .i32) (init : Vec F S1x512x256 .f32 × Vec F S1x512x1 .f32) :
    ℕ → Vec F S1x512x256 .f32 × Vec F S1x512x1 .f32
  | 0 => init
  | k + 1 => if h : k < k0_t1_loop.trips then chunk x seg ⟨k, h⟩ (accum x seg init k) else accum x seg init k

/-- A whole tile. -/
def tile (x : Vec F S6400x256 .f32) (seg : Vec F S1x6400 .i32) (init : Vec F S1x512x256 .f32 × Vec F S1x512x1 .f32) :
    Vec F S1x512x256 .f32 × Vec F S1x512x1 .f32 := accum x seg init k0_t1_loop.trips

/-- The two blocks at zero. -/
def zero : Vec F S1x512x256 .f32 × Vec F S1x512x1 .f32 := (k0_pay1 (F := F), k0_pay2 (F := F))

/-- What the two output blocks hold after the body at position `n`: the tile's chunks added to zero at a core's first
    tile, to what position `n - 1` left otherwise. -/
def outsAt (c : Dev nD) : (n : ℕ) → n < cfg0.N → Vec F S1x512x256 .f32 × Vec F S1x512x1 .f32
  | 0, hn => tile (iblk V c 0 ⟨0, hn⟩) (iblk V c 1 ⟨0, hn⟩) zero
  | n + 1, hn =>
    if (n + 1) % 4 = 0 then tile (iblk V c 0 ⟨n + 1, hn⟩) (iblk V c 1 ⟨n + 1, hn⟩) zero
    else tile (iblk V c 0 ⟨n + 1, hn⟩) (iblk V c 1 ⟨n + 1, hn⟩) (outsAt c n (Nat.lt_of_succ_lt hn))

theorem outsAt_first (c : Dev nD) (t : Fin cfg0.N) (h0 : t.val % 4 = 0) :
    outsAt V c t.val t.isLt = tile (iblk V c 0 t) (iblk V c 1 t) zero := by
  obtain ⟨n, hn⟩ := t
  cases n with
  | zero => rfl
  | succ n => exact (if_pos h0)

theorem outsAt_later (c : Dev nD) (t : Fin cfg0.N) (h0 : ¬t.val % 4 = 0) :
    outsAt V c t.val t.isLt = tile (iblk V c 0 t) (iblk V c 1 t) (outsAt V c (t.val - 1) (Nat.lt_of_le_of_lt (Nat.sub_le _ _) t.isLt)) := by
  obtain ⟨n, hn⟩ := t
  cases n with
  | zero => exact absurd (Nat.zero_mod _) h0
  | succ n => exact (if_neg h0)

/-- The proof data of pipeline 0 on core `c`: the arrays as the region finds them; after the body at point `t` the two
    inputs' buffers at their blocks and the two outputs' at `outsAt`; the class's invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem after_3 (c : Dev nD) (t : Fin cfg0.N) : (dat V c).after 3 t = (outsAt V c t.val t.isLt).2 := by dsimp only [dat]

/-! ## The chunks, read off the loop's trips -/

/-- The whole-block rectangle's offsets are zero. -/
theorem off3 : (![0, 0, 0] : Fin 3 → ℕ) = fun _ => 0 := funext fun a => by fin_cases a <;> rfl

/-- The whole sum block and the whole count block, as the body's loads and stores name them. -/
abbrev r4 : Rect S1x512x256 := Rect.unit (s := S1x512x256) ![0, 0, 0] S1x512x256.size inb_S1x512x256_S1x512x256_0_0_0
abbrev r5 : Rect S1x512x1 := Rect.unit (s := S1x512x1) ![0, 0, 0] S1x512x1.size inb_S1x512x1_S1x512x1_0_0_0

/-- One store through the whole block covers it, -/
theorem cover4 (w : Vec F S1x512x256 .f32) (y : S1x512x256.Idx) :
    ∃ p ∈ ([⟨r4, w⟩] : List (View.Piece (Elt F) S1x512x256 .f32)), y ∈ p.1.set :=
  ⟨_, List.mem_singleton_self _, View.mem_set_unit_zero off3 inb_S1x512x256_S1x512x256_0_0_0 y⟩
theorem cover5 (w : Vec F S1x512x1 .f32) (y : S1x512x1.Idx) :
    ∃ p ∈ ([⟨r5, w⟩] : List (View.Piece (Elt F) S1x512x1 .f32)), y ∈ p.1.set :=
  ⟨_, List.mem_singleton_self _, View.mem_set_unit_zero off3 inb_S1x512x1_S1x512x1_0_0_0 y⟩

/-- so it leaves its payload, whatever the buffer held. -/
theorem read_store4 {sig' : RefSig} {κ : Kind} {sp : Space} (v : View sig' κ sp S1x512x256 .f32) (f : v.ty.Contents (Elt F)) (w : Vec F S1x512x256 .f32) :
    v.read (Elt F) (v.writes (Elt F) f [⟨r4, w⟩]) = w := by
  rw [View.read_writes_eq_canon _ _ _ (cover4 w)]
  exact View.canon_unit_zero off3 inb_S1x512x256_S1x512x256_0_0_0 w
theorem read_store5 {sig' : RefSig} {κ : Kind} {sp : Space} (v : View sig' κ sp S1x512x1 .f32) (f : v.ty.Contents (Elt F)) (w : Vec F S1x512x1 .f32) :
    v.read (Elt F) (v.writes (Elt F) f [⟨r5, w⟩]) = w := by
  rw [View.read_writes_eq_canon _ _ _ (cover5 w)]
  exact View.canon_unit_zero off3 inb_S1x512x1_S1x512x1_0_0_0 w
/-- A load through the whole block reads the contents. -/
theorem ld4 (X : Vec F S1x512x256 .f32) : View.ld X r4 = X := View.ld_unit_zero off3 inb_S1x512x256_S1x512x256_0_0_0 X
theorem ld5 (X : Vec F S1x512x1 .f32) : View.ld X r5 = X := View.ld_unit_zero off3 inb_S1x512x1_S1x512x1_0_0_0 X

section Trip

variable (𝒱 : Variants) (c : Dev nD) (bd : Option 𝒱.V) (i : grid0.Coords)
  (arg2 : Memref sig .tc .vmem S6400x256 .f32) (harg2 : arg2.IsWhole) (arg3 : Memref sig .tc .vmem S1x6400 .i32) (harg3 : arg3.IsWhole)
  (arg4 : Memref sig .tc .vmem S1x512x256 .f32) (harg4 : arg4.IsWhole) (arg5 : Memref sig .tc .vmem S1x512x1 .f32) (harg5 : arg5.IsWhole)
  (X2 : BufTy.Contents (Elt F) arg2.view.ty) (X3 : BufTy.Contents (Elt F) arg3.view.ty)

/-- Trip `k` writes each block once, whole: the chunk's payloads of the rows and ids it loads and of the block it finds. -/
theorem tripL_eq (k : Fin k0_t1_loop.trips) (f4 : BufTy.Contents (Elt F) arg4.view.ty) (f5 : BufTy.Contents (Elt F) arg5.view.ty) :
    tripL_k0_t1 (F := F) 𝒱 c bd i arg2 harg2 arg3 harg3 arg4 harg4 arg5 harg5 X2 X3 k f4 f5
      = ([⟨r4, k0_pay4 (View.ld (arg2.view.read (Elt F) X2) (rx k)) (View.ld (arg3.view.read (Elt F) X3) (rs k)) (View.ld (arg4.view.read (Elt F) f4) r4)⟩],
         [⟨r5, k0_pay5 (View.ld (arg3.view.read (Elt F) X3) (rs k)) (View.ld (arg5.view.read (Elt F) f5) r5)⟩]) := by
  unfold tripL_k0_t1
  unfold trip_k0_t1
  rfl

/-- So after trip `k` the two blocks read as the chunk of what they read before. -/
theorem read_trip (k : Fin k0_t1_loop.trips) (f4 : BufTy.Contents (Elt F) arg4.view.ty) (f5 : BufTy.Contents (Elt F) arg5.view.ty) :
    (arg4.view.read (Elt F) (arg4.view.writes (Elt F) f4 (tripL_k0_t1 (F := F) 𝒱 c bd i arg2 harg2 arg3 harg3 arg4 harg4 arg5 harg5 X2 X3 k f4 f5).1),
     arg5.view.read (Elt F) (arg5.view.writes (Elt F) f5 (tripL_k0_t1 (F := F) 𝒱 c bd i arg2 harg2 arg3 harg3 arg4 harg4 arg5 harg5 X2 X3 k f4 f5).2))
      = chunk (arg2.view.read (Elt F) X2) (arg3.view.read (Elt F) X3) k (arg4.view.read (Elt F) f4, arg5.view.read (Elt F) f5) := by
  rw [tripL_eq]
  unfold chunk
  dsimp only
  rw [read_store4, read_store5, ld4, ld5]

/-- After the first `n` trips, from contents `G4`, `G5`, the two blocks read as the first `n` chunks added to what `G4`, `G5` read. -/
theorem read_pb (G4 : BufTy.Contents (Elt F) arg4.view.ty) (G5 : BufTy.Contents (Elt F) arg5.view.ty) :
    ∀ n, n ≤ k0_t1_loop.trips →
      (arg4.view.read (Elt F) (arg4.view.writes (Elt F) G4 (pb_k0_t1 (F := F) 𝒱 c bd i arg2 harg2 arg3 harg3 arg4 harg4 arg5 harg5 X2 X3 G4 G5 n).1),
       arg5.view.read (Elt F) (arg5.view.writes (Elt F) G5 (pb_k0_t1 (F := F) 𝒱 c bd i arg2 harg2 arg3 harg3 arg4 harg4 arg5 harg5 X2 X3 G4 G5 n).2))
        = accum (arg2.view.read (Elt F) X2) (arg3.view.read (Elt F) X3) (arg4.view.read (Elt F) G4, arg5.view.read (Elt F) G5) n
  | 0, _ => by rw [pb_k0_t1.eq_1]; rfl
  | n + 1, h => by
    have hn : n < k0_t1_loop.trips := h
    rw [show n + 1 = (⟨n, hn⟩ : Fin k0_t1_loop.trips).val + 1 from rfl, pb_k0_t1_succ]
    dsimp only
    rw [View.writes_append, View.writes_append, read_trip, read_pb G4 G5 n (Nat.le_of_lt hn)]
    rw [accum, dif_pos hn]

end Trip

/-! ## A tile: the loop's trips after the reset, or after what the tile before left -/

section Run

variable (𝒱 : Variants) (c : Dev nD) (bd : Option 𝒱.V) (i : grid0.Coords)
  (arg2 : Memref sig .tc .vmem S6400x256 .f32) (harg2 : arg2.IsWhole) (arg3 : Memref sig .tc .vmem S1x6400 .i32) (harg3 : arg3.IsWhole)
  (arg4 : Memref sig .tc .vmem S1x512x256 .f32) (harg4 : arg4.IsWhole) (arg5 : Memref sig .tc .vmem S1x512x1 .f32) (harg5 : arg5.IsWhole)

/-- The loop after a whole-block store of `w4`, `w5`: the blocks read as the tile from `(w4, w5)`. -/
theorem read_run_first (J4 : BufTy.Contents (Elt F) arg4.view.ty) (J5 : BufTy.Contents (Elt F) arg5.view.ty)
    (w4 : Vec F S1x512x256 .f32) (w5 : Vec F S1x512x1 .f32) (x0 : Vec F S6400x256 .f32) (x1 : Vec F S1x6400 .i32) :
    (arg4.view.read (Elt F) (arg4.view.writes (Elt F) J4
        ((pb_k0_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k0_t1_loop.trips).1 ++ [⟨r4, w4⟩])),
     arg5.view.read (Elt F) (arg5.view.writes (Elt F) J5
        ((pb_k0_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k0_t1_loop.trips).2 ++ [⟨r5, w5⟩])))
      = tile x0 x1 (w4, w5) := by
  rw [View.writes_append, View.writes_append, read_pb _ _ _ _ _ _ _ _ _ _ _ _ _ _ _ _ _ (Nat.le_refl _),
    harg2.read_unread, harg3.read_unread, read_store4, read_store5]
  rfl

/-- The loop over blocks reading `init`: the blocks read as the tile from `init`. -/
theorem read_run_later (x0 : Vec F S6400x256 .f32) (x1 : Vec F S1x6400 .i32) (init : Vec F S1x512x256 .f32 × Vec F S1x512x1 .f32) :
    (arg4.view.read (Elt F) (arg4.view.writes (Elt F) (harg4.unread init.1)
        (pb_k0_t1 (F := F) 𝒱 c bd i arg2 harg2 arg3 harg3 arg4 harg4 arg5 harg5 (harg2.unread x0) (harg3.unread x1)
          (harg4.unread init.1) (harg5.unread init.2) k0_t1_loop.trips).1),
     arg5.view.read (Elt F) (arg5.view.writes (Elt F) (harg5.unread init.2)
        (pb_k0_t1 (F := F) 𝒱 c bd i arg2 harg2 arg3 harg3 arg4 harg4 arg5 harg5 (harg2.unread x0) (harg3.unread x1)
          (harg4.unread init.1) (harg5.unread init.2) k0_t1_loop.trips).2))
      = tile x0 x1 init := by
  rw [read_pb _ _ _ _ _ _ _ _ _ _ _ _ _ _ _ _ _ (Nat.le_refl _),
    harg2.read_unread, harg3.read_unread, harg4.read_unread, harg5.read_unread, Prod.mk.eta]
  rfl

end Run

set_option maxHeartbeats 4000000 in
/-- The body at a core's first tile: the inputs' buffers at their blocks, the outputs' at anything; it leaves the tile's chunks added to zero. -/
theorem run_first (c : Dev nD) (i : grid0.Coords) (arg2 : Memref sig .tc .vmem S6400x256 .f32) (harg2 : arg2.IsWhole) (arg3 : Memref sig .tc .vmem S1x6400 .i32) (harg3 : arg3.IsWhole) (arg4 : Memref sig .tc .vmem S1x512x256 .f32) (harg4 : arg4.IsWhole) (arg5 : Memref sig .tc .vmem S1x512x1 .f32) (harg5 : arg5.IsWhole) (hc : cond i)
    (x0 : Vec F S6400x256 .f32) (x1 : Vec F S1x6400 .i32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tile x0 x1 (zero (F := F))).1 ∗ owns (c : Thread nD τ) arg5 fullShare (tile x0 x1 (zero (F := F))).2) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0
  obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    exact congrArg Prod.fst (read_run_first Variants.none c none i arg2 harg2 arg3 harg3 arg4 harg4 arg5 harg5 _ _ k0_pay1 k0_pay2 x0 x1)
  iexists _; isplitr
  swap; · iexact H3
  ipureintro
  sl_unfold_words
  exact congrArg Prod.snd (read_run_first Variants.none c none i arg2 harg2 arg3 harg3 arg4 harg4 arg5 harg5 _ _ k0_pay1 k0_pay2 x0 x1)

set_option maxHeartbeats 4000000 in
/-- The body at a later tile: the outputs' buffers at what the tile before left; it leaves the tile's chunks added to that. -/
theorem run_later (c : Dev nD) (i : grid0.Coords) (arg2 : Memref sig .tc .vmem S6400x256 .f32) (harg2 : arg2.IsWhole) (arg3 : Memref sig .tc .vmem S1x6400 .i32) (harg3 : arg3.IsWhole) (arg4 : Memref sig .tc .vmem S1x512x256 .f32) (harg4 : arg4.IsWhole) (arg5 : Memref sig .tc .vmem S1x512x1 .f32) (harg5 : arg5.IsWhole) (hc : ¬cond i)
    (x0 : Vec F S6400x256 .f32) (x1 : Vec F S1x6400 .i32) (init : Vec F S1x512x256 .f32 × Vec F S1x512x1 .f32) (E : Set ℕ) (K : PUnit → sProp 𝕄) :
    iprop(owns (c : Thread nD τ) arg2 fullShare x0 ∗ owns (c : Thread nD τ) arg3 fullShare x1 ∗ owns (c : Thread nD τ) arg4 fullShare init.1 ∗ owns (c : Thread nD τ) arg5 fullShare init.2
        ∗ (iprop(owns (c : Thread nD τ) arg2 fullShare x0 ∗ owns (c : Thread nD τ) arg3 fullShare x1
            ∗ owns (c : Thread nD τ) arg4 fullShare (tile x0 x1 init).1 ∗ owns (c : Thread nD τ) arg5 fullShare (tile x0 x1 init).2) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact congrArg Prod.fst (read_run_later Variants.none c none i arg2 harg2 arg3 harg3 arg4 harg4 arg5 harg5 x0 x1 init)
  iexists _; isplitr
  swap; · iexact H3
  ipureintro
  exact congrArg Prod.snd (read_run_later Variants.none c none i arg2 harg2 arg3 harg3 arg4 harg4 arg5 harg5 x0 x1 init)

/-! ## What the body finds in each window's buffer -/

/-- Each input's current staging buffer holds its block at every point, fetched there or not: the body leaves the
    block in place, the windows are uncut and never idle. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- At a later tile of a core each output's current staging buffer holds what the body left at the point before: the
    point is not the first, the buffer was not written back between (that happens after a core's last tile only), the
    window is live and uncut. -/
theorem before_2_later (c : Dev nD) (t : Fin cfg0.N) (h0 : ¬t.val % 4 = 0) (d) :
    (dat V c).before 2 t d = (outsAt V c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat]
theorem before_3_later (c : Dev nD) (t : Fin cfg0.N) (h0 : ¬t.val % 4 = 0) (d) :
    (dat V c).before 3 t d = (outsAt V c (t.val - 1) (Nat.lt_of_le_of_lt (Nat.sub_le _ _) t.isLt)).2 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dat]

/-! ## The body obligation, at a generic point -/

/-- Each window's current staging memref at point `t`, spelled as the pipeline passes it, and its wholeness. -/
abbrev ms_0 (t : Fin cfg0.N) : Memref sig .tc .vmem S6400x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x6400 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512x1 .f32 := win0_3.stage (cfg0.slots t 3)
abbrev hs_3 (t : Fin cfg0.N) : (ms_3 t).IsWhole := hstage0_3 ((cfg0.slots t 3).cast nbuf0_3)

/-- What the body is called with at point `t` (the library's precondition, the windows one by one), -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t))

set_option maxHeartbeats 1600000 in
/-- The body at any point: the inputs' memrefs hold their blocks; the condition's closed form says whether the point is a
    core's first tile; at a later one the outputs hold what the point before left; so the run applies; the invariant
    passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val % 4 = 0
  · rw [outsAt_first V c t h0]
    iintro ⟨HΦ, Ho, ⟨%d0, H0⟩, ⟨%d1, H1⟩, ⟨%d2, H2⟩, ⟨%d3, H3⟩⟩
    iapply (run_first c (grid0.coords t) _ (hs_0 t) _ (hs_1 t) _ (hs_2 t) _ (hs_3 t) ((hcond t).mpr h0) (iblk V c 0 t) (iblk V c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_later V c t h0]
    simp only [before_2_later V c t h0, before_3_later V c t h0]
    iintro ⟨HΦ, Ho, ⟨%d0, H0⟩, ⟨%d1, H1⟩, ⟨%d2, H2⟩, ⟨%d3, H3⟩⟩
    iapply (run_later c (grid0.coords t) _ (hs_0 t) _ (hs_1 t) _ (hs_2 t) _ (hs_3 t) (fun h => h0 ((hcond t).mp h)) (iblk V c 0 t) (iblk V c 1 t)
      (outsAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.K.Reg1.lean ====
import proofs.«411700_j6279242186981_3_alg».proof.Proof.Gen.Kernel.Launch
import proofs.«411700_j6279242186981_3_alg».proof.Proof.Gen.Kernel.Skeleton
import proofs.«411700_j6279242186981_3_alg».proof.Proof.Gen.Kernel.Loops
import proofs.«411700_j6279242186981_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the edge rows' segment sums and counts, per core

The grid is 2 cores × 50 tiles of 16000 edge rows; a point's body walks its tile in five chunks of 3200 rows, each
chunk adding to the core's running [1, 128, 512] sum block (segments along the last axis) and [1, 512, 1] count block; the first tile of a core
starts both blocks from zero, the later ones from what the tile before left. Everything is stated at a PARAMETER `V`,
the TensorCore's buffer contents when the region is entered. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's one branch: "this is the core's first tile" (the second grid coordinate is 0). -/
abbrev cond (i : grid1.Coords) : Prop := (Scalar.cmpi .ne (Scalar.extui (Scalar.cmpi .eq (BitVec.ofNat 32 (i 1).val) 0#32)) 0#32) = 1#1
/-- It holds at the points 0 and 50. -/
theorem hcond : ∀ t : Fin cfg1.N, cond (grid1.coords t) ↔ t.val % 50 = 0 :=
  (by decide +kernel : ∀ t : Fin grid1.N, cond (grid1.coords t) ↔ t.val % 50 = 0)

/-- The rows and the ids chunk `k` reads: rows [3200 k, 3200 k + 3200) of the tile. -/
abbrev rx (k : Fin k1_t1_loop.trips) : Rect S16000x128 := Rect.unit (s := S16000x128) (k1_off1 k) S3200x128.size (k1_off1_inb k)
abbrev rs (k : Fin k1_t1_loop.trips) : Rect S1x16000 := Rect.unit (s := S1x16000) (k1_off2 k) S1x3200.size (k1_off2_inb k)

/-- One chunk: the sum block gains the one-hot product of the chunk's ids with its rows, the count block the ids' hits. -/
def chunk (x : Vec F S16000x128 .f32) (seg : Vec F S1x16000 .i32) (k : Fin k1_t1_loop.trips)
    (a : Vec F S1x128x512 .f32 × Vec F S1x512x1 .f32) : Vec F S1x128x512 .f32 × Vec F S1x512x1 .f32 :=
  (k1_pay4 (View.ld x (rx k)) (View.ld seg (rs k)) a.1, k1_pay5 (View.ld seg (rs k)) a.2)

/-- The first `k` chunks of a tile, in order, from `init`. -/
def accum (x : Vec F S16000x128 .f32) (seg : Vec F S1x16000 .i32) (init : Vec F S1x128x512 .f32 × Vec F S1x512x1 .f32) :
    ℕ → Vec F S1x128x512 .f32 × Vec F S1x512x1 .f32
  | 0 => init
  | k + 1 => if h : k < k1_t1_loop.trips then chunk x seg ⟨k, h⟩ (accum x seg init k) else accum x seg init k

/-- A whole tile. -/
def tile (x : Vec F S16000x128 .f32) (seg : Vec F S1x16000 .i32) (init : Vec F S1x128x512 .f32 × Vec F S1x512x1 .f32) :
    Vec F S1x128x512 .f32 × Vec F S1x512x1 .f32 := accum x seg init k1_t1_loop.trips

/-- The two blocks at zero. -/
def zero : Vec F S1x128x512 .f32 × Vec F S1x512x1 .f32 := (k1_pay1 (F := F), k1_pay2 (F := F))

/-- What the two output blocks hold after the body at position `n`: the tile's chunks added to zero at a core's first
    tile, to what position `n - 1` left otherwise. -/
def outsAt (c : Dev nD) : (n : ℕ) → n < cfg1.N → Vec F S1x128x512 .f32 × Vec F S1x512x1 .f32
  | 0, hn => tile (iblk V c 0 ⟨0, hn⟩) (iblk V c 1 ⟨0, hn⟩) zero
  | n + 1, hn =>
    if (n + 1) % 50 = 0 then tile (iblk V c 0 ⟨n + 1, hn⟩) (iblk V c 1 ⟨n + 1, hn⟩) zero
    else tile (iblk V c 0 ⟨n + 1, hn⟩) (iblk V c 1 ⟨n + 1, hn⟩) (outsAt c n (Nat.lt_of_succ_lt hn))

theorem outsAt_first (c : Dev nD) (t : Fin cfg1.N) (h0 : t.val % 50 = 0) :
    outsAt V c t.val t.isLt = tile (iblk V c 0 t) (iblk V c 1 t) zero := by
  obtain ⟨n, hn⟩ := t
  cases n with
  | zero => rfl
  | succ n => exact (if_pos h0)

theorem outsAt_later (c : Dev nD) (t : Fin cfg1.N) (h0 : ¬t.val % 50 = 0) :
    outsAt V c t.val t.isLt = tile (iblk V c 0 t) (iblk V c 1 t) (outsAt V c (t.val - 1) (Nat.lt_of_le_of_lt (Nat.sub_le _ _) t.isLt)) := by
  obtain ⟨n, hn⟩ := t
  cases n with
  | zero => exact absurd (Nat.zero_mod _) h0
  | succ n => exact (if_neg h0)

/-- The proof data of pipeline 1 on core `c`: the arrays as the region finds them; after the body at point `t` the two
    inputs' buffers at their blocks and the two outputs' at `outsAt`; the class's invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
    | ⟨3, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]
theorem after_3 (c : Dev nD) (t : Fin cfg1.N) : (dat V c).after 3 t = (outsAt V c t.val t.isLt).2 := by dsimp only [dat]

/-! ## The chunks, read off the loop's trips -/

/-- The whole-block rectangle's offsets are zero. -/
theorem off3 : (![0, 0, 0] : Fin 3 → ℕ) = fun _ => 0 := funext fun a => by fin_cases a <;> rfl

/-- The whole sum block and the whole count block, as the body's loads and stores name them. -/
abbrev r4 : Rect S1x128x512 := Rect.unit (s := S1x128x512) ![0, 0, 0] S1x128x512.size inb_S1x128x512_S1x128x512_0_0_0
abbrev r5 : Rect S1x512x1 := Rect.unit (s := S1x512x1) ![0, 0, 0] S1x512x1.size inb_S1x512x1_S1x512x1_0_0_0

/-- One store through the whole block covers it, -/
theorem cover4 (w : Vec F S1x128x512 .f32) (y : S1x128x512.Idx) :
    ∃ p ∈ ([⟨r4, w⟩] : List (View.Piece (Elt F) S1x128x512 .f32)), y ∈ p.1.set :=
  ⟨_, List.mem_singleton_self _, View.mem_set_unit_zero off3 inb_S1x128x512_S1x128x512_0_0_0 y⟩
theorem cover5 (w : Vec F S1x512x1 .f32) (y : S1x512x1.Idx) :
    ∃ p ∈ ([⟨r5, w⟩] : List (View.Piece (Elt F) S1x512x1 .f32)), y ∈ p.1.set :=
  ⟨_, List.mem_singleton_self _, View.mem_set_unit_zero off3 inb_S1x512x1_S1x512x1_0_0_0 y⟩

/-- so it leaves its payload, whatever the buffer held. -/
theorem read_store4 {sig' : RefSig} {κ : Kind} {sp : Space} (v : View sig' κ sp S1x128x512 .f32) (f : v.ty.Contents (Elt F)) (w : Vec F S1x128x512 .f32) :
    v.read (Elt F) (v.writes (Elt F) f [⟨r4, w⟩]) = w := by
  rw [View.read_writes_eq_canon _ _ _ (cover4 w)]
  exact View.canon_unit_zero off3 inb_S1x128x512_S1x128x512_0_0_0 w
theorem read_store5 {sig' : RefSig} {κ : Kind} {sp : Space} (v : View sig' κ sp S1x512x1 .f32) (f : v.ty.Contents (Elt F)) (w : Vec F S1x512x1 .f32) :
    v.read (Elt F) (v.writes (Elt F) f [⟨r5, w⟩]) = w := by
  rw [View.read_writes_eq_canon _ _ _ (cover5 w)]
  exact View.canon_unit_zero off3 inb_S1x512x1_S1x512x1_0_0_0 w
/-- A load through the whole block reads the contents. -/
theorem ld4 (X : Vec F S1x128x512 .f32) : View.ld X r4 = X := View.ld_unit_zero off3 inb_S1x128x512_S1x128x512_0_0_0 X
theorem ld5 (X : Vec F S1x512x1 .f32) : View.ld X r5 = X := View.ld_unit_zero off3 inb_S1x512x1_S1x512x1_0_0_0 X

section Trip

variable (𝒱 : Variants) (c : Dev nD) (bd : Option 𝒱.V) (i : grid1.Coords)
  (arg2 : Memref sig .tc .vmem S16000x128 .f32) (harg2 : arg2.IsWhole) (arg3 : Memref sig .tc .vmem S1x16000 .i32) (harg3 : arg3.IsWhole)
  (arg4 : Memref sig .tc .vmem S1x128x512 .f32) (harg4 : arg4.IsWhole) (arg5 : Memref sig .tc .vmem S1x512x1 .f32) (harg5 : arg5.IsWhole)
  (X2 : BufTy.Contents (Elt F) arg2.view.ty) (X3 : BufTy.Contents (Elt F) arg3.view.ty)

/-- Trip `k` writes each block once, whole: the chunk's payloads of the rows and ids it loads and of the block it finds. -/
theorem tripL_eq (k : Fin k1_t1_loop.trips) (f4 : BufTy.Contents (Elt F) arg4.view.ty) (f5 : BufTy.Contents (Elt F) arg5.view.ty) :
    tripL_k1_t1 (F := F) 𝒱 c bd i arg2 harg2 arg3 harg3 arg4 harg4 arg5 harg5 X2 X3 k f4 f5
      = ([⟨r4, k1_pay4 (View.ld (arg2.view.read (Elt F) X2) (rx k)) (View.ld (arg3.view.read (Elt F) X3) (rs k)) (View.ld (arg4.view.read (Elt F) f4) r4)⟩],
         [⟨r5, k1_pay5 (View.ld (arg3.view.read (Elt F) X3) (rs k)) (View.ld (arg5.view.read (Elt F) f5) r5)⟩]) := by
  unfold tripL_k1_t1
  unfold trip_k1_t1
  rfl

/-- So after trip `k` the two blocks read as the chunk of what they read before. -/
theorem read_trip (k : Fin k1_t1_loop.trips) (f4 : BufTy.Contents (Elt F) arg4.view.ty) (f5 : BufTy.Contents (Elt F) arg5.view.ty) :
    (arg4.view.read (Elt F) (arg4.view.writes (Elt F) f4 (tripL_k1_t1 (F := F) 𝒱 c bd i arg2 harg2 arg3 harg3 arg4 harg4 arg5 harg5 X2 X3 k f4 f5).1),
     arg5.view.read (Elt F) (arg5.view.writes (Elt F) f5 (tripL_k1_t1 (F := F) 𝒱 c bd i arg2 harg2 arg3 harg3 arg4 harg4 arg5 harg5 X2 X3 k f4 f5).2))
      = chunk (arg2.view.read (Elt F) X2) (arg3.view.read (Elt F) X3) k (arg4.view.read (Elt F) f4, arg5.view.read (Elt F) f5) := by
  rw [tripL_eq]
  unfold chunk
  dsimp only
  rw [read_store4, read_store5, ld4, ld5]

/-- After the first `n` trips, from contents `G4`, `G5`, the two blocks read as the first `n` chunks added to what `G4`, `G5` read. -/
theorem read_pb (G4 : BufTy.Contents (Elt F) arg4.view.ty) (G5 : BufTy.Contents (Elt F) arg5.view.ty) :
    ∀ n, n ≤ k1_t1_loop.trips →
      (arg4.view.read (Elt F) (arg4.view.writes (Elt F) G4 (pb_k1_t1 (F := F) 𝒱 c bd i arg2 harg2 arg3 harg3 arg4 harg4 arg5 harg5 X2 X3 G4 G5 n).1),
       arg5.view.read (Elt F) (arg5.view.writes (Elt F) G5 (pb_k1_t1 (F := F) 𝒱 c bd i arg2 harg2 arg3 harg3 arg4 harg4 arg5 harg5 X2 X3 G4 G5 n).2))
        = accum (arg2.view.read (Elt F) X2) (arg3.view.read (Elt F) X3) (arg4.view.read (Elt F) G4, arg5.view.read (Elt F) G5) n
  | 0, _ => by rw [pb_k1_t1.eq_1]; rfl
  | n + 1, h => by
    have hn : n < k1_t1_loop.trips := h
    rw [show n + 1 = (⟨n, hn⟩ : Fin k1_t1_loop.trips).val + 1 from rfl, pb_k1_t1_succ]
    dsimp only
    rw [View.writes_append, View.writes_append, read_trip, read_pb G4 G5 n (Nat.le_of_lt hn)]
    rw [accum, dif_pos hn]

end Trip

/-! ## A tile: the loop's trips after the reset, or after what the tile before left -/

section Run

variable (𝒱 : Variants) (c : Dev nD) (bd : Option 𝒱.V) (i : grid1.Coords)
  (arg2 : Memref sig .tc .vmem S16000x128 .f32) (harg2 : arg2.IsWhole) (arg3 : Memref sig .tc .vmem S1x16000 .i32) (harg3 : arg3.IsWhole)
  (arg4 : Memref sig .tc .vmem S1x128x512 .f32) (harg4 : arg4.IsWhole) (arg5 : Memref sig .tc .vmem S1x512x1 .f32) (harg5 : arg5.IsWhole)

/-- The loop after a whole-block store of `w4`, `w5`: the blocks read as the tile from `(w4, w5)`. -/
theorem read_run_first (J4 : BufTy.Contents (Elt F) arg4.view.ty) (J5 : BufTy.Contents (Elt F) arg5.view.ty)
    (w4 : Vec F S1x128x512 .f32) (w5 : Vec F S1x512x1 .f32) (x0 : Vec F S16000x128 .f32) (x1 : Vec F S1x16000 .i32) :
    (arg4.view.read (Elt F) (arg4.view.writes (Elt F) J4
        ((pb_k1_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k1_t1_loop.trips).1 ++ [⟨r4, w4⟩])),
     arg5.view.read (Elt F) (arg5.view.writes (Elt F) J5
        ((pb_k1_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k1_t1_loop.trips).2 ++ [⟨r5, w5⟩])))
      = tile x0 x1 (w4, w5) := by
  rw [View.writes_append, View.writes_append, read_pb _ _ _ _ _ _ _ _ _ _ _ _ _ _ _ _ _ (Nat.le_refl _),
    harg2.read_unread, harg3.read_unread, read_store4, read_store5]
  rfl

/-- The loop over blocks reading `init`: the blocks read as the tile from `init`. -/
theorem read_run_later (x0 : Vec F S16000x128 .f32) (x1 : Vec F S1x16000 .i32) (init : Vec F S1x128x512 .f32 × Vec F S1x512x1 .f32) :
    (arg4.view.read (Elt F) (arg4.view.writes (Elt F) (harg4.unread init.1)
        (pb_k1_t1 (F := F) 𝒱 c bd i arg2 harg2 arg3 harg3 arg4 harg4 arg5 harg5 (harg2.unread x0) (harg3.unread x1)
          (harg4.unread init.1) (harg5.unread init.2) k1_t1_loop.trips).1),
     arg5.view.read (Elt F) (arg5.view.writes (Elt F) (harg5.unread init.2)
        (pb_k1_t1 (F := F) 𝒱 c bd i arg2 harg2 arg3 harg3 arg4 harg4 arg5 harg5 (harg2.unread x0) (harg3.unread x1)
          (harg4.unread init.1) (harg5.unread init.2) k1_t1_loop.trips).2))
      = tile x0 x1 init := by
  rw [read_pb _ _ _ _ _ _ _ _ _ _ _ _ _ _ _ _ _ (Nat.le_refl _),
    harg2.read_unread, harg3.read_unread, harg4.read_unread, harg5.read_unread, Prod.mk.eta]
  rfl

end Run

set_option maxHeartbeats 4000000 in
/-- The body at a core's first tile: the inputs' buffers at their blocks, the outputs' at anything; it leaves the tile's chunks added to zero. -/
theorem run_first (c : Dev nD) (i : grid1.Coords) (arg2 : Memref sig .tc .vmem S16000x128 .f32) (harg2 : arg2.IsWhole) (arg3 : Memref sig .tc .vmem S1x16000 .i32) (harg3 : arg3.IsWhole) (arg4 : Memref sig .tc .vmem S1x128x512 .f32) (harg4 : arg4.IsWhole) (arg5 : Memref sig .tc .vmem S1x512x1 .f32) (harg5 : arg5.IsWhole) (hc : cond i)
    (x0 : Vec F S16000x128 .f32) (x1 : Vec F S1x16000 .i32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tile x0 x1 (zero (F := F))).1 ∗ owns (c : Thread nD τ) arg5 fullShare (tile x0 x1 (zero (F := F))).2) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0
  obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    exact congrArg Prod.fst (read_run_first Variants.none c none i arg2 harg2 arg3 harg3 arg4 harg4 arg5 harg5 _ _ k1_pay1 k1_pay2 x0 x1)
  iexists _; isplitr
  swap; · iexact H3
  ipureintro
  sl_unfold_words
  exact congrArg Prod.snd (read_run_first Variants.none c none i arg2 harg2 arg3 harg3 arg4 harg4 arg5 harg5 _ _ k1_pay1 k1_pay2 x0 x1)

set_option maxHeartbeats 4000000 in
/-- The body at a later tile: the outputs' buffers at what the tile before left; it leaves the tile's chunks added to that. -/
theorem run_later (c : Dev nD) (i : grid1.Coords) (arg2 : Memref sig .tc .vmem S16000x128 .f32) (harg2 : arg2.IsWhole) (arg3 : Memref sig .tc .vmem S1x16000 .i32) (harg3 : arg3.IsWhole) (arg4 : Memref sig .tc .vmem S1x128x512 .f32) (harg4 : arg4.IsWhole) (arg5 : Memref sig .tc .vmem S1x512x1 .f32) (harg5 : arg5.IsWhole) (hc : ¬cond i)
    (x0 : Vec F S16000x128 .f32) (x1 : Vec F S1x16000 .i32) (init : Vec F S1x128x512 .f32 × Vec F S1x512x1 .f32) (E : Set ℕ) (K : PUnit → sProp 𝕄) :
    iprop(owns (c : Thread nD τ) arg2 fullShare x0 ∗ owns (c : Thread nD τ) arg3 fullShare x1 ∗ owns (c : Thread nD τ) arg4 fullShare init.1 ∗ owns (c : Thread nD τ) arg5 fullShare init.2
        ∗ (iprop(owns (c : Thread nD τ) arg2 fullShare x0 ∗ owns (c : Thread nD τ) arg3 fullShare x1
            ∗ owns (c : Thread nD τ) arg4 fullShare (tile x0 x1 init).1 ∗ owns (c : Thread nD τ) arg5 fullShare (tile x0 x1 init).2) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact congrArg Prod.fst (read_run_later Variants.none c none i arg2 harg2 arg3 harg3 arg4 harg4 arg5 harg5 x0 x1 init)
  iexists _; isplitr
  swap; · iexact H3
  ipureintro
  exact congrArg Prod.snd (read_run_later Variants.none c none i arg2 harg2 arg3 harg3 arg4 harg4 arg5 harg5 x0 x1 init)

/-! ## What the body finds in each window's buffer -/

/-- Each input's current staging buffer holds its block at every point, fetched there or not: the body leaves the
    block in place, the windows are uncut and never idle. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- At a later tile of a core each output's current staging buffer holds what the body left at the point before: the
    point is not the first, the buffer was not written back between (that happens after a core's last tile only), the
    window is live and uncut. -/
theorem before_2_later (c : Dev nD) (t : Fin cfg1.N) (h0 : ¬t.val % 50 = 0) (d) :
    (dat V c).before 2 t d = (outsAt V c (t.val - 1) (Nat.lt_of_le_of_lt (Nat.sub_le _ _) t.isLt)).1 := by
  have hN : t.val < 100 := lt_of_lt_of_eq t.isLt (show cfg1.N = 100 from N_1)
  rw [Dat.before_out_kept _ 2 rfl t (by omega) (Bool.eq_false_iff.mpr fun h => by have := (flush1_2 _).mp h; dsimp only at this; omega)
    (fun _ => rfl) (fun _ _ => rfl)]
  dsimp only [dat]
theorem before_3_later (c : Dev nD) (t : Fin cfg1.N) (h0 : ¬t.val % 50 = 0) (d) :
    (dat V c).before 3 t d = (outsAt V c (t.val - 1) (Nat.lt_of_le_of_lt (Nat.sub_le _ _) t.isLt)).2 := by
  have hN : t.val < 100 := lt_of_lt_of_eq t.isLt (show cfg1.N = 100 from N_1)
  rw [Dat.before_out_kept _ 3 rfl t (by omega) (Bool.eq_false_iff.mpr fun h => by have := (flush1_3 _).mp h; dsimp only at this; omega)
    (fun _ => rfl) (fun _ _ => rfl)]
  dsimp only [dat]

/-! ## The body obligation, at a generic point -/

/-- Each window's current staging memref at point `t`, spelled as the pipeline passes it, and its wholeness. -/
abbrev ms_0 (t : Fin cfg1.N) : Memref sig .tc .vmem S16000x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x16000 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512x1 .f32 := win1_3.stage (cfg1.slots t 3)
abbrev hs_3 (t : Fin cfg1.N) : (ms_3 t).IsWhole := hstage1_3 ((cfg1.slots t 3).cast nbuf1_3)

/-- What the body is called with at point `t` (the library's precondition, the windows one by one), -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t))

set_option maxHeartbeats 1600000 in
/-- The body at any point: the inputs' memrefs hold their blocks; the condition's closed form says whether the point is a
    core's first tile; at a later one the outputs hold what the point before left; so the run applies; the invariant
    passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val % 50 = 0
  · rw [outsAt_first V c t h0]
    iintro ⟨HΦ, Ho, ⟨%d0, H0⟩, ⟨%d1, H1⟩, ⟨%d2, H2⟩, ⟨%d3, H3⟩⟩
    iapply (run_first c (grid1.coords t) _ (hs_0 t) _ (hs_1 t) _ (hs_2 t) _ (hs_3 t) ((hcond t).mpr h0) (iblk V c 0 t) (iblk V c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_later V c t h0]
    simp only [before_2_later V c t h0, before_3_later V c t h0]
    iintro ⟨HΦ, Ho, ⟨%d0, H0⟩, ⟨%d1, H1⟩, ⟨%d2, H2⟩, ⟨%d3, H3⟩⟩
    iapply (run_later c (grid1.coords t) _ (hs_0 t) _ (hs_1 t) _ (hs_2 t) _ (hs_3 t) (fun h => h0 ((hcond t).mp h)) (iblk V c 0 t) (iblk V c 1 t)
      (outsAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.K.Reg2.lean ====
import proofs.«411700_j6279242186981_3_alg».proof.Proof.Gen.Kernel.Launch
import proofs.«411700_j6279242186981_3_alg».proof.Proof.Gen.Kernel.Skeleton
import proofs.«411700_j6279242186981_3_alg».proof.Proof.Gen.Kernel.Loops
import proofs.«411700_j6279242186981_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the per-core partial sums joined, the segment means, and the two-layer network

One grid point; thirteen input windows, each the whole of its array, and one output window, the whole [512, 128]
result. Stated at a PARAMETER `V`, the TensorCore's buffer contents when the region is entered. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's value from its thirteen input blocks: u; the node partial sums and counts; the edge partial sums
    (segments along the last axis) and counts; the three row blocks of the first weight; its bias; the
    normalisation's scale and shift; the second weight and bias. -/
def out (x0 : Vec F S512x128 .f32) (x1 : Vec F S2x512x256 .f32) (x2 : Vec F S2x512x1 .f32) (x3 : Vec F S2x128x512 .f32)
    (x4 : Vec F S2x512x1 .f32) (x5 : Vec F S128x512 .f32) (x6 : Vec F S256x512 .f32) (x7 : Vec F S128x512 .f32)
    (x8 x9 x10 : Vec F S512 .f32) (x11 : Vec F S512x128 .f32) (x12 : Vec F S128 .f32) : Vec F S512x128 .f32 :=
  k2_pay1 (k2_pay8 (k2_pay2 x0) (k2_pay3 x1 x2) (k2_pay4 x3 x4) (k2_pay5 x5) (k2_pay6 x6) (k2_pay7 x7) x8 x9 x10 x11) (k2_pay9 x12)

/-- What the output block holds after the body at the one point. -/
def outAt (c : Dev nD) (t : Fin cfg2.N) : Vec F S512x128 .f32 :=
  out (iblk V c 0 t) (iblk V c 1 t) (iblk V c 2 t) (iblk V c 3 t) (iblk V c 4 t) (iblk V c 5 t) (iblk V c 6 t)
    (iblk V c 7 t) (iblk V c 8 t) (iblk V c 9 t) (iblk V c 10 t) (iblk V c 11 t) (iblk V c 12 t)

/-- The proof data of pipeline 2 on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outAt V c t
  Φ _ := Pipeline.ΦA spec2 c
  q _ := fullShare
  owed _ := 0

theorem A_eq (c : Dev nD) (w : Fin cfg2.W) : (dat V c).A w = V c (Pipeline.arrRef spec2 w) := by
  dsimp only [dat]
theorem after_13 (c : Dev nD) (t : Fin cfg2.N) : (dat V c).after 13 t = outAt V c t := by dsimp only [dat]

/-! ## The whole-block rectangles: their offsets are all zero -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Each input window's staging buffer holds its block: every window is fetched at the one point -/

theorem before_0_of {c : Dev nD} (dat : Dat τ (Elt F) Unit ℕ (UR sig nD τ) ℕ cfg2 c) (hA : dat.A 0 = V c (Pipeline.arrRef spec2 0))
    (t : Fin cfg2.N) (d) : dat.before 0 t d = iblk V c 0 t :=
  (dat.before_fetched 0 t (fetch2_0 t) d).trans (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (t : Fin cfg2.N) (d) : dat.before 1 t d = iblk V c 1 t :=
  (dat.before_fetched 1 t (fetch2_1 t) d).trans (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (t : Fin cfg2.N) (d) : dat.before 2 t d = iblk V c 2 t :=
  (dat.before_fetched 2 t (fetch2_2 t) d).trans (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (t : Fin cfg2.N) (d) : dat.before 3 t d = iblk V c 3 t :=
  (dat.before_fetched 3 t (fetch2_3 t) d).trans (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (t : Fin cfg2.N) (d) : dat.before 4 t d = iblk V c 4 t :=
  (dat.before_fetched 4 t (fetch2_4 t) d).trans (by unfold Dat.fetched Dat.blockOf iblk; rw [hA]; try rfl)
theorem before_5_of {c : Dev nD} (dat : Dat τ (Elt F) Unit ℕ (UR sig nD τ) ℕ cfg2 c) (hA : dat.A 5 = V c (Pipeline.arrRef spec2 5))
    (t : Fin cfg2.N) (d) : dat.before 5 t d = iblk V c 5 t :=
  (dat.before_fetched 5 t (fetch2_5 t) d).trans (by unfold Dat.fetched Dat.blockOf iblk; rw [hA]; try rfl)
theorem before_6_of {c : Dev nD} (dat : Dat τ (Elt F) Unit ℕ (UR sig nD τ) ℕ cfg2 c) (hA : dat.A 6 = V c (Pipeline.arrRef spec2 6))
    (t : Fin cfg2.N) (d) : dat.before 6 t d = iblk V c 6 t :=
  (dat.before_fetched 6 t (fetch2_6 t) d).trans (by unfold Dat.fetched Dat.blockOf iblk; rw [hA]; try rfl)
theorem before_7_of {c : Dev nD} (dat : Dat τ (Elt F) Unit ℕ (UR sig nD τ) ℕ cfg2 c) (hA : dat.A 7 = V c (Pipeline.arrRef spec2 7))
    (t : Fin cfg2.N) (d) : dat.before 7 t d = iblk V c 7 t :=
  (dat.before_fetched 7 t (fetch2_7 t) d).trans (by unfold Dat.fetched Dat.blockOf iblk; rw [hA]; try rfl)
theorem before_8_of {c : Dev nD} (dat : Dat τ (Elt F) Unit ℕ (UR sig nD τ) ℕ cfg2 c) (hA : dat.A 8 = V c (Pipeline.arrRef spec2 8))
    (t : Fin cfg2.N) (d) : dat.before 8 t d = iblk V c 8 t :=
  (dat.before_fetched 8 t (fetch2_8 t) d).trans (by unfold Dat.fetched Dat.blockOf iblk; rw [hA]; try rfl)
theorem before_9_of {c : Dev nD} (dat : Dat τ (Elt F) Unit ℕ (UR sig nD τ) ℕ cfg2 c) (hA : dat.A 9 = V c (Pipeline.arrRef spec2 9))
    (t : Fin cfg2.N) (d) : dat.before 9 t d = iblk V c 9 t :=
  (dat.before_fetched 9 t (fetch2_9 t) d).trans (by unfold Dat.fetched Dat.blockOf iblk; rw [hA]; try rfl)
theorem before_10_of {c : Dev nD} (dat : Dat τ (Elt F) Unit ℕ (UR sig nD τ) ℕ cfg2 c) (hA : dat.A 10 = V c (Pipeline.arrRef spec2 10))
    (t : Fin cfg2.N) (d) : dat.before 10 t d = iblk V c 10 t :=
  (dat.before_fetched 10 t (fetch2_10 t) d).trans (by unfold Dat.fetched Dat.blockOf iblk; rw [hA]; try rfl)
theorem before_11_of {c : Dev nD} (dat : Dat τ (Elt F) Unit ℕ (UR sig nD τ) ℕ cfg2 c) (hA : dat.A 11 = V c (Pipeline.arrRef spec2 11))
    (t : Fin cfg2.N) (d) : dat.before 11 t d = iblk V c 11 t :=
  (dat.before_fetched 11 t (fetch2_11 t) d).trans (by unfold Dat.fetched Dat.blockOf iblk; rw [hA]; try rfl)
theorem before_12_of {c : Dev nD} (dat : Dat τ (Elt F) Unit ℕ (UR sig nD τ) ℕ cfg2 c) (hA : dat.A 12 = V c (Pipeline.arrRef spec2 12))
    (t : Fin cfg2.N) (d) : dat.before 12 t d = iblk V c 12 t :=
  (dat.before_fetched 12 t (fetch2_12 t) d).trans (by unfold Dat.fetched Dat.blockOf iblk; rw [hA]; try rfl)

/-! ## The body's triple -/

set_option maxHeartbeats 4000000 in
/-- The kernel body on whole staging memrefs, the thirteen inputs' at read contents and the output's at anything, runs
    to the continuation holding the inputs' as they were and the output's at `out` of the inputs': the loads read the
    whole blocks, the one store covers the output block (the load of the output before it reads a value nothing uses). -/
theorem sound_kernel (c : Dev nD) (E : Set ℕ) (i : grid2.Coords) (arg1 : Memref sig .tc .vmem S512x128 .f32) (harg1 : arg1.IsWhole) (arg2 : Memref sig .tc .vmem S2x512x256 .f32) (harg2 : arg2.IsWhole) (arg3 : Memref sig .tc .vmem S2x512x1 .f32) (harg3 : arg3.IsWhole) (arg4 : Memref sig .tc .vmem S2x128x512 .f32) (harg4 : arg4.IsWhole) (arg5 : Memref sig .tc .vmem S2x512x1 .f32) (harg5 : arg5.IsWhole) (arg6 : Memref sig .tc .vmem S128x512 .f32) (harg6 : arg6.IsWhole) (arg7 : Memref sig .tc .vmem S256x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x128 .f32) (harg12 : arg12.IsWhole) (arg13 : Memref sig .tc .vmem S128 .f32) (harg13 : arg13.IsWhole) (arg14 : Memref sig .tc .vmem S512x128 .f32) (harg14 : arg14.IsWhole)
    (x0 : Vec F S512x128 .f32) (x1 : Vec F S2x512x256 .f32) (x2 : Vec F S2x512x1 .f32) (x3 : Vec F S2x128x512 .f32) (x4 : Vec F S2x512x1 .f32) (x5 : Vec F S128x512 .f32) (x6 : Vec F S256x512 .f32) (x7 : Vec F S128x512 .f32) (x8 : Vec F S512 .f32) (x9 : Vec F S512 .f32) (x10 : Vec F S512 .f32) (x11 : Vec F S512x128 .f32) (x12 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out x0 x1 x2 x3 x4 x5 x6 x7 x8 x9 x10 x11 x12)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  sl_unfold_run_names
  unfold out
  rw [View.read_writes_eq_canon _ _ _ (fun y => ⟨_, List.mem_singleton_self _,
      View.mem_set_unit_zero (S := S512x128) hz2 inb_S512x128_S512x128_0_0 y⟩),
    View.canon_unit_zero (S := S512x128) hz2]
  simp only [View.readAt_eq_ld, View.ld_unit_zero (S := S512x128) hz2 inb_S512x128_S512x128_0_0,
    View.ld_unit_zero (S := S2x512x256) hz3 inb_S2x512x256_S2x512x256_0_0_0,
    View.ld_unit_zero (S := S2x512x1) hz3 inb_S2x512x1_S2x512x1_0_0_0,
    View.ld_unit_zero (S := S2x128x512) hz3 inb_S2x128x512_S2x128x512_0_0_0,
    View.ld_unit_zero (S := S128x512) hz2 inb_S128x512_S128x512_0_0,
    View.ld_unit_zero (S := S256x512) hz2 inb_S256x512_S256x512_0_0,
    View.ld_unit_zero (S := S512) hz1 inb_S512_S512_0,
    View.ld_unit_zero (S := S128) hz1 inb_S128_S128_0]

/-! ## The proof data's windows -/

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]

theorem before_0 (c : Dev nD) (t : Fin cfg2.N) (d) : (dat V c).before 0 t d = iblk V c 0 t :=
  before_0_of V (dat V c) (A_eq V c 0) t d
theorem before_1 (c : Dev nD) (t : Fin cfg2.N) (d) : (dat V c).before 1 t d = iblk V c 1 t :=
  before_1_of V (dat V c) (A_eq V c 1) t d
theorem before_2 (c : Dev nD) (t : Fin cfg2.N) (d) : (dat V c).before 2 t d = iblk V c 2 t :=
  before_2_of V (dat V c) (A_eq V c 2) t d
theorem before_3 (c : Dev nD) (t : Fin cfg2.N) (d) : (dat V c).before 3 t d = iblk V c 3 t :=
  before_3_of V (dat V c) (A_eq V c 3) t d
theorem before_4 (c : Dev nD) (t : Fin cfg2.N) (d) : (dat V c).before 4 t d = iblk V c 4 t :=
  before_4_of V (dat V c) (A_eq V c 4) t d
theorem before_5 (c : Dev nD) (t : Fin cfg2.N) (d) : (dat V c).before 5 t d = iblk V c 5 t :=
  before_5_of V (dat V c) (A_eq V c 5) t d
theorem before_6 (c : Dev nD) (t : Fin cfg2.N) (d) : (dat V c).before 6 t d = iblk V c 6 t :=
  before_6_of V (dat V c) (A_eq V c 6) t d
theorem before_7 (c : Dev nD) (t : Fin cfg2.N) (d) : (dat V c).before 7 t d = iblk V c 7 t :=
  before_7_of V (dat V c) (A_eq V c 7) t d
theorem before_8 (c : Dev nD) (t : Fin cfg2.N) (d) : (dat V c).before 8 t d = iblk V c 8 t :=
  before_8_of V (dat V c) (A_eq V c 8) t d
theorem before_9 (c : Dev nD) (t : Fin cfg2.N) (d) : (dat V c).before 9 t d = iblk V c 9 t :=
  before_9_of V (dat V c) (A_eq V c 9) t d
theorem before_10 (c : Dev nD) (t : Fin cfg2.N) (d) : (dat V c).before 10 t d = iblk V c 10 t :=
  before_10_of V (dat V c) (A_eq V c 10) t d
theorem before_11 (c : Dev nD) (t : Fin cfg2.N) (d) : (dat V c).before 11 t d = iblk V c 11 t :=
  before_11_of V (dat V c) (A_eq V c 11) t d
theorem before_12 (c : Dev nD) (t : Fin cfg2.N) (d) : (dat V c).before 12 t d = iblk V c 12 t :=
  before_12_of V (dat V c) (A_eq V c 12) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t))

set_option maxHeartbeats 1000000 in
/-- The body at any point: the inputs' memrefs hold their blocks, so `sound_kernel` applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Reg2

end
-- ==== Proof.K.Launch.lean ====
import proofs.«411700_j6279242186981_3_alg».proof.Proof.Gen.Kernel.Launch
import proofs.«411700_j6279242186981_3_alg».proof.Proof.Gen.Kernel.Skeleton
import proofs.«411700_j6279242186981_3_alg».proof.Proof.Gen.Kernel.Loops
import proofs.«411700_j6279242186981_3_alg».proof.Proof.Gen.Kernel.Points
import Idealize.ShloMosaic.Lib.Pipeline.FrameBody
import Idealize.ShloMosaic.Lib.Ring
import Idealize.ShloMosaic.Lib.Tactic
import proofs.«411700_j6279242186981_3_alg».proof.Proof.K.Reg0
import proofs.«411700_j6279242186981_3_alg».proof.Proof.K.Reg1
import proofs.«411700_j6279242186981_3_alg».proof.Proof.K.Reg2
import proofs.«411700_j6279242186981_3_alg».proof.Proof.Gen.Kernel.Regions
import Idealize.ShloMosaic.Lib.Pipeline.RegionsLoop
import Idealize.ShloMosaic.Lib.Pipeline.FrameSuffix
set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The launch: @main as host stretches and three kernel regions

The buffer contents at every boundary of @main, a fold from the launch memory: a host stretch applies its operations; a
region leaves its arrays at what its write-backs put there and every other buffer as it found it. Then the run itself:
every weakly fair execution ends with every unscoped buffer at the last boundary's contents. -/

variable (m : (ℓ : Loc nD τ sig) → Buf (Elt F) ℓ) (ρ : Dev nD → PrngReg)

/-- Core `c`'s buffers at launch, and after each of the five host stretches before region 0. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- The same read at the TensorCore's references: what region 0 is entered with. -/
abbrev V5 : (c : Dev nD) → (b : Ref sig .tc) → Buf (Elt F) ((c : Thread nD τ).loc b) := fun c b => W5 m c b
/-- After region 0. -/
def W6 (c : Dev nD) : Valuation τ sig (Elt F) :=
  Pipeline.withArrays spec0 c (W5 m c) fun w => (Reg0.dat (V5 m) c).arrAt w cfg0.N
abbrev V6 : (c : Dev nD) → (b : Ref sig .tc) → Buf (Elt F) ((c : Thread nD τ).loc b) := fun c b => W6 m c b
/-- After region 1. -/
def W7 (c : Dev nD) : Valuation τ sig (Elt F) :=
  Pipeline.withArrays spec1 c (W6 m c) fun w => (Reg1.dat (V6 m) c).arrAt w cfg1.N
/-- After the host stretch between regions 1 and 2 (the three row blocks of the first weight). -/
abbrev W8 : Dev nD → Valuation τ sig (Elt F) := fun c => StableHlo.after hostOps2 (W7 m c)
abbrev V8 : (c : Dev nD) → (b : Ref sig .tc) → Buf (Elt F) ((c : Thread nD τ).loc b) := fun c b => W8 m c b
/-- After region 2: the end. -/
def W9 (c : Dev nD) : Valuation τ sig (Elt F) :=
  Pipeline.withArrays spec2 c (W8 m c) fun w => (Reg2.dat (V8 m) c).arrAt w cfg2.N

theorem W6_arr (c : Dev nD) (w : Fin cfg0.W) :
    W6 m c (Proc.devRef .tc (Pipeline.arrRef spec0 w)) = (Reg0.dat (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W7_arr (c : Dev nD) (w : Fin cfg1.W) :
    W7 m c (Proc.devRef .tc (Pipeline.arrRef spec1 w)) = (Reg1.dat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W9_arr (c : Dev nD) (w : Fin cfg2.W) :
    W9 m c (Proc.devRef .tc (Pipeline.arrRef spec2 w)) = (Reg2.dat (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb

/-! ## What a region's exit needs: its arrays at what the write-backs leave, every other buffer as entered -/

/-- The contents after regions 1 and 2, read at the TensorCore's references. -/
abbrev V7 : (c : Dev nD) → (b : Ref sig .tc) → Buf (Elt F) ((c : Thread nD τ).loc b) := fun c b => W7 m c b
abbrev V9 : (c : Dev nD) → (b : Ref sig .tc) → Buf (Elt F) ((c : Thread nD τ).loc b) := fun c b => W9 m c b

theorem hF0 (c : Dev nD) (w : Fin cfg0.W) : (Reg0.dat (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
theorem hF1 (c : Dev nD) (w : Fin cfg1.W) : (Reg1.dat (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
theorem hF2 (c : Dev nD) (w : Fin cfg2.W) : (Reg2.dat (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (V5 m) c
  | ⟨1, _⟩ => fun c => Reg1.dat (V6 m) c
  | ⟨2, _⟩ => fun c => Reg2.dat (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along;
    it ends with those references at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- REGION 0 over the thread state: entered from every unscoped buffer at `W5`, left at `W6`. Its arrays are split
    out of the unscoped buffers and put back at the exit contents; the generator register goes into the class's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are split
    out of the unscoped buffers and put back at the exit contents; the generator register goes into the class's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers and put back at the exit contents; the generator register goes into the class's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .host (hseg hostOps2 hostOps2_sub hostOps2_fresh (W7 m)),
    .region (reg2 m) ]
/-- The segments' fragments are @main's items. -/
theorem segs_prog : (segs m).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      Prog.lift (.customCall (Pipeline.entry 1) ()),
      StableHlo.seq hostOps2,
      Prog.lift (.customCall (Pipeline.entry 2) ()) ] := rfl
/-- @main is the run of the segments. -/
theorem main_run (c : Dev nD) : main (F := F) c = Pipeline.Seg.run (segs m) := by
  rw [main_chain c, Pipeline.Seg.run_eq_chain, segs_prog]

set_option backward.isDefEq.respectTransparency.types false in
/-- THE RUN: every weakly fair execution of @main from memory `m` with zero counters terminates, nothing faulting, every
    unscoped buffer of every core ending at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-! ## Reading the last boundary: the result, and each argument walked back through the fold to the launch memory -/

/-- The result buffer ends at what region 2's one write-back left. -/
theorem W9_result (c : Dev nD) : W9 m c (Proc.devRef .tc main_v18) = (Reg2.dat (V8 m) c).arrAt 13 cfg2.N :=
  W9_arr m c 13

/-- A host stretch leaves a buffer it does not write as it found it. -/
theorem W1_of (c : Dev nD) (r : Ref sig .tc) (h : r ∉ (hostOps0_W : List (Ref sig .tc))) : W1 m c (Proc.devRef .tc r) = W0 m c (Proc.devRef .tc r) :=
  StableHlo.after_of_writes_sub hostOps0 _ hostOps0_writes h
theorem W2_of (c : Dev nD) (r : Ref sig .tc) (h : r ∉ (hostOps0_1_W : List (Ref sig .tc))) : W2 m c (Proc.devRef .tc r) = W1 m c (Proc.devRef .tc r) :=
  StableHlo.after_of_writes_sub hostOps0_1 _ hostOps0_1_writes h
theorem W3_of (c : Dev nD) (r : Ref sig .tc) (h : r ∉ (hostOps0_2_W : List (Ref sig .tc))) : W3 m c (Proc.devRef .tc r) = W2 m c (Proc.devRef .tc r) :=
  StableHlo.after_of_writes_sub hostOps0_2 _ hostOps0_2_writes h
theorem W4_of (c : Dev nD) (r : Ref sig .tc) (h : r ∉ (hostOps0_3_W : List (Ref sig .tc))) : W4 m c (Proc.devRef .tc r) = W3 m c (Proc.devRef .tc r) :=
  StableHlo.after_of_writes_sub hostOps0_3 _ hostOps0_3_writes h
theorem W5_of (c : Dev nD) (r : Ref sig .tc) (h : r ∉ (hostOps0_4_W : List (Ref sig .tc))) : W5 m c (Proc.devRef .tc r) = W4 m c (Proc.devRef .tc r) :=
  StableHlo.after_of_writes_sub hostOps0_4 _ hostOps0_4_writes h
theorem W8_of (c : Dev nD) (r : Ref sig .tc) (h : r ∉ (hostOps2_W : List (Ref sig .tc))) : W8 m c (Proc.devRef .tc r) = W7 m c (Proc.devRef .tc r) :=
  StableHlo.after_of_writes_sub hostOps2 _ hostOps2_writes h
/-- A buffer none of the five stretches before region 0 writes holds its launch contents when region 0 is entered. -/
theorem W5_launch (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc))) (h4 : r ∉ (hostOps0_4_W : List (Ref sig .tc))) :
    W5 m c (Proc.devRef .tc r) = m ((c : Thread nD τ).loc r) :=
  (W5_of m c r h4).trans <| (W4_of m c r h3).trans <| (W3_of m c r h2).trans <| (W2_of m c r h1).trans <| (W1_of m c r h0).trans rfl
/-- An input window's array leaves its region as it entered: regions 1 and 2. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((Reg1.dat (V6 m) c).arrAt_in w hin _).trans (Reg1.A_eq (V6 m) c w))
theorem W9_in (c : Dev nD) (w : Fin cfg2.W) (hin : (cfg2.win w).isOut = false) :
    W9 m c (Proc.devRef .tc (Pipeline.arrRef spec2 w)) = W8 m c (Proc.devRef .tc (Pipeline.arrRef spec2 w)) :=
  (W9_arr m c w).trans (((Reg2.dat (V8 m) c).arrAt_in w hin _).trans (Reg2.A_eq (V8 m) c w))

/-! ### The arguments end as launched: no host operation writes one, and a region either stages it through an input
    window or passes it by -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := W9_of_ne m c main_arg0 (by decide)
    _ = W7 m c (Proc.devRef .tc main_arg0) := W8_of m c main_arg0 (by decide)
    _ = W6 m c (Proc.devRef .tc main_arg0) := W7_of_ne m c main_arg0 (by decide)
    _ = W5 m c (Proc.devRef .tc main_arg0) := W6_of_ne m c main_arg0 (by decide)
    _ = m ((c : Thread nD τ).loc main_arg0) := W5_launch m c main_arg0 (by decide) (by decide) (by decide) (by decide) (by decide)
theorem W9_main_arg1 (c : Dev nD) : W9 m c (Proc.devRef .tc main_arg1) = m ((c : Thread nD τ).loc main_arg1) :=
  calc W9 m c (Proc.devRef .tc main_arg1)
    _ = W8 m c (Proc.devRef .tc main_arg1) := W9_of_ne m c main_arg1 (by decide)
    _ = W7 m c (Proc.devRef .tc main_arg1) := W8_of m c main_arg1 (by decide)
    _ = W6 m c (Proc.devRef .tc main_arg1) := W7_of_ne m c main_arg1 (by decide)
    _ = W5 m c (Proc.devRef .tc main_arg1) := W6_of_ne m c main_arg1 (by decide)
    _ = m ((c : Thread nD τ).loc main_arg1) := W5_launch m c main_arg1 (by decide) (by decide) (by decide) (by decide) (by decide)
theorem W9_main_arg2 (c : Dev nD) : W9 m c (Proc.devRef .tc main_arg2) = m ((c : Thread nD τ).loc main_arg2) :=
  calc W9 m c (Proc.devRef .tc main_arg2)
    _ = W8 m c (Proc.devRef .tc main_arg2) := W9_of_ne m c main_arg2 (by decide)
    _ = W7 m c (Proc.devRef .tc main_arg2) := W8_of m c main_arg2 (by decide)
    _ = W6 m c (Proc.devRef .tc main_arg2) := W7_in m c 0 rfl
    _ = W5 m c (Proc.devRef .tc main_arg2) := W6_of_ne m c main_arg2 (by decide)
    _ = m ((c : Thread nD τ).loc main_arg2) := W5_launch m c main_arg2 (by decide) (by decide) (by decide) (by decide) (by decide)
theorem W9_main_arg3 (c : Dev nD) : W9 m c (Proc.devRef .tc main_arg3) = m ((c : Thread nD τ).loc main_arg3) :=
  calc W9 m c (Proc.devRef .tc main_arg3)
    _ = W8 m c (Proc.devRef .tc main_arg3) := W9_in m c 0 rfl
    _ = W7 m c (Proc.devRef .tc main_arg3) := W8_of m c main_arg3 (by decide)
    _ = W6 m c (Proc.devRef .tc main_arg3) := W7_of_ne m c main_arg3 (by decide)
    _ = W5 m c (Proc.devRef .tc main_arg3) := W6_of_ne m c main_arg3 (by decide)
    _ = m ((c : Thread nD τ).loc main_arg3) := W5_launch m c main_arg3 (by decide) (by decide) (by decide) (by decide) (by decide)
theorem W9_main_arg4 (c : Dev nD) : W9 m c (Proc.devRef .tc main_arg4) = m ((c : Thread nD τ).loc main_arg4) :=
  calc W9 m c (Proc.devRef .tc main_arg4)
    _ = W8 m c (Proc.devRef .tc main_arg4) := W9_of_ne m c main_arg4 (by decide)
    _ = W7 m c (Proc.devRef .tc main_arg4) := W8_of m c main_arg4 (by decide)
    _ = W6 m c (Proc.devRef .tc main_arg4) := W7_of_ne m c main_arg4 (by decide)
    _ = W5 m c (Proc.devRef .tc main_arg4) := W6_of_ne m c main_arg4 (by decide)
    _ = m ((c : Thread nD τ).loc main_arg4) := W5_launch m c main_arg4 (by decide) (by decide) (by decide) (by decide) (by decide)
theorem W9_main_arg5 (c : Dev nD) : W9 m c (Proc.devRef .tc main_arg5) = m ((c : Thread nD τ).loc main_arg5) :=
  calc W9 m c (Proc.devRef .tc main_arg5)
    _ = W8 m c (Proc.devRef .tc main_arg5) := W9_of_ne m c main_arg5 (by decide)
    _ = W7 m c (Proc.devRef .tc main_arg5) := W8_of m c main_arg5 (by decide)
    _ = W6 m c (Proc.devRef .tc main_arg5) := W7_of_ne m c main_arg5 (by decide)
    _ = W5 m c (Proc.devRef .tc main_arg5) := W6_of_ne m c main_arg5 (by decide)
    _ = m ((c : Thread nD τ).loc main_arg5) := W5_launch m c main_arg5 (by decide) (by decide) (by decide) (by decide) (by decide)
theorem W9_main_arg6 (c : Dev nD) : W9 m c (Proc.devRef .tc main_arg6) = m ((c : Thread nD τ).loc main_arg6) :=
  calc W9 m c (Proc.devRef .tc main_arg6)
    _ = W8 m c (Proc.devRef .tc main_arg6) := W9_in m c 8 rfl
    _ = W7 m c (Proc.devRef .tc main_arg6) := W8_of m c main_arg6 (by decide)
    _ = W6 m c (Proc.devRef .tc main_arg6) := W7_of_ne m c main_arg6 (by decide)
    _ = W5 m c (Proc.devRef .tc main_arg6) := W6_of_ne m c main_arg6 (by decide)
    _ = m ((c : Thread nD τ).loc main_arg6) := W5_launch m c main_arg6 (by decide) (by decide) (by decide) (by decide) (by decide)
theorem W9_main_arg7 (c : Dev nD) : W9 m c (Proc.devRef .tc main_arg7) = m ((c : Thread nD τ).loc main_arg7) :=
  calc W9 m c (Proc.devRef .tc main_arg7)
    _ = W8 m c (Proc.devRef .tc main_arg7) := W9_in m c 9 rfl
    _ = W7 m c (Proc.devRef .tc main_arg7) := W8_of m c main_arg7 (by decide)
    _ = W6 m c (Proc.devRef .tc main_arg7) := W7_of_ne m c main_arg7 (by decide)
    _ = W5 m c (Proc.devRef .tc main_arg7) := W6_of_ne m c main_arg7 (by decide)
    _ = m ((c : Thread nD τ).loc main_arg7) := W5_launch m c main_arg7 (by decide) (by decide) (by decide) (by decide) (by decide)
theorem W9_main_arg8 (c : Dev nD) : W9 m c (Proc.devRef .tc main_arg8) = m ((c : Thread nD τ).loc main_arg8) :=
  calc W9 m c (Proc.devRef .tc main_arg8)
    _ = W8 m c (Proc.devRef .tc main_arg8) := W9_in m c 10 rfl
    _ = W7 m c (Proc.devRef .tc main_arg8) := W8_of m c main_arg8 (by decide)
    _ = W6 m c (Proc.devRef .tc main_arg8) := W7_of_ne m c main_arg8 (by decide)
    _ = W5 m c (Proc.devRef .tc main_arg8) := W6_of_ne m c main_arg8 (by decide)
    _ = m ((c : Thread nD τ).loc main_arg8) := W5_launch m c main_arg8 (by decide) (by decide) (by decide) (by decide) (by decide)
theorem W9_main_arg9 (c : Dev nD) : W9 m c (Proc.devRef .tc main_arg9) = m ((c : Thread nD τ).loc main_arg9) :=
  calc W9 m c (Proc.devRef .tc main_arg9)
    _ = W8 m c (Proc.devRef .tc main_arg9) := W9_in m c 11 rfl
    _ = W7 m c (Proc.devRef .tc main_arg9) := W8_of m c main_arg9 (by decide)
    _ = W6 m c (Proc.devRef .tc main_arg9) := W7_of_ne m c main_arg9 (by decide)
    _ = W5 m c (Proc.devRef .tc main_arg9) := W6_of_ne m c main_arg9 (by decide)
    _ = m ((c : Thread nD τ).loc main_arg9) := W5_launch m c main_arg9 (by decide) (by decide) (by decide) (by decide) (by decide)
theorem W9_main_arg10 (c : Dev nD) : W9 m c (Proc.devRef .tc main_arg10) = m ((c : Thread nD τ).loc main_arg10) :=
  calc W9 m c (Proc.devRef .tc main_arg10)
    _ = W8 m c (Proc.devRef .tc main_arg10) := W9_in m c 12 rfl
    _ = W7 m c (Proc.devRef .tc main_arg10) := W8_of m c main_arg10 (by decide)
    _ = W6 m c (Proc.devRef .tc main_arg10) := W7_of_ne m c main_arg10 (by decide)
    _ = W5 m c (Proc.devRef .tc main_arg10) := W6_of_ne m c main_arg10 (by decide)
    _ = m ((c : Thread nD τ).loc main_arg10) := W5_launch m c main_arg10 (by decide) (by decide) (by decide) (by decide) (by decide)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c),
      (h c _ (mem_uc main_arg10 (by decide))).trans (W9_main_arg10 m c)⟩) (run_all m ρ)

/-- THE RUN WITH ITS RESULT NAMED: the result array ends at region 2's write-back, the arguments as launched. -/
theorem run_value : θ_run defs (onTc (τ := τ) (main (F := F))) ⟨m, fun _ => 0, ρ⟩ (fun r => ∀ c : Dev nD,
      r.2.mem ((c.tc : Thread nD τ).loc main_v18) = (Reg2.dat (V8 m) c).arrAt 13 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v18 (by decide))).trans (W9_result m c),
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c),
      (h c _ (mem_uc main_arg10 (by decide))).trans (W9_main_arg10 m c)⟩) (run_all m ρ)

end Cert.Kernel.Launch

end
-- ==== Proof.KI.Reg0.lean ====
import proofs.«411700_j6279242186981_3_alg».proof.Proof.Gen.KernelIdeal.Launch
import proofs.«411700_j6279242186981_3_alg».proof.Proof.Gen.KernelIdeal.Skeleton
import proofs.«411700_j6279242186981_3_alg».proof.Proof.Gen.KernelIdeal.Loops
import proofs.«411700_j6279242186981_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the node rows' segment sums and counts, per core

The grid is 2 cores × 4 tiles of 6400 padded node rows; a point's body walks its tile in five chunks of 1280 rows, each
chunk adding to the core's running [1, 512, 256] sum block and [1, 512, 1] count block; the first tile of a core
starts both blocks from zero, the later ones from what the tile before left. Everything is stated at a PARAMETER `V`,
the TensorCore's buffer contents when the region is entered. -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one branch: "this is the core's first tile" (the second grid coordinate is 0). -/
abbrev cond (i : grid0.Coords) : Prop := (Scalar.cmpi .ne (Scalar.extui (Scalar.cmpi .eq (BitVec.ofNat 32 (i 1).val) 0#32)) 0#32) = 1#1
/-- It holds at the points 0 and 4. -/
theorem hcond : ∀ t : Fin cfg0.N, cond (grid0.coords t) ↔ t.val % 4 = 0 :=
  (by decide +kernel : ∀ t : Fin grid0.N, cond (grid0.coords t) ↔ t.val % 4 = 0)

/-- The rows and the ids chunk `k` reads: rows [1280 k, 1280 k + 1280) of the tile. -/
abbrev rx (k : Fin k0_t1_loop.trips) : Rect S6400x256 := Rect.unit (s := S6400x256) (k0_off1 k) S1280x256.size (k0_off1_inb k)
abbrev rs (k : Fin k0_t1_loop.trips) : Rect S1x6400 := Rect.unit (s := S1x6400) (k0_off2 k) S1x1280.size (k0_off2_inb k)

/-- One chunk: the sum block gains the one-hot product of the chunk's ids with its rows, the count block the ids' hits. -/
def chunk (x : Vec F S6400x256 .f32) (seg : Vec F S1x6400 .i32) (k : Fin k0_t1_loop.trips)
    (a : Vec F S1x512x256 .f32 × Vec F S1x512x1 .f32) : Vec F S1x512x256 .f32 × Vec F S1x512x1 .f32 :=
  (k0_pay4 (View.ld x (rx k)) (View.ld seg (rs k)) a.1, k0_pay5 (View.ld seg (rs k)) a.2)

/-- The first `k` chunks of a tile, in order, from `init`. -/
def accum (x : Vec F S6400x256 .f32) (seg : Vec F S1x6400 .i32) (init : Vec F S1x512x256 .f32 × Vec F S1x512x1 .f32) :
    ℕ → Vec F S1x512x256 .f32 × Vec F S1x512x1 .f32
  | 0 => init
  | k + 1 => if h : k < k0_t1_loop.trips then chunk x seg ⟨k, h⟩ (accum x seg init k) else accum x seg init k

/-- A whole tile. -/
def tile (x : Vec F S6400x256 .f32) (seg : Vec F S1x6400 .i32) (init : Vec F S1x512x256 .f32 × Vec F S1x512x1 .f32) :
    Vec F S1x512x256 .f32 × Vec F S1x512x1 .f32 := accum x seg init k0_t1_loop.trips

/-- The two blocks at zero. -/
def zero : Vec F S1x512x256 .f32 × Vec F S1x512x1 .f32 := (k0_pay1 (F := F), k0_pay2 (F := F))

/-- What the two output blocks hold after the body at position `n`: the tile's chunks added to zero at a core's first
    tile, to what position `n - 1` left otherwise. -/
def outsAt (c : Dev nD) : (n : ℕ) → n < cfg0.N → Vec F S1x512x256 .f32 × Vec F S1x512x1 .f32
  | 0, hn => tile (iblk V c 0 ⟨0, hn⟩) (iblk V c 1 ⟨0, hn⟩) zero
  | n + 1, hn =>
    if (n + 1) % 4 = 0 then tile (iblk V c 0 ⟨n + 1, hn⟩) (iblk V c 1 ⟨n + 1, hn⟩) zero
    else tile (iblk V c 0 ⟨n + 1, hn⟩) (iblk V c 1 ⟨n + 1, hn⟩) (outsAt c n (Nat.lt_of_succ_lt hn))

theorem outsAt_first (c : Dev nD) (t : Fin cfg0.N) (h0 : t.val % 4 = 0) :
    outsAt V c t.val t.isLt = tile (iblk V c 0 t) (iblk V c 1 t) zero := by
  obtain ⟨n, hn⟩ := t
  cases n with
  | zero => rfl
  | succ n => exact (if_pos h0)

theorem outsAt_later (c : Dev nD) (t : Fin cfg0.N) (h0 : ¬t.val % 4 = 0) :
    outsAt V c t.val t.isLt = tile (iblk V c 0 t) (iblk V c 1 t) (outsAt V c (t.val - 1) (Nat.lt_of_le_of_lt (Nat.sub_le _ _) t.isLt)) := by
  obtain ⟨n, hn⟩ := t
  cases n with
  | zero => exact absurd (Nat.zero_mod _) h0
  | succ n => exact (if_neg h0)

/-- The proof data of pipeline 0 on core `c`: the arrays as the region finds them; after the body at point `t` the two
    inputs' buffers at their blocks and the two outputs' at `outsAt`; the class's invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem after_3 (c : Dev nD) (t : Fin cfg0.N) : (dat V c).after 3 t = (outsAt V c t.val t.isLt).2 := by dsimp only [dat]

/-! ## The chunks, read off the loop's trips -/

/-- The whole-block rectangle's offsets are zero. -/
theorem off3 : (![0, 0, 0] : Fin 3 → ℕ) = fun _ => 0 := funext fun a => by fin_cases a <;> rfl

/-- The whole sum block and the whole count block, as the body's loads and stores name them. -/
abbrev r4 : Rect S1x512x256 := Rect.unit (s := S1x512x256) ![0, 0, 0] S1x512x256.size inb_S1x512x256_S1x512x256_0_0_0
abbrev r5 : Rect S1x512x1 := Rect.unit (s := S1x512x1) ![0, 0, 0] S1x512x1.size inb_S1x512x1_S1x512x1_0_0_0

/-- One store through the whole block covers it, -/
theorem cover4 (w : Vec F S1x512x256 .f32) (y : S1x512x256.Idx) :
    ∃ p ∈ ([⟨r4, w⟩] : List (View.Piece (Elt F) S1x512x256 .f32)), y ∈ p.1.set :=
  ⟨_, List.mem_singleton_self _, View.mem_set_unit_zero off3 inb_S1x512x256_S1x512x256_0_0_0 y⟩
theorem cover5 (w : Vec F S1x512x1 .f32) (y : S1x512x1.Idx) :
    ∃ p ∈ ([⟨r5, w⟩] : List (View.Piece (Elt F) S1x512x1 .f32)), y ∈ p.1.set :=
  ⟨_, List.mem_singleton_self _, View.mem_set_unit_zero off3 inb_S1x512x1_S1x512x1_0_0_0 y⟩

/-- so it leaves its payload, whatever the buffer held. -/
theorem read_store4 {sig' : RefSig} {κ : Kind} {sp : Space} (v : View sig' κ sp S1x512x256 .f32) (f : v.ty.Contents (Elt F)) (w : Vec F S1x512x256 .f32) :
    v.read (Elt F) (v.writes (Elt F) f [⟨r4, w⟩]) = w := by
  rw [View.read_writes_eq_canon _ _ _ (cover4 w)]
  exact View.canon_unit_zero off3 inb_S1x512x256_S1x512x256_0_0_0 w
theorem read_store5 {sig' : RefSig} {κ : Kind} {sp : Space} (v : View sig' κ sp S1x512x1 .f32) (f : v.ty.Contents (Elt F)) (w : Vec F S1x512x1 .f32) :
    v.read (Elt F) (v.writes (Elt F) f [⟨r5, w⟩]) = w := by
  rw [View.read_writes_eq_canon _ _ _ (cover5 w)]
  exact View.canon_unit_zero off3 inb_S1x512x1_S1x512x1_0_0_0 w
/-- A load through the whole block reads the contents. -/
theorem ld4 (X : Vec F S1x512x256 .f32) : View.ld X r4 = X := View.ld_unit_zero off3 inb_S1x512x256_S1x512x256_0_0_0 X
theorem ld5 (X : Vec F S1x512x1 .f32) : View.ld X r5 = X := View.ld_unit_zero off3 inb_S1x512x1_S1x512x1_0_0_0 X

section Trip

variable (𝒱 : Variants) (c : Dev nD) (bd : Option 𝒱.V) (i : grid0.Coords)
  (arg2 : Memref sig .tc .vmem S6400x256 .f32) (harg2 : arg2.IsWhole) (arg3 : Memref sig .tc .vmem S1x6400 .i32) (harg3 : arg3.IsWhole)
  (arg4 : Memref sig .tc .vmem S1x512x256 .f32) (harg4 : arg4.IsWhole) (arg5 : Memref sig .tc .vmem S1x512x1 .f32) (harg5 : arg5.IsWhole)
  (X2 : BufTy.Contents (Elt F) arg2.view.ty) (X3 : BufTy.Contents (Elt F) arg3.view.ty)

/-- Trip `k` writes each block once, whole: the chunk's payloads of the rows and ids it loads and of the block it finds. -/
theorem tripL_eq (k : Fin k0_t1_loop.trips) (f4 : BufTy.Contents (Elt F) arg4.view.ty) (f5 : BufTy.Contents (Elt F) arg5.view.ty) :
    tripL_k0_t1 (F := F) 𝒱 c bd i arg2 harg2 arg3 harg3 arg4 harg4 arg5 harg5 X2 X3 k f4 f5
      = ([⟨r4, k0_pay4 (View.ld (arg2.view.read (Elt F) X2) (rx k)) (View.ld (arg3.view.read (Elt F) X3) (rs k)) (View.ld (arg4.view.read (Elt F) f4) r4)⟩],
         [⟨r5, k0_pay5 (View.ld (arg3.view.read (Elt F) X3) (rs k)) (View.ld (arg5.view.read (Elt F) f5) r5)⟩]) := by
  unfold tripL_k0_t1
  unfold trip_k0_t1
  rfl

/-- So after trip `k` the two blocks read as the chunk of what they read before. -/
theorem read_trip (k : Fin k0_t1_loop.trips) (f4 : BufTy.Contents (Elt F) arg4.view.ty) (f5 : BufTy.Contents (Elt F) arg5.view.ty) :
    (arg4.view.read (Elt F) (arg4.view.writes (Elt F) f4 (tripL_k0_t1 (F := F) 𝒱 c bd i arg2 harg2 arg3 harg3 arg4 harg4 arg5 harg5 X2 X3 k f4 f5).1),
     arg5.view.read (Elt F) (arg5.view.writes (Elt F) f5 (tripL_k0_t1 (F := F) 𝒱 c bd i arg2 harg2 arg3 harg3 arg4 harg4 arg5 harg5 X2 X3 k f4 f5).2))
      = chunk (arg2.view.read (Elt F) X2) (arg3.view.read (Elt F) X3) k (arg4.view.read (Elt F) f4, arg5.view.read (Elt F) f5) := by
  rw [tripL_eq]
  unfold chunk
  dsimp only
  rw [read_store4, read_store5, ld4, ld5]

/-- After the first `n` trips, from contents `G4`, `G5`, the two blocks read as the first `n` chunks added to what `G4`, `G5` read. -/
theorem read_pb (G4 : BufTy.Contents (Elt F) arg4.view.ty) (G5 : BufTy.Contents (Elt F) arg5.view.ty) :
    ∀ n, n ≤ k0_t1_loop.trips →
      (arg4.view.read (Elt F) (arg4.view.writes (Elt F) G4 (pb_k0_t1 (F := F) 𝒱 c bd i arg2 harg2 arg3 harg3 arg4 harg4 arg5 harg5 X2 X3 G4 G5 n).1),
       arg5.view.read (Elt F) (arg5.view.writes (Elt F) G5 (pb_k0_t1 (F := F) 𝒱 c bd i arg2 harg2 arg3 harg3 arg4 harg4 arg5 harg5 X2 X3 G4 G5 n).2))
        = accum (arg2.view.read (Elt F) X2) (arg3.view.read (Elt F) X3) (arg4.view.read (Elt F) G4, arg5.view.read (Elt F) G5) n
  | 0, _ => by rw [pb_k0_t1.eq_1]; rfl
  | n + 1, h => by
    have hn : n < k0_t1_loop.trips := h
    rw [show n + 1 = (⟨n, hn⟩ : Fin k0_t1_loop.trips).val + 1 from rfl, pb_k0_t1_succ]
    dsimp only
    rw [View.writes_append, View.writes_append, read_trip, read_pb G4 G5 n (Nat.le_of_lt hn)]
    rw [accum, dif_pos hn]

end Trip

/-! ## A tile: the loop's trips after the reset, or after what the tile before left -/

section Run

variable (𝒱 : Variants) (c : Dev nD) (bd : Option 𝒱.V) (i : grid0.Coords)
  (arg2 : Memref sig .tc .vmem S6400x256 .f32) (harg2 : arg2.IsWhole) (arg3 : Memref sig .tc .vmem S1x6400 .i32) (harg3 : arg3.IsWhole)
  (arg4 : Memref sig .tc .vmem S1x512x256 .f32) (harg4 : arg4.IsWhole) (arg5 : Memref sig .tc .vmem S1x512x1 .f32) (harg5 : arg5.IsWhole)

/-- The loop after a whole-block store of `w4`, `w5`: the blocks read as the tile from `(w4, w5)`. -/
theorem read_run_first (J4 : BufTy.Contents (Elt F) arg4.view.ty) (J5 : BufTy.Contents (Elt F) arg5.view.ty)
    (w4 : Vec F S1x512x256 .f32) (w5 : Vec F S1x512x1 .f32) (x0 : Vec F S6400x256 .f32) (x1 : Vec F S1x6400 .i32) :
    (arg4.view.read (Elt F) (arg4.view.writes (Elt F) J4
        ((pb_k0_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k0_t1_loop.trips).1 ++ [⟨r4, w4⟩])),
     arg5.view.read (Elt F) (arg5.view.writes (Elt F) J5
        ((pb_k0_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k0_t1_loop.trips).2 ++ [⟨r5, w5⟩])))
      = tile x0 x1 (w4, w5) := by
  rw [View.writes_append, View.writes_append, read_pb _ _ _ _ _ _ _ _ _ _ _ _ _ _ _ _ _ (Nat.le_refl _),
    harg2.read_unread, harg3.read_unread, read_store4, read_store5]
  rfl

/-- The loop over blocks reading `init`: the blocks read as the tile from `init`. -/
theorem read_run_later (x0 : Vec F S6400x256 .f32) (x1 : Vec F S1x6400 .i32) (init : Vec F S1x512x256 .f32 × Vec F S1x512x1 .f32) :
    (arg4.view.read (Elt F) (arg4.view.writes (Elt F) (harg4.unread init.1)
        (pb_k0_t1 (F := F) 𝒱 c bd i arg2 harg2 arg3 harg3 arg4 harg4 arg5 harg5 (harg2.unread x0) (harg3.unread x1)
          (harg4.unread init.1) (harg5.unread init.2) k0_t1_loop.trips).1),
     arg5.view.read (Elt F) (arg5.view.writes (Elt F) (harg5.unread init.2)
        (pb_k0_t1 (F := F) 𝒱 c bd i arg2 harg2 arg3 harg3 arg4 harg4 arg5 harg5 (harg2.unread x0) (harg3.unread x1)
          (harg4.unread init.1) (harg5.unread init.2) k0_t1_loop.trips).2))
      = tile x0 x1 init := by
  rw [read_pb _ _ _ _ _ _ _ _ _ _ _ _ _ _ _ _ _ (Nat.le_refl _),
    harg2.read_unread, harg3.read_unread, harg4.read_unread, harg5.read_unread, Prod.mk.eta]
  rfl

end Run

set_option maxHeartbeats 4000000 in
/-- The body at a core's first tile: the inputs' buffers at their blocks, the outputs' at anything; it leaves the tile's chunks added to zero. -/
theorem run_first (c : Dev nD) (i : grid0.Coords) (arg2 : Memref sig .tc .vmem S6400x256 .f32) (harg2 : arg2.IsWhole) (arg3 : Memref sig .tc .vmem S1x6400 .i32) (harg3 : arg3.IsWhole) (arg4 : Memref sig .tc .vmem S1x512x256 .f32) (harg4 : arg4.IsWhole) (arg5 : Memref sig .tc .vmem S1x512x1 .f32) (harg5 : arg5.IsWhole) (hc : cond i)
    (x0 : Vec F S6400x256 .f32) (x1 : Vec F S1x6400 .i32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tile x0 x1 (zero (F := F))).1 ∗ owns (c : Thread nD τ) arg5 fullShare (tile x0 x1 (zero (F := F))).2) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0
  obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    exact congrArg Prod.fst (read_run_first Variants.none c none i arg2 harg2 arg3 harg3 arg4 harg4 arg5 harg5 _ _ k0_pay1 k0_pay2 x0 x1)
  iexists _; isplitr
  swap; · iexact H3
  ipureintro
  sl_unfold_words
  exact congrArg Prod.snd (read_run_first Variants.none c none i arg2 harg2 arg3 harg3 arg4 harg4 arg5 harg5 _ _ k0_pay1 k0_pay2 x0 x1)

set_option maxHeartbeats 4000000 in
/-- The body at a later tile: the outputs' buffers at what the tile before left; it leaves the tile's chunks added to that. -/
theorem run_later (c : Dev nD) (i : grid0.Coords) (arg2 : Memref sig .tc .vmem S6400x256 .f32) (harg2 : arg2.IsWhole) (arg3 : Memref sig .tc .vmem S1x6400 .i32) (harg3 : arg3.IsWhole) (arg4 : Memref sig .tc .vmem S1x512x256 .f32) (harg4 : arg4.IsWhole) (arg5 : Memref sig .tc .vmem S1x512x1 .f32) (harg5 : arg5.IsWhole) (hc : ¬cond i)
    (x0 : Vec F S6400x256 .f32) (x1 : Vec F S1x6400 .i32) (init : Vec F S1x512x256 .f32 × Vec F S1x512x1 .f32) (E : Set ℕ) (K : PUnit → sProp 𝕄) :
    iprop(owns (c : Thread nD τ) arg2 fullShare x0 ∗ owns (c : Thread nD τ) arg3 fullShare x1 ∗ owns (c : Thread nD τ) arg4 fullShare init.1 ∗ owns (c : Thread nD τ) arg5 fullShare init.2
        ∗ (iprop(owns (c : Thread nD τ) arg2 fullShare x0 ∗ owns (c : Thread nD τ) arg3 fullShare x1
            ∗ owns (c : Thread nD τ) arg4 fullShare (tile x0 x1 init).1 ∗ owns (c : Thread nD τ) arg5 fullShare (tile x0 x1 init).2) -∗ K ⟨⟩))
      ⊢ wp frame (wpE (defs₀ (F := F)) Variants.none c none) E (cc0_kernel i arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact congrArg Prod.fst (read_run_later Variants.none c none i arg2 harg2 arg3 harg3 arg4 harg4 arg5 harg5 x0 x1 init)
  iexists _; isplitr
  swap; · iexact H3
  ipureintro
  exact congrArg Prod.snd (read_run_later Variants.none c none i arg2 harg2 arg3 harg3 arg4 harg4 arg5 harg5 x0 x1 init)

/-! ## What the body finds in each window's buffer -/

/-- Each input's current staging buffer holds its block at every point, fetched there or not: the body leaves the
    block in place, the windows are uncut and never idle. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- At a later tile of a core each output's current staging buffer holds what the body left at the point before: the
    point is not the first, the buffer was not written back between (that happens after a core's last tile only), the
    window is live and uncut. -/
theorem before_2_later (c : Dev nD) (t : Fin cfg0.N) (h0 : ¬t.val % 4 = 0) (d) :
    (dat V c).before 2 t d = (outsAt V c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat]
theorem before_3_later (c : Dev nD) (t : Fin cfg0.N) (h0 : ¬t.val % 4 = 0) (d) :
    (dat V c).before 3 t d = (outsAt V c (t.val - 1) (Nat.lt_of_le_of_lt (Nat.sub_le _ _) t.isLt)).2 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dat]

/-! ## The body obligation, at a generic point -/

/-- Each window's current staging memref at point `t`, spelled as the pipeline passes it, and its wholeness. -/
abbrev ms_0 (t : Fin cfg0.N) : Memref sig .tc .vmem S6400x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x6400 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x512x1 .f32 := win0_3.stage (cfg0.slots t 3)
abbrev hs_3 (t : Fin cfg0.N) : (ms_3 t).IsWhole := hstage0_3 ((cfg0.slots t 3).cast nbuf0_3)

/-- What the body is called with at point `t` (the library's precondition, the windows one by one), -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t))

set_option maxHeartbeats 1600000 in
/-- The body at any point: the inputs' memrefs hold their blocks; the condition's closed form says whether the point is a
    core's first tile; at a later one the outputs hold what the point before left; so the run applies; the invariant
    passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val % 4 = 0
  · rw [outsAt_first V c t h0]
    iintro ⟨HΦ, Ho, ⟨%d0, H0⟩, ⟨%d1, H1⟩, ⟨%d2, H2⟩, ⟨%d3, H3⟩⟩
    iapply (run_first c (grid0.coords t) _ (hs_0 t) _ (hs_1 t) _ (hs_2 t) _ (hs_3 t) ((hcond t).mpr h0) (iblk V c 0 t) (iblk V c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_later V c t h0]
    simp only [before_2_later V c t h0, before_3_later V c t h0]
    iintro ⟨HΦ, Ho, ⟨%d0, H0⟩, ⟨%d1, H1⟩, ⟨%d2, H2⟩, ⟨%d3, H3⟩⟩
    iapply (run_later c (grid0.coords t) _ (hs_0 t) _ (hs_1 t) _ (hs_2 t) _ (hs_3 t) (fun h => h0 ((hcond t).mp h)) (iblk V c 0 t) (iblk V c 1 t)
      (outsAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.KI.Reg1.lean ====
import proofs.«411700_j6279242186981_3_alg».proof.Proof.Gen.KernelIdeal.Launch
import proofs.«411700_j6279242186981_3_alg».proof.Proof.Gen.KernelIdeal.Skeleton
import proofs.«411700_j6279242186981_3_alg».proof.Proof.Gen.KernelIdeal.Loops
import proofs.«411700_j6279242186981_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the edge rows' segment sums and counts, per core

The grid is 2 cores × 50 tiles of 16000 edge rows; a point's body walks its tile in five chunks of 3200 rows, each
chunk adding to the core's running [1, 128, 512] sum block (segments along the last axis) and [1, 512, 1] count block; the first tile of a core
starts both blocks from zero, the later ones from what the tile before left. Everything is stated at a PARAMETER `V`,
the TensorCore's buffer contents when the region is entered. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's one branch: "this is the core's first tile" (the second grid coordinate is 0). -/
abbrev cond (i : grid1.Coords) : Prop := (Scalar.cmpi .ne (Scalar.extui (Scalar.cmpi .eq (BitVec.ofNat 32 (i 1).val) 0#32)) 0#32) = 1#1
/-- It holds at the points 0 and 50. -/
theorem hcond : ∀ t : Fin cfg1.N, cond (grid1.coords t) ↔ t.val % 50 = 0 :=
  (by decide +kernel : ∀ t : Fin grid1.N, cond (grid1.coords t) ↔ t.val % 50 = 0)

/-- The rows and the ids chunk `k` reads: rows [3200 k, 3200 k + 3200) of the tile. -/
abbrev rx (k : Fin k1_t1_loop.trips) : Rect S16000x128 := Rect.unit (s := S16000x128) (k1_off1 k) S3200x128.size (k1_off1_inb k)
abbrev rs (k : Fin k1_t1_loop.trips) : Rect S1x16000 := Rect.unit (s := S1x16000) (k1_off2 k) S1x3200.size (k1_off2_inb k)

/-- One chunk: the sum block gains the one-hot product of the chunk's ids with its rows, the count block the ids' hits. -/
def chunk (x : Vec F S16000x128 .f32) (seg : Vec F S1x16000 .i32) (k : Fin k1_t1_loop.trips)
    (a : Vec F S1x128x512 .f32 × Vec F S1x512x1 .f32) : Vec F S1x128x512 .f32 × Vec F S1x512x1 .f32 :=
  (k1_pay4 (View.ld x (rx k)) (View.ld seg (rs k)) a.1, k1_pay5 (View.ld seg (rs k)) a.2)

/-- The first `k` chunks of a tile, in order, from `init`. -/
def accum (x : Vec F S16000x128 .f32) (seg : Vec F S1x16000 .i32) (init : Vec F S1x128x512 .f32 × Vec F S1x512x1 .f32) :
    ℕ → Vec F S1x128x512 .f32 × Vec F S1x512x1 .f32
  | 0 => init
  | k + 1 => if h : k < k1_t1_loop.trips then chunk x seg ⟨k, h⟩ (accum x seg init k) else accum x seg init k

/-- A whole tile. -/
def tile (x : Vec F S16000x128 .f32) (seg : Vec F S1x16000 .i32) (init : Vec F S1x128x512 .f32 × Vec F S1x512x1 .f32) :
    Vec F S1x128x512 .f32 × Vec F S1x512x1 .f32 := accum x seg init k1_t1_loop.trips

/-- The two blocks at zero. -/
def zero : Vec F S1x128x512 .f32 × Vec F S1x512x1 .f32 := (k1_pay1 (F := F), k1_pay2 (F := F))

/-- What the two output blocks hold after the body at position `n`: the tile's chunks added to zero at a core's first
    tile, to what position `n - 1` left otherwise. -/
def outsAt (c : Dev nD) : (n : ℕ) → n < cfg1.N → Vec F S1x128x512 .f32 × Vec F S1x512x1 .f32
  | 0, hn => tile (iblk V c 0 ⟨0, hn⟩) (iblk V c 1 ⟨0, hn⟩) zero
  | n + 1, hn =>
    if (n + 1) % 50 = 0 then tile (iblk V c 0 ⟨n + 1, hn⟩) (iblk V c 1 ⟨n + 1, hn⟩) zero
    else tile (iblk V c 0 ⟨n + 1, hn⟩) (iblk V c 1 ⟨n + 1, hn⟩) (outsAt c n (Nat.lt_of_succ_lt hn))

theorem outsAt_first (c : Dev nD) (t : Fin cfg1.N) (h0 : t.val % 50 = 0) :
    outsAt V c t.val t.isLt = tile (iblk V c 0 t) (iblk V c 1 t) zero := by
  obtain ⟨n, hn⟩ := t
  cases n with
  | zero => rfl
  | succ n => exact (if_pos h0)

theorem outsAt_later (c : Dev nD) (t : Fin cfg1.N) (h0 : ¬t.val % 50 = 0) :
    outsAt V c t.val t.isLt = tile (iblk V c 0 t) (iblk V c 1 t) (outsAt V c (t.val - 1) (Nat.lt_of_le_of_lt (Nat.sub_le _ _) t.isLt)) := by
  obtain ⟨n, hn⟩ := t
  cases n with
  | zero => exact absurd (Nat.zero_mod _) h0
  | succ n => exact (if_neg h0)

/-- The proof data of pipeline 1 on core `c`: the arrays as the region finds them; after the body at point `t` the two
    inputs' buffers at their blocks and the two outputs' at `outsAt`; the class's invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
    | ⟨3, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]
theorem after_3 (c : Dev nD) (t : Fin cfg1.N) : (dat V c).after 3 t = (outsAt V c t.val t.isLt).2 := by dsimp only [dat]

/-! ## The chunks, read off the loop's trips -/

/-- The whole-block rectangle's offsets are zero. -/
theorem off3 : (![0, 0, 0] : Fin 3 → ℕ) = fun _ => 0 := funext fun a => by fin_cases a <;> rfl

/-- The whole sum block and the whole count block, as the body's loads and stores name them. -/
abbrev r4 : Rect S1x128x512 := Rect.unit (s := S1x128x512) ![0, 0, 0] S1x128x512.size inb_S1x128x512_S1x128x512_0_0_0
abbrev r5 : Rect S1x512x1 := Rect.unit (s := S1x512x1) ![0, 0, 0] S1x512x1.size inb_S1x512x1_S1x512x1_0_0_0

/-- One store through the whole block covers it, -/
theorem cover4 (w : Vec F S1x128x512 .f32) (y : S1x128x512.Idx) :
    ∃ p ∈ ([⟨r4, w⟩] : List (View.Piece (Elt F) S1x128x512 .f32)), y ∈ p.1.set :=
  ⟨_, List.mem_singleton_self _, View.mem_set_unit_zero off3 inb_S1x128x512_S1x128x512_0_0_0 y⟩
theorem cover5 (w : Vec F S1x512x1 .f32) (y : S1x512x1.Idx) :
    ∃ p ∈ ([⟨r5, w⟩] : List (View.Piece (Elt F) S1x512x1 .f32)), y ∈ p.1.set :=
  ⟨_, List.mem_singleton_self _, View.mem_set_unit_zero off3 inb_S1x512x1_S1x512x1_0_0_0 y⟩

/-- so it leaves its payload, whatever the buffer held. -/
theorem read_store4 {sig' : RefSig} {κ : Kind} {sp : Space} (v : View sig' κ sp S1x128x512 .f32) (f : v.ty.Contents (Elt F)) (w : Vec F S1x128x512 .f32) :
    v.read (Elt F) (v.writes (Elt F) f [⟨r4, w⟩]) = w := by
  rw [View.read_writes_eq_canon _ _ _ (cover4 w)]
  exact View.canon_unit_zero off3 inb_S1x128x512_S1x128x512_0_0_0 w
theorem read_store5 {sig' : RefSig} {κ : Kind} {sp : Space} (v : View sig' κ sp S1x512x1 .f32) (f : v.ty.Contents (Elt F)) (w : Vec F S1x512x1 .f32) :
    v.read (Elt F) (v.writes (Elt F) f [⟨r5, w⟩]) = w := by
  rw [View.read_writes_eq_canon _ _ _ (cover5 w)]
  exact View.canon_unit_zero off3 inb_S1x512x1_S1x512x1_0_0_0 w
/-- A load through the whole block reads the contents. -/
theorem ld4 (X : Vec F S1x128x512 .f32) : View.ld X r4 = X := View.ld_unit_zero off3 inb_S1x128x512_S1x128x512_0_0_0 X
theorem ld5 (X : Vec F S1x512x1 .f32) : View.ld X r5 = X := View.ld_unit_zero off3 inb_S1x512x1_S1x512x1_0_0_0 X

section Trip

variable (𝒱 : Variants) (c : Dev nD) (bd : Option 𝒱.V) (i : grid1.Coords)
  (arg2 : Memref sig .tc .vmem S16000x128 .f32) (harg2 : arg2.IsWhole) (arg3 : Memref sig .tc .vmem S1x16000 .i32) (harg3 : arg3.IsWhole)
  (arg4 : Memref sig .tc .vmem S1x128x512 .f32) (harg4 : arg4.IsWhole) (arg5 : Memref sig .tc .vmem S1x512x1 .f32) (harg5 : arg5.IsWhole)
  (X2 : BufTy.Contents (Elt F) arg2.view.ty) (X3 : BufTy.Contents (Elt F) arg3.view.ty)

/-- Trip `k` writes each block once, whole: the chunk's payloads of the rows and ids it loads and of the block it finds. -/
theorem tripL_eq (k : Fin k1_t1_loop.trips) (f4 : BufTy.Contents (Elt F) arg4.view.ty) (f5 : BufTy.Contents (Elt F) arg5.view.ty) :
    tripL_k1_t1 (F := F) 𝒱 c bd i arg2 harg2 arg3 harg3 arg4 harg4 arg5 harg5 X2 X3 k f4 f5
      = ([⟨r4, k1_pay4 (View.ld (arg2.view.read (Elt F) X2) (rx k)) (View.ld (arg3.view.read (Elt F) X3) (rs k)) (View.ld (arg4.view.read (Elt F) f4) r4)⟩],
         [⟨r5, k1_pay5 (View.ld (arg3.view.read (Elt F) X3) (rs k)) (View.ld (arg5.view.read (Elt F) f5) r5)⟩]) := by
  unfold tripL_k1_t1
  unfold trip_k1_t1
  rfl

/-- So after trip `k` the two blocks read as the chunk of what they read before. -/
theorem read_trip (k : Fin k1_t1_loop.trips) (f4 : BufTy.Contents (Elt F) arg4.view.ty) (f5 : BufTy.Contents (Elt F) arg5.view.ty) :
    (arg4.view.read (Elt F) (arg4.view.writes (Elt F) f4 (tripL_k1_t1 (F := F) 𝒱 c bd i arg2 harg2 arg3 harg3 arg4 harg4 arg5 harg5 X2 X3 k f4 f5).1),
     arg5.view.read (Elt F) (arg5.view.writes (Elt F) f5 (tripL_k1_t1 (F := F) 𝒱 c bd i arg2 harg2 arg3 harg3 arg4 harg4 arg5 harg5 X2 X3 k f4 f5).2))
      = chunk (arg2.view.read (Elt F) X2) (arg3.view.read (Elt F) X3) k (arg4.view.read (Elt F) f4, arg5.view.read (Elt F) f5) := by
  rw [tripL_eq]
  unfold chunk
  dsimp only
  rw [read_store4, read_store5, ld4, ld5]

/-- After the first `n` trips, from contents `G4`, `G5`, the two blocks read as the first `n` chunks added to what `G4`, `G5` read. -/
theorem read_pb (G4 : BufTy.Contents (Elt F) arg4.view.ty) (G5 : BufTy.Contents (Elt F) arg5.view.ty) :
    ∀ n, n ≤ k1_t1_loop.trips →
      (arg4.view.read (Elt F) (arg4.view.writes (Elt F) G4 (pb_k1_t1 (F := F) 𝒱 c bd i arg2 harg2 arg3 harg3 arg4 harg4 arg5 harg5 X2 X3 G4 G5 n).1),
       arg5.view.read (Elt F) (arg5.view.writes (Elt F) G5 (pb_k1_t1 (F := F) 𝒱 c bd i arg2 harg2 arg3 harg3 arg4 harg4 arg5 harg5 X2 X3 G4 G5 n).2))
        = accum (arg2.view.read (Elt F) X2) (arg3.view.read (Elt F) X3) (arg4.view.read (Elt F) G4, arg5.view.read (Elt F) G5) n
  | 0, _ => by rw [pb_k1_t1.eq_1]; rfl
  | n + 1, h => by
    have hn : n < k1_t1_loop.trips := h
    rw [show n + 1 = (⟨n, hn⟩ : Fin k1_t1_loop.trips).val + 1 from rfl, pb_k1_t1_succ]
    dsimp only
    rw [View.writes_append, View.writes_append, read_trip, read_pb G4 G5 n (Nat.le_of_lt hn)]
    rw [accum, dif_pos hn]

end Trip

/-! ## A tile: the loop's trips after the reset, or after what the tile before left -/

section Run

variable (𝒱 : Variants) (c : Dev nD) (bd : Option 𝒱.V) (i : grid1.Coords)
  (arg2 : Memref sig .tc .vmem S16000x128 .f32) (harg2 : arg2.IsWhole) (arg3 : Memref sig .tc .vmem S1x16000 .i32) (harg3 : arg3.IsWhole)
  (arg4 : Memref sig .tc .vmem S1x128x512 .f32) (harg4 : arg4.IsWhole) (arg5 : Memref sig .tc .vmem S1x512x1 .f32) (harg5 : arg5.IsWhole)

/-- The loop after a whole-block store of `w4`, `w5`: the blocks read as the tile from `(w4, w5)`. -/
theorem read_run_first (J4 : BufTy.Contents (Elt F) arg4.view.ty) (J5 : BufTy.Contents (Elt F) arg5.view.ty)
    (w4 : Vec F S1x128x512 .f32) (w5 : Vec F S1x512x1 .f32) (x0 : Vec F S16000x128 .f32) (x1 : Vec F S1x16000 .i32) :
    (arg4.view.read (Elt F) (arg4.view.writes (Elt F) J4
        ((pb_k1_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k1_t1_loop.trips).1 ++ [⟨r4, w4⟩])),
     arg5.view.read (Elt F) (arg5.view.writes (Elt F) J5
        ((pb_k1_t1 (F := F) 𝒱 c bd i arg2 harg2 arg3 harg3 arg4 harg4 arg5 harg5 (harg2.unread x0) (harg3.unread x1)
          (arg4.view.writes (Elt F) J4 [⟨r4, w4⟩]) (arg5.view.writes (Elt F) J5 [⟨r5, w5⟩]) k1_t1_loop.trips).2 ++ [⟨r5, w5⟩])))
      = tile x0 x1 (w4, w5) := by
  rw [View.writes_append, View.writes_append, read_pb _ _ _ _ _ _ _ _ _ _ _ _ _ _ _ _ _ (Nat.le_refl _),
    harg2.read_unread, harg3.read_unread, read_store4, read_store5]
  rfl

/-- The loop over blocks reading `init`: the blocks read as the tile from `init`. -/
theorem read_run_later (x0 : Vec F S16000x128 .f32) (x1 : Vec F S1x16000 .i32) (init : Vec F S1x128x512 .f32 × Vec F S1x512x1 .f32) :
    (arg4.view.read (Elt F) (arg4.view.writes (Elt F) (harg4.unread init.1)
        (pb_k1_t1 (F := F) 𝒱 c bd i arg2 harg2 arg3 harg3 arg4 harg4 arg5 harg5 (harg2.unread x0) (harg3.unread x1)
          (harg4.unread init.1) (harg5.unread init.2) k1_t1_loop.trips).1),
     arg5.view.read (Elt F) (arg5.view.writes (Elt F) (harg5.unread init.2)
        (pb_k1_t1 (F := F) 𝒱 c bd i arg2 harg2 arg3 harg3 arg4 harg4 arg5 harg5 (harg2.unread x0) (harg3.unread x1)
          (harg4.unread init.1) (harg5.unread init.2) k1_t1_loop.trips).2))
      = tile x0 x1 init := by
  rw [read_pb _ _ _ _ _ _ _ _ _ _ _ _ _ _ _ _ _ (Nat.le_refl _),
    harg2.read_unread, harg3.read_unread, harg4.read_unread, harg5.read_unread, Prod.mk.eta]
  rfl

end Run

set_option maxHeartbeats 4000000 in
/-- The body at a core's first tile: the inputs' buffers at their blocks, the outputs' at anything; it leaves the tile's chunks added to zero. -/
theorem run_first (c : Dev nD) (i : grid1.Coords) (arg2 : Memref sig .tc .vmem S16000x128 .f32) (harg2 : arg2.IsWhole) (arg3 : Memref sig .tc .vmem S1x16000 .i32) (harg3 : arg3.IsWhole) (arg4 : Memref sig .tc .vmem S1x128x512 .f32) (harg4 : arg4.IsWhole) (arg5 : Memref sig .tc .vmem S1x512x1 .f32) (harg5 : arg5.IsWhole) (hc : cond i)
    (x0 : Vec F S16000x128 .f32) (x1 : Vec F S1x16000 .i32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tile x0 x1 (zero (F := F))).1 ∗ owns (c : Thread nD τ) arg5 fullShare (tile x0 x1 (zero (F := F))).2) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0
  obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    exact congrArg Prod.fst (read_run_first Variants.none c none i arg2 harg2 arg3 harg3 arg4 harg4 arg5 harg5 _ _ k1_pay1 k1_pay2 x0 x1)
  iexists _; isplitr
  swap; · iexact H3
  ipureintro
  sl_unfold_words
  exact congrArg Prod.snd (read_run_first Variants.none c none i arg2 harg2 arg3 harg3 arg4 harg4 arg5 harg5 _ _ k1_pay1 k1_pay2 x0 x1)

set_option maxHeartbeats 4000000 in
/-- The body at a later tile: the outputs' buffers at what the tile before left; it leaves the tile's chunks added to that. -/
theorem run_later (c : Dev nD) (i : grid1.Coords) (arg2 : Memref sig .tc .vmem S16000x128 .f32) (harg2 : arg2.IsWhole) (arg3 : Memref sig .tc .vmem S1x16000 .i32) (harg3 : arg3.IsWhole) (arg4 : Memref sig .tc .vmem S1x128x512 .f32) (harg4 : arg4.IsWhole) (arg5 : Memref sig .tc .vmem S1x512x1 .f32) (harg5 : arg5.IsWhole) (hc : ¬cond i)
    (x0 : Vec F S16000x128 .f32) (x1 : Vec F S1x16000 .i32) (init : Vec F S1x128x512 .f32 × Vec F S1x512x1 .f32) (E : Set ℕ) (K : PUnit → sProp 𝕄) :
    iprop(owns (c : Thread nD τ) arg2 fullShare x0 ∗ owns (c : Thread nD τ) arg3 fullShare x1 ∗ owns (c : Thread nD τ) arg4 fullShare init.1 ∗ owns (c : Thread nD τ) arg5 fullShare init.2
        ∗ (iprop(owns (c : Thread nD τ) arg2 fullShare x0 ∗ owns (c : Thread nD τ) arg3 fullShare x1
            ∗ owns (c : Thread nD τ) arg4 fullShare (tile x0 x1 init).1 ∗ owns (c : Thread nD τ) arg5 fullShare (tile x0 x1 init).2) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact congrArg Prod.fst (read_run_later Variants.none c none i arg2 harg2 arg3 harg3 arg4 harg4 arg5 harg5 x0 x1 init)
  iexists _; isplitr
  swap; · iexact H3
  ipureintro
  exact congrArg Prod.snd (read_run_later Variants.none c none i arg2 harg2 arg3 harg3 arg4 harg4 arg5 harg5 x0 x1 init)

/-! ## What the body finds in each window's buffer -/

/-- Each input's current staging buffer holds its block at every point, fetched there or not: the body leaves the
    block in place, the windows are uncut and never idle. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- At a later tile of a core each output's current staging buffer holds what the body left at the point before: the
    point is not the first, the buffer was not written back between (that happens after a core's last tile only), the
    window is live and uncut. -/
theorem before_2_later (c : Dev nD) (t : Fin cfg1.N) (h0 : ¬t.val % 50 = 0) (d) :
    (dat V c).before 2 t d = (outsAt V c (t.val - 1) (Nat.lt_of_le_of_lt (Nat.sub_le _ _) t.isLt)).1 := by
  have hN : t.val < 100 := lt_of_lt_of_eq t.isLt (show cfg1.N = 100 from N_1)
  rw [Dat.before_out_kept _ 2 rfl t (by omega) (Bool.eq_false_iff.mpr fun h => by have := (flush1_2 _).mp h; dsimp only at this; omega)
    (fun _ => rfl) (fun _ _ => rfl)]
  dsimp only [dat]
theorem before_3_later (c : Dev nD) (t : Fin cfg1.N) (h0 : ¬t.val % 50 = 0) (d) :
    (dat V c).before 3 t d = (outsAt V c (t.val - 1) (Nat.lt_of_le_of_lt (Nat.sub_le _ _) t.isLt)).2 := by
  have hN : t.val < 100 := lt_of_lt_of_eq t.isLt (show cfg1.N = 100 from N_1)
  rw [Dat.before_out_kept _ 3 rfl t (by omega) (Bool.eq_false_iff.mpr fun h => by have := (flush1_3 _).mp h; dsimp only at this; omega)
    (fun _ => rfl) (fun _ _ => rfl)]
  dsimp only [dat]

/-! ## The body obligation, at a generic point -/

/-- Each window's current staging memref at point `t`, spelled as the pipeline passes it, and its wholeness. -/
abbrev ms_0 (t : Fin cfg1.N) : Memref sig .tc .vmem S16000x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x16000 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512x1 .f32 := win1_3.stage (cfg1.slots t 3)
abbrev hs_3 (t : Fin cfg1.N) : (ms_3 t).IsWhole := hstage1_3 ((cfg1.slots t 3).cast nbuf1_3)

/-- What the body is called with at point `t` (the library's precondition, the windows one by one), -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (ms_0 t) fullShare ((dat V c).after 0 t)
    ∗ owns (c : Thread nD τ) (ms_1 t) fullShare ((dat V c).after 1 t)
    ∗ owns (c : Thread nD τ) (ms_2 t) fullShare ((dat V c).after 2 t)
    ∗ owns (c : Thread nD τ) (ms_3 t) fullShare ((dat V c).after 3 t))

set_option maxHeartbeats 1600000 in
/-- The body at any point: the inputs' memrefs hold their blocks; the condition's closed form says whether the point is a
    core's first tile; at a later one the outputs hold what the point before left; so the run applies; the invariant
    passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2, after_3]
  by_cases h0 : t.val % 50 = 0
  · rw [outsAt_first V c t h0]
    iintro ⟨HΦ, Ho, ⟨%d0, H0⟩, ⟨%d1, H1⟩, ⟨%d2, H2⟩, ⟨%d3, H3⟩⟩
    iapply (run_first c (grid1.coords t) _ (hs_0 t) _ (hs_1 t) _ (hs_2 t) _ (hs_3 t) ((hcond t).mpr h0) (iblk V c 0 t) (iblk V c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt_later V c t h0]
    simp only [before_2_later V c t h0, before_3_later V c t h0]
    iintro ⟨HΦ, Ho, ⟨%d0, H0⟩, ⟨%d1, H1⟩, ⟨%d2, H2⟩, ⟨%d3, H3⟩⟩
    iapply (run_later c (grid1.coords t) _ (hs_0 t) _ (hs_1 t) _ (hs_2 t) _ (hs_3 t) (fun h => h0 ((hcond t).mp h)) (iblk V c 0 t) (iblk V c 1 t)
      (outsAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KI.Reg2.lean ====
import proofs.«411700_j6279242186981_3_alg».proof.Proof.Gen.KernelIdeal.Launch
import proofs.«411700_j6279242186981_3_alg».proof.Proof.Gen.KernelIdeal.Skeleton
import proofs.«411700_j6279242186981_3_alg».proof.Proof.Gen.KernelIdeal.Loops
import proofs.«411700_j6279242186981_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the per-core partial sums joined, the segment means, and the two-layer network

One grid point; thirteen input windows, each the whole of its array, and one output window, the whole [512, 128]
result. Stated at a PARAMETER `V`, the TensorCore's buffer contents when the region is entered. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's value from its thirteen input blocks: u; the node partial sums and counts; the edge partial sums
    (segments along the last axis) and counts; the three row blocks of the first weight; its bias; the
    normalisation's scale and shift; the second weight and bias. -/
def out (x0 : Vec F S512x128 .f32) (x1 : Vec F S2x512x256 .f32) (x2 : Vec F S2x512x1 .f32) (x3 : Vec F S2x128x512 .f32)
    (x4 : Vec F S2x512x1 .f32) (x5 : Vec F S128x512 .f32) (x6 : Vec F S256x512 .f32) (x7 : Vec F S128x512 .f32)
    (x8 x9 x10 : Vec F S512 .f32) (x11 : Vec F S512x128 .f32) (x12 : Vec F S128 .f32) : Vec F S512x128 .f32 :=
  k2_pay1 (k2_pay8 (k2_pay2 x0) (k2_pay3 x1 x2) (k2_pay4 x3 x4) (k2_pay5 x5) (k2_pay6 x6) (k2_pay7 x7) x8 x9 x10 x11) (k2_pay9 x12)

/-- What the output block holds after the body at the one point. -/
def outAt (c : Dev nD) (t : Fin cfg2.N) : Vec F S512x128 .f32 :=
  out (iblk V c 0 t) (iblk V c 1 t) (iblk V c 2 t) (iblk V c 3 t) (iblk V c 4 t) (iblk V c 5 t) (iblk V c 6 t)
    (iblk V c 7 t) (iblk V c 8 t) (iblk V c 9 t) (iblk V c 10 t) (iblk V c 11 t) (iblk V c 12 t)

/-- The proof data of pipeline 2 on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outAt V c t
  Φ _ := Pipeline.ΦA spec2 c
  q _ := fullShare
  owed _ := 0

theorem A_eq (c : Dev nD) (w : Fin cfg2.W) : (dat V c).A w = V c (Pipeline.arrRef spec2 w) := by
  dsimp only [dat]
theorem after_13 (c : Dev nD) (t : Fin cfg2.N) : (dat V c).after 13 t = outAt V c t := by dsimp only [dat]

/-! ## The whole-block rectangles: their offsets are all zero -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Each input window's staging buffer holds its block: every window is fetched at the one point -/

theorem before_0_of {c : Dev nD} (dat : Dat τ (Elt F) Unit ℕ (UR sig nD τ) ℕ cfg2 c) (hA : dat.A 0 = V c (Pipeline.arrRef spec2 0))
    (t : Fin cfg2.N) (d) : dat.before 0 t d = iblk V c 0 t :=
  (dat.before_fetched 0 t (fetch2_0 t) d).trans (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (t : Fin cfg2.N) (d) : dat.before 1 t d = iblk V c 1 t :=
  (dat.before_fetched 1 t (fetch2_1 t) d).trans (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (t : Fin cfg2.N) (d) : dat.before 2 t d = iblk V c 2 t :=
  (dat.before_fetched 2 t (fetch2_2 t) d).trans (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (t : Fin cfg2.N) (d) : dat.before 3 t d = iblk V c 3 t :=
  (dat.before_fetched 3 t (fetch2_3 t) d).trans (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (t : Fin cfg2.N) (d) : dat.before 4 t d = iblk V c 4 t :=
  (dat.before_fetched 4 t (fetch2_4 t) d).trans (by unfold Dat.fetched Dat.blockOf iblk; rw [hA]; try rfl)
theorem before_5_of {c : Dev nD} (dat : Dat τ (Elt F) Unit ℕ (UR sig nD τ) ℕ cfg2 c) (hA : dat.A 5 = V c (Pipeline.arrRef spec2 5))
    (t : Fin cfg2.N) (d) : dat.before 5 t d = iblk V c 5 t :=
  (dat.before_fetched 5 t (fetch2_5 t) d).trans (by unfold Dat.fetched Dat.blockOf iblk; rw [hA]; try rfl)
theorem before_6_of {c : Dev nD} (dat : Dat τ (Elt F) Unit ℕ (UR sig nD τ) ℕ cfg2 c) (hA : dat.A 6 = V c (Pipeline.arrRef spec2 6))
    (t : Fin cfg2.N) (d) : dat.before 6 t d = iblk V c 6 t :=
  (dat.before_fetched 6 t (fetch2_6 t) d).trans (by unfold Dat.fetched Dat.blockOf iblk; rw [hA]; try rfl)
theorem before_7_of {c : Dev nD} (dat : Dat τ (Elt F) Unit ℕ (UR sig nD τ) ℕ cfg2 c) (hA : dat.A 7 = V c (Pipeline.arrRef spec2 7))
    (t : Fin cfg2.N) (d) : dat.before 7 t d = iblk V c 7 t :=
  (dat.before_fetched 7 t (fetch2_7 t) d).trans (by unfold Dat.fetched Dat.blockOf iblk; rw [hA]; try rfl)
theorem before_8_of {c : Dev nD} (dat : Dat τ (Elt F) Unit ℕ (UR sig nD τ) ℕ cfg2 c) (hA : dat.A 8 = V c (Pipeline.arrRef spec2 8))
    (t : Fin cfg2.N) (d) : dat.before 8 t d = iblk V c 8 t :=
  (dat.before_fetched 8 t (fetch2_8 t) d).trans (by unfold Dat.fetched Dat.blockOf iblk; rw [hA]; try rfl)
theorem before_9_of {c : Dev nD} (dat : Dat τ (Elt F) Unit ℕ (UR sig nD τ) ℕ cfg2 c) (hA : dat.A 9 = V c (Pipeline.arrRef spec2 9))
    (t : Fin cfg2.N) (d) : dat.before 9 t d = iblk V c 9 t :=
  (dat.before_fetched 9 t (fetch2_9 t) d).trans (by unfold Dat.fetched Dat.blockOf iblk; rw [hA]; try rfl)
theorem before_10_of {c : Dev nD} (dat : Dat τ (Elt F) Unit ℕ (UR sig nD τ) ℕ cfg2 c) (hA : dat.A 10 = V c (Pipeline.arrRef spec2 10))
    (t : Fin cfg2.N) (d) : dat.before 10 t d = iblk V c 10 t :=
  (dat.before_fetched 10 t (fetch2_10 t) d).trans (by unfold Dat.fetched Dat.blockOf iblk; rw [hA]; try rfl)
theorem before_11_of {c : Dev nD} (dat : Dat τ (Elt F) Unit ℕ (UR sig nD τ) ℕ cfg2 c) (hA : dat.A 11 = V c (Pipeline.arrRef spec2 11))
    (t : Fin cfg2.N) (d) : dat.before 11 t d = iblk V c 11 t :=
  (dat.before_fetched 11 t (fetch2_11 t) d).trans (by unfold Dat.fetched Dat.blockOf iblk; rw [hA]; try rfl)
theorem before_12_of {c : Dev nD} (dat : Dat τ (Elt F) Unit ℕ (UR sig nD τ) ℕ cfg2 c) (hA : dat.A 12 = V c (Pipeline.arrRef spec2 12))
    (t : Fin cfg2.N) (d) : dat.before 12 t d = iblk V c 12 t :=
  (dat.before_fetched 12 t (fetch2_12 t) d).trans (by unfold Dat.fetched Dat.blockOf iblk; rw [hA]; try rfl)

/-! ## The body's triple -/

set_option maxHeartbeats 4000000 in
/-- The kernel body on whole staging memrefs, the thirteen inputs' at read contents and the output's at anything, runs
    to the continuation holding the inputs' as they were and the output's at `out` of the inputs': the loads read the
    whole blocks, the one store covers the output block (the load of the output before it reads a value nothing uses). -/
theorem sound_kernel (c : Dev nD) (E : Set ℕ) (i : grid2.Coords) (arg1 : Memref sig .tc .vmem S512x128 .f32) (harg1 : arg1.IsWhole) (arg2 : Memref sig .tc .vmem S2x512x256 .f32) (harg2 : arg2.IsWhole) (arg3 : Memref sig .tc .vmem S2x512x1 .f32) (harg3 : arg3.IsWhole) (arg4 : Memref sig .tc .vmem S2x128x512 .f32) (harg4 : arg4.IsWhole) (arg5 : Memref sig .tc .vmem S2x512x1 .f32) (harg5 : arg5.IsWhole) (arg6 : Memref sig .tc .vmem S128x512 .f32) (harg6 : arg6.IsWhole) (arg7 : Memref sig .tc .vmem S256x512 .f32) (harg7 : arg7.IsWhole) (arg8 : Memref sig .tc .vmem S128x512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x128 .f32) (harg12 : arg12.IsWhole) (arg13 : Memref sig .tc .vmem S128 .f32) (harg13 : arg13.IsWhole) (arg14 : Memref sig .tc .vmem S512x128 .f32) (harg14 : arg14.IsWhole)
    (x0 : Vec F S512x128 .f32) (x1 : Vec F S2x512x256 .f32) (x2 : Vec F S2x512x1 .f32) (x3 : Vec F S2x128x512 .f32) (x4 : Vec F S2x512x1 .f32) (x5 : Vec F S128x512 .f32) (x6 : Vec F S256x512 .f32) (x7 : Vec F S128x512 .f32) (x8 : Vec F S512 .f32) (x9 : Vec F S512 .f32) (x10 : Vec F S512 .f32) (x11 : Vec F S512x128 .f32) (x12 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out x0 x1 x2 x3 x4 x5 x6 x7 x8 x9 x10 x11 x12)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  sl_unfold_run_names
  unfold out
  rw [View.read_writes_eq_canon _ _ _ (fun y => ⟨_, List.mem_singleton_self _,
      View.mem_set_unit_zero (S := S512x128) hz2 inb_S512x128_S512x128_0_0 y⟩),
    View.canon_unit_zero (S := S512x128) hz2]
  simp only [View.readAt_eq_ld, View.ld_unit_zero (S := S512x128) hz2 inb_S512x128_S512x128_0_0,
    View.ld_unit_zero (S := S2x512x256) hz3 inb_S2x512x256_S2x512x256_0_0_0,
    View.ld_unit_zero (S := S2x512x1) hz3 inb_S2x512x1_S2x512x1_0_0_0,
    View.ld_unit_zero (S := S2x128x512) hz3 inb_S2x128x512_S2x128x512_0_0_0,
    View.ld_unit_zero (S := S128x512) hz2 inb_S128x512_S128x512_0_0,
    View.ld_unit_zero (S := S256x512) hz2 inb_S256x512_S256x512_0_0,
    View.ld_unit_zero (S := S512) hz1 inb_S512_S512_0,
    View.ld_unit_zero (S := S128) hz1 inb_S128_S128_0]

/-! ## The proof data's windows -/

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]

theorem before_0 (c : Dev nD) (t : Fin cfg2.N) (d) : (dat V c).before 0 t d = iblk V c 0 t :=
  before_0_of V (dat V c) (A_eq V c 0) t d
theorem before_1 (c : Dev nD) (t : Fin cfg2.N) (d) : (dat V c).before 1 t d = iblk V c 1 t :=
  before_1_of V (dat V c) (A_eq V c 1) t d
theorem before_2 (c : Dev nD) (t : Fin cfg2.N) (d) : (dat V c).before 2 t d = iblk V c 2 t :=
  before_2_of V (dat V c) (A_eq V c 2) t d
theorem before_3 (c : Dev nD) (t : Fin cfg2.N) (d) : (dat V c).before 3 t d = iblk V c 3 t :=
  before_3_of V (dat V c) (A_eq V c 3) t d
theorem before_4 (c : Dev nD) (t : Fin cfg2.N) (d) : (dat V c).before 4 t d = iblk V c 4 t :=
  before_4_of V (dat V c) (A_eq V c 4) t d
theorem before_5 (c : Dev nD) (t : Fin cfg2.N) (d) : (dat V c).before 5 t d = iblk V c 5 t :=
  before_5_of V (dat V c) (A_eq V c 5) t d
theorem before_6 (c : Dev nD) (t : Fin cfg2.N) (d) : (dat V c).before 6 t d = iblk V c 6 t :=
  before_6_of V (dat V c) (A_eq V c 6) t d
theorem before_7 (c : Dev nD) (t : Fin cfg2.N) (d) : (dat V c).before 7 t d = iblk V c 7 t :=
  before_7_of V (dat V c) (A_eq V c 7) t d
theorem before_8 (c : Dev nD) (t : Fin cfg2.N) (d) : (dat V c).before 8 t d = iblk V c 8 t :=
  before_8_of V (dat V c) (A_eq V c 8) t d
theorem before_9 (c : Dev nD) (t : Fin cfg2.N) (d) : (dat V c).before 9 t d = iblk V c 9 t :=
  before_9_of V (dat V c) (A_eq V c 9) t d
theorem before_10 (c : Dev nD) (t : Fin cfg2.N) (d) : (dat V c).before 10 t d = iblk V c 10 t :=
  before_10_of V (dat V c) (A_eq V c 10) t d
theorem before_11 (c : Dev nD) (t : Fin cfg2.N) (d) : (dat V c).before 11 t d = iblk V c 11 t :=
  before_11_of V (dat V c) (A_eq V c 11) t d
theorem before_12 (c : Dev nD) (t : Fin cfg2.N) (d) : (dat V c).before 12 t d = iblk V c 12 t :=
  before_12_of V (dat V c) (A_eq V c 12) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t))

set_option maxHeartbeats 1000000 in
/-- The body at any point: the inputs' memrefs hold their blocks, so `sound_kernel` applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.KI.Launch.lean ====
import proofs.«411700_j6279242186981_3_alg».proof.Proof.Gen.KernelIdeal.Launch
import proofs.«411700_j6279242186981_3_alg».proof.Proof.Gen.KernelIdeal.Skeleton
import proofs.«411700_j6279242186981_3_alg».proof.Proof.Gen.KernelIdeal.Loops
import proofs.«411700_j6279242186981_3_alg».proof.Proof.Gen.KernelIdeal.Points
import Idealize.ShloMosaic.Lib.Pipeline.FrameBody
import Idealize.ShloMosaic.Lib.Ring
import Idealize.ShloMosaic.Lib.Tactic
import proofs.«411700_j6279242186981_3_alg».proof.Proof.KI.Reg0
import proofs.«411700_j6279242186981_3_alg».proof.Proof.KI.Reg1
import proofs.«411700_j6279242186981_3_alg».proof.Proof.KI.Reg2
import proofs.«411700_j6279242186981_3_alg».proof.Proof.Gen.KernelIdeal.Regions
import Idealize.ShloMosaic.Lib.Pipeline.RegionsLoop
import Idealize.ShloMosaic.Lib.Pipeline.FrameSuffix
set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The launch: @main as host stretches and three kernel regions

The buffer contents at every boundary of @main, a fold from the launch memory: a host stretch applies its operations; a
region leaves its arrays at what its write-backs put there and every other buffer as it found it. Then the run itself:
every weakly fair execution ends with every unscoped buffer at the last boundary's contents. -/

variable (m : (ℓ : Loc nD τ sig) → Buf (Elt F) ℓ) (ρ : Dev nD → PrngReg)

/-- Core `c`'s buffers at launch, and after each of the five host stretches before region 0. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- The same read at the TensorCore's references: what region 0 is entered with. -/
abbrev V5 : (c : Dev nD) → (b : Ref sig .tc) → Buf (Elt F) ((c : Thread nD τ).loc b) := fun c b => W5 m c b
/-- After region 0. -/
def W6 (c : Dev nD) : Valuation τ sig (Elt F) :=
  Pipeline.withArrays spec0 c (W5 m c) fun w => (Reg0.dat (V5 m) c).arrAt w cfg0.N
abbrev V6 : (c : Dev nD) → (b : Ref sig .tc) → Buf (Elt F) ((c : Thread nD τ).loc b) := fun c b => W6 m c b
/-- After region 1. -/
def W7 (c : Dev nD) : Valuation τ sig (Elt F) :=
  Pipeline.withArrays spec1 c (W6 m c) fun w => (Reg1.dat (V6 m) c).arrAt w cfg1.N
/-- After the host stretch between regions 1 and 2 (the three row blocks of the first weight). -/
abbrev W8 : Dev nD → Valuation τ sig (Elt F) := fun c => StableHlo.after hostOps2 (W7 m c)
abbrev V8 : (c : Dev nD) → (b : Ref sig .tc) → Buf (Elt F) ((c : Thread nD τ).loc b) := fun c b => W8 m c b
/-- After region 2: the end. -/
def W9 (c : Dev nD) : Valuation τ sig (Elt F) :=
  Pipeline.withArrays spec2 c (W8 m c) fun w => (Reg2.dat (V8 m) c).arrAt w cfg2.N

theorem W6_arr (c : Dev nD) (w : Fin cfg0.W) :
    W6 m c (Proc.devRef .tc (Pipeline.arrRef spec0 w)) = (Reg0.dat (V5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem W7_arr (c : Dev nD) (w : Fin cfg1.W) :
    W7 m c (Proc.devRef .tc (Pipeline.arrRef spec1 w)) = (Reg1.dat (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W9_arr (c : Dev nD) (w : Fin cfg2.W) :
    W9 m c (Proc.devRef .tc (Pipeline.arrRef spec2 w)) = (Reg2.dat (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb

/-! ## What a region's exit needs: its arrays at what the write-backs leave, every other buffer as entered -/

/-- The contents after regions 1 and 2, read at the TensorCore's references. -/
abbrev V7 : (c : Dev nD) → (b : Ref sig .tc) → Buf (Elt F) ((c : Thread nD τ).loc b) := fun c b => W7 m c b
abbrev V9 : (c : Dev nD) → (b : Ref sig .tc) → Buf (Elt F) ((c : Thread nD τ).loc b) := fun c b => W9 m c b

theorem hF0 (c : Dev nD) (w : Fin cfg0.W) : (Reg0.dat (V5 m) c).arrAt w cfg0.N = V6 m c (Pipeline.arrRef spec0 w) :=
  (W6_arr m c w).symm
theorem hrest0 (c : Dev nD) : ∀ b, b ∉ Finset.univ.image (Pipeline.arrRef spec0) → V6 m c b = V5 m c b :=
  fun b hb => W6_of_ne m c b fun w e => hb (Finset.mem_image.mpr ⟨w, Finset.mem_univ _, e⟩)
theorem hF1 (c : Dev nD) (w : Fin cfg1.W) : (Reg1.dat (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
theorem hF2 (c : Dev nD) (w : Fin cfg2.W) : (Reg2.dat (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (V5 m) c
  | ⟨1, _⟩ => fun c => Reg1.dat (V6 m) c
  | ⟨2, _⟩ => fun c => Reg2.dat (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment: its operations over the unscoped references from the contents `W`, `R` riding along;
    it ends with those references at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m c) ∗ ∃ r, prngReg c r)

/-! ## The regions as segments -/

set_option backward.isDefEq.respectTransparency.types false in
/-- REGION 0 over the thread state: entered from every unscoped buffer at `W5`, left at `W6`. Its arrays are split
    out of the unscoped buffers and put back at the exit contents; the generator register goes into the class's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V5 m c) (V6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are split
    out of the unscoped buffers and put back at the exit contents; the generator register goes into the class's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers and put back at the exit contents; the generator register goes into the class's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .host (hseg hostOps2 hostOps2_sub hostOps2_fresh (W7 m)),
    .region (reg2 m) ]
/-- The segments' fragments are @main's items. -/
theorem segs_prog : (segs m).map Pipeline.Seg.prog = [
      StableHlo.seq hostOps0,
      StableHlo.seq hostOps0_1,
      StableHlo.seq hostOps0_2,
      StableHlo.seq hostOps0_3,
      StableHlo.seq hostOps0_4,
      Prog.lift (.customCall (Pipeline.entry 0) ()),
      Prog.lift (.customCall (Pipeline.entry 1) ()),
      StableHlo.seq hostOps2,
      Prog.lift (.customCall (Pipeline.entry 2) ()) ] := rfl
/-- @main is the run of the segments. -/
theorem main_run (c : Dev nD) : main (F := F) c = Pipeline.Seg.run (segs m) := by
  rw [main_chain c, Pipeline.Seg.run_eq_chain, segs_prog]

set_option backward.isDefEq.respectTransparency.types false in
/-- THE RUN: every weakly fair execution of @main from memory `m` with zero counters terminates, nothing faulting, every
    unscoped buffer of every core ending at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-! ## Reading the last boundary: the result, and each argument walked back through the fold to the launch memory -/

/-- The result buffer ends at what region 2's one write-back left. -/
theorem W9_result (c : Dev nD) : W9 m c (Proc.devRef .tc main_v18) = (Reg2.dat (V8 m) c).arrAt 13 cfg2.N :=
  W9_arr m c 13

/-- A host stretch leaves a buffer it does not write as it found it. -/
theorem W1_of (c : Dev nD) (r : Ref sig .tc) (h : r ∉ (hostOps0_W : List (Ref sig .tc))) : W1 m c (Proc.devRef .tc r) = W0 m c (Proc.devRef .tc r) :=
  StableHlo.after_of_writes_sub hostOps0 _ hostOps0_writes h
theorem W2_of (c : Dev nD) (r : Ref sig .tc) (h : r ∉ (hostOps0_1_W : List (Ref sig .tc))) : W2 m c (Proc.devRef .tc r) = W1 m c (Proc.devRef .tc r) :=
  StableHlo.after_of_writes_sub hostOps0_1 _ hostOps0_1_writes h
theorem W3_of (c : Dev nD) (r : Ref sig .tc) (h : r ∉ (hostOps0_2_W : List (Ref sig .tc))) : W3 m c (Proc.devRef .tc r) = W2 m c (Proc.devRef .tc r) :=
  StableHlo.after_of_writes_sub hostOps0_2 _ hostOps0_2_writes h
theorem W4_of (c : Dev nD) (r : Ref sig .tc) (h : r ∉ (hostOps0_3_W : List (Ref sig .tc))) : W4 m c (Proc.devRef .tc r) = W3 m c (Proc.devRef .tc r) :=
  StableHlo.after_of_writes_sub hostOps0_3 _ hostOps0_3_writes h
theorem W5_of (c : Dev nD) (r : Ref sig .tc) (h : r ∉ (hostOps0_4_W : List (Ref sig .tc))) : W5 m c (Proc.devRef .tc r) = W4 m c (Proc.devRef .tc r) :=
  StableHlo.after_of_writes_sub hostOps0_4 _ hostOps0_4_writes h
theorem W8_of (c : Dev nD) (r : Ref sig .tc) (h : r ∉ (hostOps2_W : List (Ref sig .tc))) : W8 m c (Proc.devRef .tc r) = W7 m c (Proc.devRef .tc r) :=
  StableHlo.after_of_writes_sub hostOps2 _ hostOps2_writes h
/-- A buffer none of the five stretches before region 0 writes holds its launch contents when region 0 is entered. -/
theorem W5_launch (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc))) (h4 : r ∉ (hostOps0_4_W : List (Ref sig .tc))) :
    W5 m c (Proc.devRef .tc r) = m ((c : Thread nD τ).loc r) :=
  (W5_of m c r h4).trans <| (W4_of m c r h3).trans <| (W3_of m c r h2).trans <| (W2_of m c r h1).trans <| (W1_of m c r h0).trans rfl
/-- An input window's array leaves its region as it entered: regions 1 and 2. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((Reg1.dat (V6 m) c).arrAt_in w hin _).trans (Reg1.A_eq (V6 m) c w))
theorem W9_in (c : Dev nD) (w : Fin cfg2.W) (hin : (cfg2.win w).isOut = false) :
    W9 m c (Proc.devRef .tc (Pipeline.arrRef spec2 w)) = W8 m c (Proc.devRef .tc (Pipeline.arrRef spec2 w)) :=
  (W9_arr m c w).trans (((Reg2.dat (V8 m) c).arrAt_in w hin _).trans (Reg2.A_eq (V8 m) c w))

/-! ### The arguments end as launched: no host operation writes one, and a region either stages it through an input
    window or passes it by -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := W9_of_ne m c main_arg0 (by decide)
    _ = W7 m c (Proc.devRef .tc main_arg0) := W8_of m c main_arg0 (by decide)
    _ = W6 m c (Proc.devRef .tc main_arg0) := W7_of_ne m c main_arg0 (by decide)
    _ = W5 m c (Proc.devRef .tc main_arg0) := W6_of_ne m c main_arg0 (by decide)
    _ = m ((c : Thread nD τ).loc main_arg0) := W5_launch m c main_arg0 (by decide) (by decide) (by decide) (by decide) (by decide)
theorem W9_main_arg1 (c : Dev nD) : W9 m c (Proc.devRef .tc main_arg1) = m ((c : Thread nD τ).loc main_arg1) :=
  calc W9 m c (Proc.devRef .tc main_arg1)
    _ = W8 m c (Proc.devRef .tc main_arg1) := W9_of_ne m c main_arg1 (by decide)
    _ = W7 m c (Proc.devRef .tc main_arg1) := W8_of m c main_arg1 (by decide)
    _ = W6 m c (Proc.devRef .tc main_arg1) := W7_of_ne m c main_arg1 (by decide)
    _ = W5 m c (Proc.devRef .tc main_arg1) := W6_of_ne m c main_arg1 (by decide)
    _ = m ((c : Thread nD τ).loc main_arg1) := W5_launch m c main_arg1 (by decide) (by decide) (by decide) (by decide) (by decide)
theorem W9_main_arg2 (c : Dev nD) : W9 m c (Proc.devRef .tc main_arg2) = m ((c : Thread nD τ).loc main_arg2) :=
  calc W9 m c (Proc.devRef .tc main_arg2)
    _ = W8 m c (Proc.devRef .tc main_arg2) := W9_of_ne m c main_arg2 (by decide)
    _ = W7 m c (Proc.devRef .tc main_arg2) := W8_of m c main_arg2 (by decide)
    _ = W6 m c (Proc.devRef .tc main_arg2) := W7_in m c 0 rfl
    _ = W5 m c (Proc.devRef .tc main_arg2) := W6_of_ne m c main_arg2 (by decide)
    _ = m ((c : Thread nD τ).loc main_arg2) := W5_launch m c main_arg2 (by decide) (by decide) (by decide) (by decide) (by decide)
theorem W9_main_arg3 (c : Dev nD) : W9 m c (Proc.devRef .tc main_arg3) = m ((c : Thread nD τ).loc main_arg3) :=
  calc W9 m c (Proc.devRef .tc main_arg3)
    _ = W8 m c (Proc.devRef .tc main_arg3) := W9_in m c 0 rfl
    _ = W7 m c (Proc.devRef .tc main_arg3) := W8_of m c main_arg3 (by decide)
    _ = W6 m c (Proc.devRef .tc main_arg3) := W7_of_ne m c main_arg3 (by decide)
    _ = W5 m c (Proc.devRef .tc main_arg3) := W6_of_ne m c main_arg3 (by decide)
    _ = m ((c : Thread nD τ).loc main_arg3) := W5_launch m c main_arg3 (by decide) (by decide) (by decide) (by decide) (by decide)
theorem W9_main_arg4 (c : Dev nD) : W9 m c (Proc.devRef .tc main_arg4) = m ((c : Thread nD τ).loc main_arg4) :=
  calc W9 m c (Proc.devRef .tc main_arg4)
    _ = W8 m c (Proc.devRef .tc main_arg4) := W9_of_ne m c main_arg4 (by decide)
    _ = W7 m c (Proc.devRef .tc main_arg4) := W8_of m c main_arg4 (by decide)
    _ = W6 m c (Proc.devRef .tc main_arg4) := W7_of_ne m c main_arg4 (by decide)
    _ = W5 m c (Proc.devRef .tc main_arg4) := W6_of_ne m c main_arg4 (by decide)
    _ = m ((c : Thread nD τ).loc main_arg4) := W5_launch m c main_arg4 (by decide) (by decide) (by decide) (by decide) (by decide)
theorem W9_main_arg5 (c : Dev nD) : W9 m c (Proc.devRef .tc main_arg5) = m ((c : Thread nD τ).loc main_arg5) :=
  calc W9 m c (Proc.devRef .tc main_arg5)
    _ = W8 m c (Proc.devRef .tc main_arg5) := W9_of_ne m c main_arg5 (by decide)
    _ = W7 m c (Proc.devRef .tc main_arg5) := W8_of m c main_arg5 (by decide)
    _ = W6 m c (Proc.devRef .tc main_arg5) := W7_of_ne m c main_arg5 (by decide)
    _ = W5 m c (Proc.devRef .tc main_arg5) := W6_of_ne m c main_arg5 (by decide)
    _ = m ((c : Thread nD τ).loc main_arg5) := W5_launch m c main_arg5 (by decide) (by decide) (by decide) (by decide) (by decide)
theorem W9_main_arg6 (c : Dev nD) : W9 m c (Proc.devRef .tc main_arg6) = m ((c : Thread nD τ).loc main_arg6) :=
  calc W9 m c (Proc.devRef .tc main_arg6)
    _ = W8 m c (Proc.devRef .tc main_arg6) := W9_in m c 8 rfl
    _ = W7 m c (Proc.devRef .tc main_arg6) := W8_of m c main_arg6 (by decide)
    _ = W6 m c (Proc.devRef .tc main_arg6) := W7_of_ne m c main_arg6 (by decide)
    _ = W5 m c (Proc.devRef .tc main_arg6) := W6_of_ne m c main_arg6 (by decide)
    _ = m ((c : Thread nD τ).loc main_arg6) := W5_launch m c main_arg6 (by decide) (by decide) (by decide) (by decide) (by decide)
theorem W9_main_arg7 (c : Dev nD) : W9 m c (Proc.devRef .tc main_arg7) = m ((c : Thread nD τ).loc main_arg7) :=
  calc W9 m c (Proc.devRef .tc main_arg7)
    _ = W8 m c (Proc.devRef .tc main_arg7) := W9_in m c 9 rfl
    _ = W7 m c (Proc.devRef .tc main_arg7) := W8_of m c main_arg7 (by decide)
    _ = W6 m c (Proc.devRef .tc main_arg7) := W7_of_ne m c main_arg7 (by decide)
    _ = W5 m c (Proc.devRef .tc main_arg7) := W6_of_ne m c main_arg7 (by decide)
    _ = m ((c : Thread nD τ).loc main_arg7) := W5_launch m c main_arg7 (by decide) (by decide) (by decide) (by decide) (by decide)
theorem W9_main_arg8 (c : Dev nD) : W9 m c (Proc.devRef .tc main_arg8) = m ((c : Thread nD τ).loc main_arg8) :=
  calc W9 m c (Proc.devRef .tc main_arg8)
    _ = W8 m c (Proc.devRef .tc main_arg8) := W9_in m c 10 rfl
    _ = W7 m c (Proc.devRef .tc main_arg8) := W8_of m c main_arg8 (by decide)
    _ = W6 m c (Proc.devRef .tc main_arg8) := W7_of_ne m c main_arg8 (by decide)
    _ = W5 m c (Proc.devRef .tc main_arg8) := W6_of_ne m c main_arg8 (by decide)
    _ = m ((c : Thread nD τ).loc main_arg8) := W5_launch m c main_arg8 (by decide) (by decide) (by decide) (by decide) (by decide)
theorem W9_main_arg9 (c : Dev nD) : W9 m c (Proc.devRef .tc main_arg9) = m ((c : Thread nD τ).loc main_arg9) :=
  calc W9 m c (Proc.devRef .tc main_arg9)
    _ = W8 m c (Proc.devRef .tc main_arg9) := W9_in m c 11 rfl
    _ = W7 m c (Proc.devRef .tc main_arg9) := W8_of m c main_arg9 (by decide)
    _ = W6 m c (Proc.devRef .tc main_arg9) := W7_of_ne m c main_arg9 (by decide)
    _ = W5 m c (Proc.devRef .tc main_arg9) := W6_of_ne m c main_arg9 (by decide)
    _ = m ((c : Thread nD τ).loc main_arg9) := W5_launch m c main_arg9 (by decide) (by decide) (by decide) (by decide) (by decide)
theorem W9_main_arg10 (c : Dev nD) : W9 m c (Proc.devRef .tc main_arg10) = m ((c : Thread nD τ).loc main_arg10) :=
  calc W9 m c (Proc.devRef .tc main_arg10)
    _ = W8 m c (Proc.devRef .tc main_arg10) := W9_in m c 12 rfl
    _ = W7 m c (Proc.devRef .tc main_arg10) := W8_of m c main_arg10 (by decide)
    _ = W6 m c (Proc.devRef .tc main_arg10) := W7_of_ne m c main_arg10 (by decide)
    _ = W5 m c (Proc.devRef .tc main_arg10) := W6_of_ne m c main_arg10 (by decide)
    _ = m ((c : Thread nD τ).loc main_arg10) := W5_launch m c main_arg10 (by decide) (by decide) (by decide) (by decide) (by decide)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c),
      (h c _ (mem_uc main_arg10 (by decide))).trans (W9_main_arg10 m c)⟩) (run_all m ρ)

/-- THE RUN WITH ITS RESULT NAMED: the result array ends at region 2's write-back, the arguments as launched. -/
theorem run_value : θ_run defs (onTc (τ := τ) (main (F := F))) ⟨m, fun _ => 0, ρ⟩ (fun r => ∀ c : Dev nD,
      r.2.mem ((c.tc : Thread nD τ).loc main_v18) = (Reg2.dat (V8 m) c).arrAt 13 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v18 (by decide))).trans (W9_result m c),
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c),
      (h c _ (mem_uc main_arg10 (by decide))).trans (W9_main_arg10 m c)⟩) (run_all m ρ)

end Cert.KernelIdeal.Launch

end
-- ==== Proof.KI.GlueDefs.lean ====
/-
  Three host computations named: the node ids padded to the tile grid by the all-ones word and laid out as one row; row 1 of
  the edge index; and the node id of each edge's target (a negative target wrapped by 50000, then the ids gathered there).
-/
import proofs.«411700_j6279242186981_3_alg».proof.Proof.Gen.KernelIdeal

noncomputable section

namespace Cert.KernelIdeal.Glue

open Idealize.ShloMosaic Cert.KernelIdeal Cert.KernelIdeal.Gen

/-- The node ids padded to 51200 by the all-ones word, as one row. -/
def padIds (x4 : IVec S50000 32) : IVec S1x51200 32 :=
  shapeCast S1x51200 (pad S51200 ![0] ![1200] ![0] x4 (constantI S_ 32 4294967295#32) pads_S50000_S51200_012000 h_S_) shapeCasts_S51200_S1x51200

/-- Row 1 of the edge index: each edge's target. -/
def targets (x1 : IVec S2x1600000 32) : IVec S1600000 32 :=
  shapeCast S1600000 (extractStridedSlice S1x1600000 ![1, 0] x1 slices_S2x1600000_S1x1600000_1_0) shapeCasts_S1x1600000_S1600000

/-- The node id of each edge's target: a negative target wrapped by 50000, then the ids gathered there. -/
def bcolK (x1 : IVec S2x1600000 32) (x4 : IVec S50000 32) : IVec S1600000 32 :=
  Host.gather gather_S50000_S1600000x1_S1600000_n_0_n_n_0_1_1 x4
    (broadcastInDim S1600000x1 ![0] bcast_S1600000_S1600000x1_0
      (select (cmpi .slt (targets x1) (broadcastInDim S1600000 ![] bcast_S_S1600000 (constantI S_ 32 0#32)))
        (addi (targets x1) (broadcastInDim S1600000 ![] bcast_S_S1600000 (constantI S_ 32 50000#32)))
        (targets x1)))

end Cert.KernelIdeal.Glue

end
-- ==== Proof.KI.Glue.lean ====
import proofs.«411700_j6279242186981_3_alg».proof.Proof.Gen.KernelIdeal.Launch
import proofs.«411700_j6279242186981_3_alg».proof.Proof.Gen.KernelIdeal.Skeleton
import proofs.«411700_j6279242186981_3_alg».proof.Proof.Gen.KernelIdeal.Loops
import proofs.«411700_j6279242186981_3_alg».proof.Proof.Gen.KernelIdeal.Points
import Idealize.ShloMosaic.Lib.Pipeline.FrameBody
import Idealize.ShloMosaic.Lib.Ring
import Idealize.ShloMosaic.Lib.Tactic
import proofs.«411700_j6279242186981_3_alg».proof.Proof.KI.Launch
import proofs.«411700_j6279242186981_3_alg».proof.Proof.KI.GlueDefs
import Idealize.ShloMosaic.Lib.StableHlo.Run
import Idealize.ShloMosaic.Lib.Pipeline.Value
import Idealize.ShloMosaic.Lib.ValueIdx
set_option maxRecDepth 16384

noncomputable section

namespace Cert.KernelIdeal.Glue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What the host stretches hand the three regions

Region 0 is entered with the node rows padded by 1200 rows of the converted word 0 and the node ids padded by 1200 all-ones
words, laid out as one row; region 1 with the edge rows as given and, as one row, the node id of each edge's target (the ids
gathered at the targets, a negative target wrapped by 50000 first); region 2 with the two regions' four result arrays, the three
row blocks of the first weight, and six arguments as given. -/

open Idealize.ShloMosaic.StableHlo

variable (m : (ℓ : Loc nD τ sig) → Buf (Elt F) ℓ)

/-! ## Region 0's entry -/

theorem V5_v9 (c : Dev nD) :
    Launch.V5 m c main_v9 = pad S51200x256 ![0, 0] ![1200, 0] ![0, 0] (m ((c : Thread nD τ).loc main_arg0))
      (sitofp (F := F) .f32 (constantI S_ 32 0#32)) pads_S50000x256_S51200x256_012000_000 h_S_ := by
  show StableHlo.after hostOps0_4 (StableHlo.after hostOps0_3 (StableHlo.after hostOps0_2 (StableHlo.after hostOps0_1
    (StableHlo.after hostOps0 (fun b => m (c, b)))))) (Proc.devRef .tc main_v9) = _
  after_results
  rfl

theorem V5_v11 (c : Dev nD) : Launch.V5 m c main_v11 = padIds (m ((c : Thread nD τ).loc main_arg4)) := by
  show StableHlo.after hostOps0_4 (StableHlo.after hostOps0_3 (StableHlo.after hostOps0_2 (StableHlo.after hostOps0_1
    (StableHlo.after hostOps0 (fun b => m (c, b)))))) (Proc.devRef .tc main_v11) = _
  after_results
  rfl

theorem V5_v12 (c : Dev nD) :
    Launch.V5 m c main_v12
      = shapeCast S1x1600000 (bcolK (m ((c : Thread nD τ).loc main_arg1)) (m ((c : Thread nD τ).loc main_arg4))) shapeCasts_S1600000_S1x1600000 := by
  show StableHlo.after hostOps0_4 (StableHlo.after hostOps0_3 (StableHlo.after hostOps0_2 (StableHlo.after hostOps0_1
    (StableHlo.after hostOps0 (fun b => m (c, b)))))) (Proc.devRef .tc main_v12) = _
  after_results
  rfl

/-- The eleven argument arrays. -/
abbrev argRefs : List (Ref sig .tc) :=
  [main_arg0, main_arg1, main_arg2, main_arg3, main_arg4, main_arg5, main_arg6, main_arg7, main_arg8, main_arg9, main_arg10]

/-- No host stretch writes an argument array. -/
theorem args_unwritten : ∀ b ∈ argRefs, b ∉ Gen.hostOps0_W ∧ b ∉ Gen.hostOps0_1_W ∧ b ∉ Gen.hostOps0_2_W
    ∧ b ∉ Gen.hostOps0_3_W ∧ b ∉ Gen.hostOps0_4_W ∧ b ∉ Gen.hostOps2_W := by decide

/-- No region writes an argument array: none is among a region's windowed arrays that it may change, and an argument a
    region stages is an input window's. -/
theorem args_not_out0 : ∀ b ∈ argRefs, ∀ w, Pipeline.arrRef spec0 w ≠ b := by decide
theorem args_not_win1 : ∀ b ∈ ([main_arg3, main_arg5, main_arg6, main_arg7, main_arg8, main_arg9, main_arg10] : List (Ref sig .tc)),
    ∀ w, Pipeline.arrRef spec1 w ≠ b := by decide

theorem W5_arg (c : Dev nD) (b : Ref sig .tc) (hb : b ∈ argRefs) :
    Launch.W5 m c (Proc.devRef .tc b) = m ((c : Thread nD τ).loc b) := by
  obtain ⟨h0, h1, h2, h3, h4, -⟩ := args_unwritten b hb
  exact (Gen.V5_of m c b h4).trans ((Gen.V4_of m c b h3).trans ((Gen.V3_of m c b h2).trans ((Gen.V2_of m c b h1).trans (Gen.V1_of m c b h0))))

/-! ## Region 1's entry -/

theorem V6_v12 (c : Dev nD) : Launch.V6 m c main_v12 = Launch.V5 m c main_v12 :=
  Launch.W6_of_ne m c main_v12 (by decide)

theorem V6_arg2 (c : Dev nD) : Launch.V6 m c main_arg2 = m ((c : Thread nD τ).loc main_arg2) :=
  (Launch.W6_of_ne m c main_arg2 (by decide)).trans (W5_arg m c main_arg2 (by decide))

/-! ## Region 2's entry -/

theorem W7_arg (c : Dev nD) (b : Ref sig .tc)
    (hb : b ∈ ([main_arg3, main_arg5, main_arg6, main_arg7, main_arg8, main_arg9, main_arg10] : List (Ref sig .tc))) :
    Launch.W7 m c (Proc.devRef .tc b) = m ((c : Thread nD τ).loc b) := by
  have hb' : b ∈ argRefs := by revert b; decide
  exact (Launch.W7_of_ne m c b (args_not_win1 b hb)).trans
    ((Launch.W6_of_ne m c b (args_not_out0 b hb')).trans (W5_arg m c b hb'))

theorem V8_v15 (c : Dev nD) :
    Launch.V8 m c main_v15 = extractStridedSlice S128x512 ![0, 0] (m ((c : Thread nD τ).loc main_arg5)) slices_S512x512_S128x512_0_0 := by
  show StableHlo.after hostOps2 (Launch.W7 m c) (Proc.devRef .tc main_v15) = _
  after_results
  rw [W7_arg m c main_arg5 (by decide)]

theorem V8_v16 (c : Dev nD) :
    Launch.V8 m c main_v16 = extractStridedSlice S256x512 ![128, 0] (m ((c : Thread nD τ).loc main_arg5)) slices_S512x512_S256x512_128_0 := by
  show StableHlo.after hostOps2 (Launch.W7 m c) (Proc.devRef .tc main_v16) = _
  after_results
  rw [W7_arg m c main_arg5 (by decide)]

theorem V8_v17 (c : Dev nD) :
    Launch.V8 m c main_v17 = extractStridedSlice S128x512 ![384, 0] (m ((c : Thread nD τ).loc main_arg5)) slices_S512x512_S128x512_384_0 := by
  show StableHlo.after hostOps2 (Launch.W7 m c) (Proc.devRef .tc main_v17) = _
  after_results
  rw [W7_arg m c main_arg5 (by decide)]

theorem V8_arg (c : Dev nD) (b : Ref sig .tc)
    (hb : b ∈ ([main_arg3, main_arg6, main_arg7, main_arg8, main_arg9, main_arg10] : List (Ref sig .tc))) :
    Launch.V8 m c b = m ((c : Thread nD τ).loc b) := by
  have hb' : b ∈ argRefs := by revert b; decide
  have hb'' : b ∈ ([main_arg3, main_arg5, main_arg6, main_arg7, main_arg8, main_arg9, main_arg10] : List (Ref sig .tc)) := by revert b; decide
  exact (StableHlo.after_of_writes_sub hostOps2 _ Gen.hostOps2_writes (args_unwritten b hb').2.2.2.2.2).trans (W7_arg m c b hb'')

theorem V8_v13_0 (c : Dev nD) : Launch.V8 m c main_v13_0 = (Reg0.dat (Launch.V5 m) c).arrAt 2 cfg0.N := by
  show StableHlo.after hostOps2 (Launch.W7 m c) (Proc.devRef .tc main_v13_0) = _
  after_results
  rw [Launch.W7_of_ne m c main_v13_0 (by decide)]
  exact Launch.W6_arr m c 2

theorem V8_v13_1 (c : Dev nD) : Launch.V8 m c main_v13_1 = (Reg0.dat (Launch.V5 m) c).arrAt 3 cfg0.N := by
  show StableHlo.after hostOps2 (Launch.W7 m c) (Proc.devRef .tc main_v13_1) = _
  after_results
  rw [Launch.W7_of_ne m c main_v13_1 (by decide)]
  exact Launch.W6_arr m c 3

theorem V8_v14_0 (c : Dev nD) : Launch.V8 m c main_v14_0 = (Reg1.dat (Launch.V6 m) c).arrAt 2 cfg1.N := by
  show StableHlo.after hostOps2 (Launch.W7 m c) (Proc.devRef .tc main_v14_0) = _
  after_results
  exact Launch.W7_arr m c 2

theorem V8_v14_1 (c : Dev nD) : Launch.V8 m c main_v14_1 = (Reg1.dat (Launch.V6 m) c).arrAt 3 cfg1.N := by
  show StableHlo.after hostOps2 (Launch.W7 m c) (Proc.devRef .tc main_v14_1) = _
  after_results
  exact Launch.W7_arr m c 3

end Cert.KernelIdeal.Glue

end
-- ==== Proof.KI.GlueIdx.lean ====
/-
  The host computations read at an entry, at the ideal values: a padded row is the row itself below 50000 and zero past it; a
  padded id is the id itself below 50000 and the all-ones word past it; the one-row layout of a vector reads the vector; each
  row block of the first weight reads the weight at the block's offset.
-/
import proofs.«411700_j6279242186981_3_alg».proof.Proof.KI.GlueDefs
import Idealize.ShloMosaic.PureOps.Ideal
import Idealize.ShloMosaic.Lib.Pipeline.Value
import Idealize.ShloMosaic.Lib.ValueIdx

noncomputable section

namespace Cert.KernelIdeal.Glue

open Idealize.ShloMosaic Idealize.ShloMosaic.ValueIdx Cert.KernelIdeal Cert.KernelIdeal.Gen

/-- The padded node rows at (r, j). -/
theorem padRows_apply (x : S50000x256.Idx → EReal) (r : Fin 51200) (j : Fin 256) :
    pad S51200x256 ![0, 0] ![1200, 0] ![0, 0] x (sitofp (F := Ideal) .f32 (constantI S_ 32 0#32))
        pads_S50000x256_S51200x256_012000_000 h_S_ (ix2 r j)
      = if h : r.val < 50000 then x (ix2 ⟨r.val, h⟩ j) else 0 := by
  unfold pad
  split
  next hin =>
    have h0 : (r.val - 0) / (0 + 1) < 50000 := (hin (0 : Fin 2)).2.2
    have h : r.val < 50000 := by omega
    rw [dif_pos h]
    refine congrArg x (funext fun a => ?_)
    match a with
    | ⟨0, _⟩ => exact Fin.ext (by show (r.val - 0) / (0 + 1) = r.val; omega)
    | ⟨1, _⟩ => exact Fin.ext (by show (j.val - 0) / (0 + 1) = j.val; omega)
  next hin =>
    have h : ¬ r.val < 50000 := by
      intro h
      apply hin
      intro a
      match a with
      | ⟨0, _⟩ =>
        refine ⟨Nat.zero_le _, ?_, ?_⟩
        · show (r.val - 0) % (0 + 1) = 0
          omega
        · show (r.val - 0) / (0 + 1) < 50000
          omega
      | ⟨1, _⟩ =>
        refine ⟨Nat.zero_le _, ?_, ?_⟩
        · show (j.val - 0) % (0 + 1) = 0
          omega
        · show (j.val - 0) / (0 + 1) < 256
          have := j.isLt; omega
    rw [dif_neg h]
    show (((0#32 : BitVec 32).toInt : ℝ) : EReal) = 0
    simp

/-- The padded node ids at (0, r). -/
theorem padIds_apply (x4 : IVec S50000 32) (r : Fin 51200) :
    padIds x4 (ix2 0 r) = if h : r.val < 50000 then x4 (ix1 ⟨r.val, h⟩) else 4294967295#32 := by
  unfold padIds
  refine (shapeCast_apply _ _ _ (ix1 r) (by
    rw [Shape.rowMajor_val_one, Shape.rowMajor_val_two]
    show r.val = 0 * 51200 + r.val
    omega)).trans ?_
  unfold pad
  split
  next hin =>
    have h0 : (r.val - 0) / (0 + 1) < 50000 := (hin (0 : Fin 1)).2.2
    have h : r.val < 50000 := by omega
    rw [dif_pos h]
    refine congrArg x4 (funext fun a => ?_)
    match a with
    | ⟨0, _⟩ => exact Fin.ext (by show (r.val - 0) / (0 + 1) = r.val; omega)
  next hin =>
    have h : ¬ r.val < 50000 := by
      intro h
      apply hin
      intro a
      match a with
      | ⟨0, _⟩ =>
        refine ⟨Nat.zero_le _, ?_, ?_⟩
        · show (r.val - 0) % (0 + 1) = 0
          omega
        · show (r.val - 0) / (0 + 1) < 50000
          omega
    rw [dif_neg h]
    rfl

/-- The edge ids laid out as one row, at (0, e). -/
theorem rowOf_apply (b : IVec S1600000 32) (e : Fin 1600000) :
    shapeCast S1x1600000 b shapeCasts_S1600000_S1x1600000 (ix2 0 e) = b (ix1 e) := by
  refine shapeCast_apply _ _ _ (ix1 e) (by
    rw [Shape.rowMajor_val_one, Shape.rowMajor_val_two]
    show e.val = 0 * 1600000 + e.val
    omega)

/-- The three row blocks of the first weight at (k, j). -/
theorem w1u_apply (W : S512x512.Idx → EReal) (k : Fin 128) (j : Fin 512) :
    extractStridedSlice S128x512 ![0, 0] W slices_S512x512_S128x512_0_0 (ix2 k j) = W (ix2 ⟨k.val, by omega⟩ j) := by
  refine extractStridedSlice_apply _ _ _ _ _ (fun a => ?_)
  match a with
  | ⟨0, _⟩ => show k.val = 0 + k.val; omega
  | ⟨1, _⟩ => show j.val = 0 + j.val; omega
theorem w1x_apply (W : S512x512.Idx → EReal) (k : Fin 256) (j : Fin 512) :
    extractStridedSlice S256x512 ![128, 0] W slices_S512x512_S256x512_128_0 (ix2 k j) = W (ix2 ⟨128 + k.val, by omega⟩ j) := by
  refine extractStridedSlice_apply _ _ _ _ _ (fun a => ?_)
  match a with
  | ⟨0, _⟩ => show 128 + k.val = 128 + k.val; rfl
  | ⟨1, _⟩ => show j.val = 0 + j.val; omega
theorem w1e_apply (W : S512x512.Idx → EReal) (k : Fin 128) (j : Fin 512) :
    extractStridedSlice S128x512 ![384, 0] W slices_S512x512_S128x512_384_0 (ix2 k j) = W (ix2 ⟨384 + k.val, by omega⟩ j) := by
  refine extractStridedSlice_apply _ _ _ _ _ (fun a => ?_)
  match a with
  | ⟨0, _⟩ => show 384 + k.val = 384 + k.val; rfl
  | ⟨1, _⟩ => show j.val = 0 + j.val; omega

end Cert.KernelIdeal.Glue

end
-- ==== Proof.KI.Arr2.lean ====
import proofs.«411700_j6279242186981_3_alg».proof.Proof.Gen.KernelIdeal.Launch
import proofs.«411700_j6279242186981_3_alg».proof.Proof.Gen.KernelIdeal.Skeleton
import proofs.«411700_j6279242186981_3_alg».proof.Proof.Gen.KernelIdeal.Loops
import proofs.«411700_j6279242186981_3_alg».proof.Proof.Gen.KernelIdeal.Points
import Idealize.ShloMosaic.Lib.Pipeline.FrameBody
import Idealize.ShloMosaic.Lib.Ring
import Idealize.ShloMosaic.Lib.Tactic
import proofs.«411700_j6279242186981_3_alg».proof.Proof.KI.Reg2
import Idealize.ShloMosaic.Lib.Pipeline.Value
set_option maxRecDepth 16384

noncomputable section

namespace Cert.KernelIdeal.Arr2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2's result array

Every window of region 2 is the whole of its array and the grid has one point, which writes its output block back: so the
result array ends at the body's value of the thirteen input ARRAYS as the region finds them. -/

variable (V : (c : Dev nD) → (b : Ref sig .tc) → Buf (Elt F) ((c : Thread nD τ).loc b))

/-! ## Every block index is zero -/

/-- The printed index maps, decided over the grid: every window's block index is zero on every axis. -/
theorem idx_0 : ∀ t : Fin cfg2.N, ∀ a, win2_0.index t a = 0 :=
  (by decide +kernel : ∀ t : Fin grid2.N, ∀ a, win2_0.index t a = 0)
theorem idx_1 : ∀ t : Fin cfg2.N, ∀ a, win2_1.index t a = 0 :=
  (by decide +kernel : ∀ t : Fin grid2.N, ∀ a, win2_1.index t a = 0)
theorem idx_2 : ∀ t : Fin cfg2.N, ∀ a, win2_2.index t a = 0 :=
  (by decide +kernel : ∀ t : Fin grid2.N, ∀ a, win2_2.index t a = 0)
theorem idx_3 : ∀ t : Fin cfg2.N, ∀ a, win2_3.index t a = 0 :=
  (by decide +kernel : ∀ t : Fin grid2.N, ∀ a, win2_3.index t a = 0)
theorem idx_4 : ∀ t : Fin cfg2.N, ∀ a, win2_4.index t a = 0 :=
  (by decide +kernel : ∀ t : Fin grid2.N, ∀ a, win2_4.index t a = 0)
theorem idx_5 : ∀ t : Fin cfg2.N, ∀ a, win2_5.index t a = 0 :=
  (by decide +kernel : ∀ t : Fin grid2.N, ∀ a, win2_5.index t a = 0)
theorem idx_6 : ∀ t : Fin cfg2.N, ∀ a, win2_6.index t a = 0 :=
  (by decide +kernel : ∀ t : Fin grid2.N, ∀ a, win2_6.index t a = 0)
theorem idx_7 : ∀ t : Fin cfg2.N, ∀ a, win2_7.index t a = 0 :=
  (by decide +kernel : ∀ t : Fin grid2.N, ∀ a, win2_7.index t a = 0)
theorem idx_8 : ∀ t : Fin cfg2.N, ∀ a, win2_8.index t a = 0 :=
  (by decide +kernel : ∀ t : Fin grid2.N, ∀ a, win2_8.index t a = 0)
theorem idx_9 : ∀ t : Fin cfg2.N, ∀ a, win2_9.index t a = 0 :=
  (by decide +kernel : ∀ t : Fin grid2.N, ∀ a, win2_9.index t a = 0)
theorem idx_10 : ∀ t : Fin cfg2.N, ∀ a, win2_10.index t a = 0 :=
  (by decide +kernel : ∀ t : Fin grid2.N, ∀ a, win2_10.index t a = 0)
theorem idx_11 : ∀ t : Fin cfg2.N, ∀ a, win2_11.index t a = 0 :=
  (by decide +kernel : ∀ t : Fin grid2.N, ∀ a, win2_11.index t a = 0)
theorem idx_12 : ∀ t : Fin cfg2.N, ∀ a, win2_12.index t a = 0 :=
  (by decide +kernel : ∀ t : Fin grid2.N, ∀ a, win2_12.index t a = 0)
theorem idx_13 : ∀ t : Fin cfg2.N, ∀ a, win2_13.index t a = 0 :=
  (by decide +kernel : ∀ t : Fin grid2.N, ∀ a, win2_13.index t a = 0)

/-! ## An input's block is its array

A block's element sits in the array, on each axis, at the block index times the block's size plus its own coordinate: at
block index zero, at its own coordinates. -/

theorem iblk_0 (c : Dev nD) (t : Fin cfg2.N) : (Reg2.iblk V c 0 t : Vec F S512x128 .f32) = V c main_arg3 := by
  funext y
  show V c main_arg3 (((cfg2.win 0).blk t).view.emb y) = V c main_arg3 y
  refine congrArg _ (funext fun a => Fin.ext ?_)
  exact win2_0.rect_emb_val_of_index_zero t a (idx_0 t a) y
theorem iblk_1 (c : Dev nD) (t : Fin cfg2.N) : (Reg2.iblk V c 1 t : Vec F S2x512x256 .f32) = V c main_v13_0 := by
  funext y
  show V c main_v13_0 (((cfg2.win 1).blk t).view.emb y) = V c main_v13_0 y
  refine congrArg _ (funext fun a => Fin.ext ?_)
  exact win2_1.rect_emb_val_of_index_zero t a (idx_1 t a) y
theorem iblk_2 (c : Dev nD) (t : Fin cfg2.N) : (Reg2.iblk V c 2 t : Vec F S2x512x1 .f32) = V c main_v13_1 := by
  funext y
  show V c main_v13_1 (((cfg2.win 2).blk t).view.emb y) = V c main_v13_1 y
  refine congrArg _ (funext fun a => Fin.ext ?_)
  exact win2_2.rect_emb_val_of_index_zero t a (idx_2 t a) y
theorem iblk_3 (c : Dev nD) (t : Fin cfg2.N) : (Reg2.iblk V c 3 t : Vec F S2x128x512 .f32) = V c main_v14_0 := by
  funext y
  show V c main_v14_0 (((cfg2.win 3).blk t).view.emb y) = V c main_v14_0 y
  refine congrArg _ (funext fun a => Fin.ext ?_)
  exact win2_3.rect_emb_val_of_index_zero t a (idx_3 t a) y
theorem iblk_4 (c : Dev nD) (t : Fin cfg2.N) : (Reg2.iblk V c 4 t : Vec F S2x512x1 .f32) = V c main_v14_1 := by
  funext y
  show V c main_v14_1 (((cfg2.win 4).blk t).view.emb y) = V c main_v14_1 y
  refine congrArg _ (funext fun a => Fin.ext ?_)
  exact win2_4.rect_emb_val_of_index_zero t a (idx_4 t a) y
theorem iblk_5 (c : Dev nD) (t : Fin cfg2.N) : (Reg2.iblk V c 5 t : Vec F S128x512 .f32) = V c main_v15 := by
  funext y
  show V c main_v15 (((cfg2.win 5).blk t).view.emb y) = V c main_v15 y
  refine congrArg _ (funext fun a => Fin.ext ?_)
  exact win2_5.rect_emb_val_of_index_zero t a (idx_5 t a) y
theorem iblk_6 (c : Dev nD) (t : Fin cfg2.N) : (Reg2.iblk V c 6 t : Vec F S256x512 .f32) = V c main_v16 := by
  funext y
  show V c main_v16 (((cfg2.win 6).blk t).view.emb y) = V c main_v16 y
  refine congrArg _ (funext fun a => Fin.ext ?_)
  exact win2_6.rect_emb_val_of_index_zero t a (idx_6 t a) y
theorem iblk_7 (c : Dev nD) (t : Fin cfg2.N) : (Reg2.iblk V c 7 t : Vec F S128x512 .f32) = V c main_v17 := by
  funext y
  show V c main_v17 (((cfg2.win 7).blk t).view.emb y) = V c main_v17 y
  refine congrArg _ (funext fun a => Fin.ext ?_)
  exact win2_7.rect_emb_val_of_index_zero t a (idx_7 t a) y
theorem iblk_8 (c : Dev nD) (t : Fin cfg2.N) : (Reg2.iblk V c 8 t : Vec F S512 .f32) = V c main_arg6 := by
  funext y
  show V c main_arg6 (((cfg2.win 8).blk t).view.emb y) = V c main_arg6 y
  refine congrArg _ (funext fun a => Fin.ext ?_)
  exact win2_8.rect_emb_val_of_index_zero t a (idx_8 t a) y
theorem iblk_9 (c : Dev nD) (t : Fin cfg2.N) : (Reg2.iblk V c 9 t : Vec F S512 .f32) = V c main_arg7 := by
  funext y
  show V c main_arg7 (((cfg2.win 9).blk t).view.emb y) = V c main_arg7 y
  refine congrArg _ (funext fun a => Fin.ext ?_)
  exact win2_9.rect_emb_val_of_index_zero t a (idx_9 t a) y
theorem iblk_10 (c : Dev nD) (t : Fin cfg2.N) : (Reg2.iblk V c 10 t : Vec F S512 .f32) = V c main_arg8 := by
  funext y
  show V c main_arg8 (((cfg2.win 10).blk t).view.emb y) = V c main_arg8 y
  refine congrArg _ (funext fun a => Fin.ext ?_)
  exact win2_10.rect_emb_val_of_index_zero t a (idx_10 t a) y
theorem iblk_11 (c : Dev nD) (t : Fin cfg2.N) : (Reg2.iblk V c 11 t : Vec F S512x128 .f32) = V c main_arg9 := by
  funext y
  show V c main_arg9 (((cfg2.win 11).blk t).view.emb y) = V c main_arg9 y
  refine congrArg _ (funext fun a => Fin.ext ?_)
  exact win2_11.rect_emb_val_of_index_zero t a (idx_11 t a) y
theorem iblk_12 (c : Dev nD) (t : Fin cfg2.N) : (Reg2.iblk V c 12 t : Vec F S128 .f32) = V c main_arg10 := by
  funext y
  show V c main_arg10 (((cfg2.win 12).blk t).view.emb y) = V c main_arg10 y
  refine congrArg _ (funext fun a => Fin.ext ?_)
  exact win2_12.rect_emb_val_of_index_zero t a (idx_12 t a) y

/-! ## What the one point writes back -/

/-- The output's block of a whole-array function is that function: the block is the whole array. -/
theorem blk13_read (t : Fin cfg2.N) (G : Vec F S512x128 .f32) :
    (cfg2.win 13).cut (grid2.coords t) G = ((cfg2.win 13).blk t).view.read (Elt F) G := by
  funext j
  show G j = G (((cfg2.win 13).blk t).view.emb j)
  refine congrArg _ (funext fun a => Fin.ext ?_)
  exact (win2_13.rect_emb_val_of_index_zero t a (idx_13 t a) j).symm

/-- What point `t` writes back is the block of the body's value of the thirteen input arrays. -/
theorem flushed_13 (c : Dev nD) (t : Fin cfg2.N) :
    (Reg2.dat V c).flushed 13 t = ((cfg2.win 13).blk t).view.read (Elt F)
      (Reg2.out (V c main_arg3) (V c main_v13_0) (V c main_v13_1) (V c main_v14_0) (V c main_v14_1) (V c main_v15) (V c main_v16) (V c main_v17) (V c main_arg6) (V c main_arg7) (V c main_arg8) (V c main_arg9) (V c main_arg10)) := by
  show (cfg2.win 13).cut (grid2.coords t) ((Reg2.dat V c).after 13 t) = _
  rw [Reg2.after_13]
  unfold Reg2.outAt
  rw [iblk_0 V c t, iblk_1 V c t, iblk_2 V c t, iblk_3 V c t, iblk_4 V c t, iblk_5 V c t, iblk_6 V c t, iblk_7 V c t, iblk_8 V c t, iblk_9 V c t, iblk_10 V c t, iblk_11 V c t, iblk_12 V c t]
  exact blk13_read t _

/-! ## The one point's block covers the result array -/

/-- An index of the array is in point `t`'s block iff each coordinate is in the block's range on its axis. -/
theorem mem_blk13 (t : Fin cfg2.N) (i : S512x128.Idx) :
    i ∈ ((cfg2.win 13).blk t).view.set ↔ ∀ a : Fin 2, win2_13.index t a * S512x128.size a ≤ (i a).val ∧ (i a).val < win2_13.index t a * S512x128.size a + S512x128.size a := by
  show i ∈ ((View.whole main_v18).slice (win2_13.rect t)).set ↔ _
  rw [View.set_slice_whole, Rect.mem_set_unit]
  exact Iff.rfl

/-- Every index of the result array is in the one point's block, which is written back. -/
theorem cover13 (i : S512x128.Idx) : ∃ t : Fin cfg2.N, (cfg2.win 13).flush t = true ∧ i ∈ ((cfg2.win 13).blk t).view.set := by
  refine ⟨t2_0, flush2_13 _, ?_⟩
  rw [mem_blk13]
  intro a
  rw [idx_13 t2_0 a]
  have hi : (i a).val < S512x128.size a := (i a).isLt
  omega

/-- The result array after the region, as the body's function of the arrays the region is entered with. -/
theorem arr13 (c : Dev nD) :
    (Reg2.dat V c).arrAt 13 cfg2.N
      = Reg2.out (V c main_arg3) (V c main_v13_0) (V c main_v13_1) (V c main_v14_0) (V c main_v14_1) (V c main_v15)
          (V c main_v16) (V c main_v17) (V c main_arg6) (V c main_arg7) (V c main_arg8) (V c main_arg9) (V c main_arg10) :=
  (Reg2.dat V c).arrAt_eq_of_cover 13 _ (fun t _ => flushed_13 V c t) (fun i => cover13 i)

end Cert.KernelIdeal.Arr2

end
-- ==== Proof.Spec.lean ====
/-
  The mathematics of the two programs, free of either: a segment mean of node rows and of edge rows by an integer id,
  the three blocks laid side by side, one affine layer, a batch normalisation over the 512 rows (mean and biased
  variance per column), a rectifier, and a second affine layer — every quantity an extended real, every sum a finite
  sum over a literal range.

  A row r of an array of ids contributes to segment s when its id, read as a signed integer, is s; any other id
  (negative, or 512 and above) contributes to no segment.
-/
import Idealize.ShloMosaic.PureOps.Ideal
import Idealize.ShloMosaic.Lib.ValueIdx

noncomputable section

namespace SegMlp

open Idealize.ShloMosaic Idealize.ShloMosaic.ValueIdx

/-- The three float words both programs spell alike: 1, 512 and the variance's offset. -/
abbrev one : EReal := Ideal.ofBits .f32 0x3F800000#32
abbrev n512 : EReal := Ideal.ofBits .f32 0x44000000#32
abbrev eps : EReal := Ideal.ofBits .f32 0x3727C5AC#32

/-- Row ids: one 32-bit word per row. -/
abbrev Ids (n : Nat) := (⟨1, ![n]⟩ : Shape).Idx → BitVec 32
/-- An n×d array of extended reals. -/
abbrev Mat (n d : Nat) := (⟨2, ![n, d]⟩ : Shape).Idx → EReal
/-- A vector of d extended reals. -/
abbrev Row (d : Nat) := (⟨1, ![d]⟩ : Shape).Idx → EReal

/-- Column j of the sum of the rows whose id is s. -/
def segSum {n d : Nat} (vals : Mat n d) (ids : Ids n) (s : Fin 512) (j : Fin d) : EReal :=
  ∑ r : Fin n, if (ids (ix1 r)).toInt = (s.val : ℤ) then vals (ix2 r j) else 0

/-- How many rows have id s, each counted as the word 1. -/
def segCnt {n : Nat} (ids : Ids n) (s : Fin 512) : EReal :=
  ∑ r : Fin n, if (ids (ix1 r)).toInt = (s.val : ℤ) then one else 0

/-- The segment mean: the sum over the count, the count floored at 1 so that an empty segment gives 0 / 1. -/
def segMean {n d : Nat} (vals : Mat n d) (ids : Ids n) (s : Fin 512) (j : Fin d) : EReal :=
  Ideal.div (segSum vals ids s j) (max (segCnt ids s) one)

/-- Row s of the 512 columns [u | x-mean | e-mean]: 128, 256 and 128 wide. -/
def cat (u : Mat 512 128) (xa : Fin 512 → Fin 256 → EReal) (ea : Fin 512 → Fin 128 → EReal) (s : Fin 512) (k : Fin 512) : EReal :=
  if h : k.val < 128 then u (ix2 s ⟨k.val, h⟩)
  else if h2 : k.val < 384 then xa s ⟨k.val - 128, by omega⟩
  else ea s ⟨k.val - 384, by omega⟩

/-- The first affine layer at (s, j). -/
def lin1 (c : Fin 512 → Fin 512 → EReal) (W1 : Mat 512 512) (b1 : Row 512) (s j : Fin 512) : EReal :=
  (∑ k : Fin 512, c s k * W1 (ix2 k j)) + b1 (ix1 j)

/-- Column j's mean over the 512 rows. -/
def colMean (h : Fin 512 → Fin 512 → EReal) (j : Fin 512) : EReal := Ideal.div (∑ s : Fin 512, h s j) n512

/-- Column j's biased variance over the 512 rows. -/
def colVar (h : Fin 512 → Fin 512 → EReal) (j : Fin 512) : EReal :=
  Ideal.div (∑ s : Fin 512, (h s j - colMean h j) * (h s j - colMean h j)) n512

/-- The normalised, scaled, shifted and rectified entry (s, j). -/
def act (h : Fin 512 → Fin 512 → EReal) (gamma beta : Row 512) (s j : Fin 512) : EReal :=
  max ((h s j - colMean h j) * Ideal.rsqrt (colVar h j + eps) * gamma (ix1 j) + beta (ix1 j)) 0

/-- The second affine layer at (s, o). -/
def lin2 (a : Fin 512 → Fin 512 → EReal) (W2 : Mat 512 128) (b2 : Row 128) (s : Fin 512) (o : Fin 128) : EReal :=
  (∑ j : Fin 512, a s j * W2 (ix2 j o)) + b2 (ix1 o)

/-- The whole function at (s, o): node ids `batch`, edge ids `bcol` (the node id of each edge's target). -/
def result (x : Mat 50000 256) (bcol : Ids 1600000) (e : Mat 1600000 128) (u : Mat 512 128) (batch : Ids 50000)
    (W1 : Mat 512 512) (b1 gamma beta : Row 512) (W2 : Mat 512 128) (b2 : Row 128) (s : Fin 512) (o : Fin 128) : EReal :=
  lin2 (act (lin1 (cat u (segMean x batch) (segMean e bcol)) W1 b1) gamma beta) W2 b2 s o

/-- The same as an array of shape [512, 128]. -/
def G (x : Mat 50000 256) (bcol : Ids 1600000) (e : Mat 1600000 128) (u : Mat 512 128) (batch : Ids 50000)
    (W1 : Mat 512 512) (b1 gamma beta : Row 512) (W2 : Mat 512 128) (b2 : Row 128) : Mat 512 128 :=
  fun i => result x bcol e u batch W1 b1 gamma beta W2 b2 ⟨(i 0).val, idx2_lt0 i⟩ ⟨(i 1).val, idx2_lt1 i⟩

theorem G_ix2 (x : Mat 50000 256) (bcol : Ids 1600000) (e : Mat 1600000 128) (u : Mat 512 128) (batch : Ids 50000)
    (W1 : Mat 512 512) (b1 gamma beta : Row 512) (W2 : Mat 512 128) (b2 : Row 128) (s : Fin 512) (o : Fin 128) :
    G x bcol e u batch W1 b1 gamma beta W2 b2 (ix2 s o) = result x bcol e u batch W1 b1 gamma beta W2 b2 s o := rfl

end SegMlp

end
-- ==== Proof.SpecHalves.lean ====
/-
  Per-core halves: an array of 2n rows is walked by two cores, core q taking the rows [n q, n q + n); each core's sum and
  count of the rows whose id WORD equals the segment's number, as sums over all rows that keep a core's own.
-/
import proofs.«411700_j6279242186981_3_alg».proof.Proof.Spec

noncomputable section

namespace SegMlp

open Idealize.ShloMosaic Idealize.ShloMosaic.ValueIdx

/-- Row ids laid out as one row: [1, n]. -/
abbrev IdRow (n : Nat) := (⟨2, ![1, n]⟩ : Shape).Idx → BitVec 32

/-- Core q's sum of column j over its rows whose id word is s's. -/
def halfSum {m d : Nat} (n : Nat) (vals : Mat m d) (ids : IdRow m) (q : Fin 2) (s : Fin 512) (j : Fin d) : EReal :=
  ∑ r : Fin m, if r.val / n = q.val ∧ ids (ix2 0 r) = BitVec.ofNat 32 s.val then vals (ix2 r j) else 0

/-- Core q's count of its rows whose id word is s's, each counted as the word 1. -/
def halfCnt {m : Nat} (n : Nat) (ids : IdRow m) (q : Fin 2) (s : Fin 512) : EReal :=
  ∑ r : Fin m, if r.val / n = q.val ∧ ids (ix2 0 r) = BitVec.ofNat 32 s.val then one else 0

end SegMlp

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.KI.Val0.lean ====
/-
  Region 0's two result arrays at an entry: core q's slab of the [2, 512, 256] sums is its 25600 rows' one-hot sum, its slab
  of the [2, 512, 1] counts their hit count — the five chunks of a tile, the four tiles of a core and the write-back at a
  core's last tile put together.

  One chunk adds to the sum block's entry (0, s, j) the product of the 512 × 1280 one-hot matrix of the chunk's ids (entry
  (s, r) is 1 where id r is the word s, else 0) with the chunk's 1280 × 256 rows, and to the count block's entry (0, s, 0)
  that matrix's row sum. On the extended reals 0 · v = 0 and 1 · v = v for every v, so a row enters the sum exactly when its
  id is s's. Rows are numbered by naturals throughout: a tile's 6400 rows are the arrays' rows 6400 t + r, a core's four
  tiles its rows 25600 q + r, and the specification's filtered sum over all 51200 rows is the sum over that half.
-/
import proofs.«411700_j6279242186981_3_alg».proof.Proof.KI.Reg0
import proofs.«411700_j6279242186981_3_alg».proof.Proof.SpecHalves
import proofs.«411700_j6279242186981_3_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val0

open Idealize.ShloMosaic Idealize.ShloMosaic.ValueIdx Idealize.ShloMosaic.TcCoe Idealize.SL.Sem Cert.KernelIdeal Cert.KernelIdeal.Gen

/-! ## Words: the one-hot entry -/

/-- The one-hot entry of segment s at an id word: 1 where the word is s's, else 0. -/
def hot (s : Fin 512) (w : BitVec 32) : EReal := if w = BitVec.ofNat 32 s.val then 1 else 0

/-- The word 1.0 is the extended real 1. -/
theorem one_eq : SegMlp.one = (1 : EReal) := by
  simp [SegMlp.one, Ideal.ofBits, Ideal.ieee, -EReal.coe_mul]; norm_num

/-- A widened one-bit word read as a signed integer is 0 or 1. -/
theorem bit_toInt (b : Bool) : (((((BitVec.ofBool b).setWidth 32).toInt : ℤ) : ℝ) : EReal) = if b then 1 else 0 := by
  cases b
  · have h : ((BitVec.ofBool false).setWidth 32).toInt = 0 := by decide
    rw [h]; simp
  · have h : ((BitVec.ofBool true).setWidth 32).toInt = 1 := by decide
    rw [h]; simp

/-- The comparison's bit at (s, r): the iota word s against the id word r. -/
theorem pay3_apply (seg : Vec Ideal S1x1280 .i32) (s : Fin 512) (r : Fin 1280) :
    k0_pay3 (F := Ideal) seg (ix2 s r) = IntOp.cmpi .eq (BitVec.ofNat 32 s.val) (seg (ix2 0 r)) := by
  unfold k0_pay3
  show IntOp.cmpi .eq (iota .tc S512x1280 32 [0] iota_S512x1280_d0_w32 (ix2 s r)) (broadcastTo S512x1280 _ broadcasts_S1x1280_S512x1280 (ix2 s r)) = _
  rw [iota_single_apply, broadcastTo_apply _ _ (ix2 s r) (ix2 0 r) (fun a => by
    match a with
    | ⟨0, _⟩ => rfl
    | ⟨1, _⟩ => rfl), shapeCast_self]

/-- The widened, converted comparison at (s, r) is the one-hot entry. -/
theorem onehot_apply (seg : Vec Ideal S1x1280 .i32) (s : Fin 512) (r : Fin 1280) :
    (sitofp .f32 (extui 32 (k0_pay3 (F := Ideal) seg) natLt_1_32) : FVec Ideal S512x1280 .f32) (ix2 s r) = hot s (seg (ix2 0 r)) := by
  rw [sitofp_apply, extui_apply, pay3_apply]
  show (((((BitVec.ofBool (BitVec.ofNat 32 s.val == seg (ix2 0 r))).setWidth 32).toInt : ℤ) : ℝ) : EReal) = _
  rw [bit_toInt]
  unfold hot
  by_cases h : seg (ix2 0 r) = BitVec.ofNat 32 s.val
  · rw [if_pos h, h]; simp
  · rw [if_neg h, if_neg (fun e => h (eq_of_beq e).symm)]

/-! ## The payloads at an entry -/

/-- The printed contraction record is the plain one. -/
theorem dot_plain : dot_S512x1280_S1280x256_S512x256_1_0_0_1_n_n = DotDims.plain 512 1280 256 := rfl

/-- One chunk's sum block at (0, s, j): what it held plus the one-hot product's entry. -/
theorem pay4_apply (x : Vec Ideal S1280x256 .f32) (seg : Vec Ideal S1x1280 .i32) (a : Vec Ideal S1x512x256 .f32)
    (s : Fin 512) (j : Fin 256) :
    k0_pay4 (F := Ideal) x seg a (ix3 0 s j) = a (ix3 0 s j) + ∑ r : Fin 1280, hot s (seg (ix2 0 r)) * x (ix2 r j) := by
  unfold k0_pay4
  refine (shapeCast_apply _ _ (ix3 0 s j) (ix2 s j) ?_).trans ?_
  · rw [Shape.rowMajor_val_two, Shape.rowMajor_val_three]
    show s.val * 256 + j.val = (0 * 512 + s.val) * 256 + j.val
    omega
  rw [addf_apply]
  refine congrArg₂ (· + ·) ?_ ?_
  · refine shapeCast_apply _ _ (ix2 s j) (ix3 0 s j) ?_
    rw [Shape.rowMajor_val_two, Shape.rowMajor_val_three]
    show (0 * 512 + s.val) * 256 + j.val = s.val * 256 + j.val
    omega
  · refine (PlainMatmul.matmul_zero_apply_of_eq _ dot_plain none _ _ s j).trans ?_
    refine Finset.sum_congr rfl fun r _ => ?_
    rw [truncf_apply, truncf_apply, onehot_apply, shapeCast_self]

/-- One chunk's count block at (0, s, 0): what it held plus the number of the chunk's hits. -/
theorem pay5_apply (seg : Vec Ideal S1x1280 .i32) (a : Vec Ideal S1x512x1 .f32) (s : Fin 512) :
    k0_pay5 (F := Ideal) seg a (ix3 0 s 0) = a (ix3 0 s 0) + ∑ r : Fin 1280, hot s (seg (ix2 0 r)) := by
  unfold k0_pay5
  refine (shapeCast_apply _ _ (ix3 0 s 0) (ix2 s 0) ?_).trans ?_
  · rw [Shape.rowMajor_val_two, Shape.rowMajor_val_three]
    show s.val * 1 + 0 = (0 * 512 + s.val) * 1 + 0
    omega
  rw [addf_apply]
  refine congrArg₂ (· + ·) ?_ ?_
  · refine shapeCast_apply _ _ (ix2 s 0) (ix3 0 s 0) ?_
    rw [Shape.rowMajor_val_two, Shape.rowMajor_val_three]
    show (0 * 512 + s.val) * 1 + 0 = s.val * 1 + 0
    omega
  · refine (shapeCast_apply _ _ (ix2 s 0) (ix1 s) ?_).trans ?_
    · rw [Shape.rowMajor_val_two, Shape.rowMajor_val_one]
      show s.val = s.val * 1 + 0
      omega
    refine (Ideal.multiReduction_add_single _ _ reduces_S512x1280_S512 _ _ (ix1 s)).trans ?_
    refine Finset.sum_congr rfl fun r _ => ?_
    exact onehot_apply seg s r

/-! ## A chunk, the chunks of a tile -/

/-- Row n of a tile's block as a term of the sum: its one-hot entry times its entry in column j; 0 past the block. -/
def term (x : Vec Ideal S6400x256 .f32) (seg : Vec Ideal S1x6400 .i32) (s : Fin 512) (j : Fin 256) (n : ℕ) : EReal :=
  if h : n < 6400 then hot s (seg (ix2 0 ⟨n, h⟩)) * x (ix2 ⟨n, h⟩ j) else 0

/-- Row n of a tile's block as a term of the count: its one-hot entry; 0 past the block. -/
def cterm (seg : Vec Ideal S1x6400 .i32) (s : Fin 512) (n : ℕ) : EReal :=
  if h : n < 6400 then hot s (seg (ix2 0 ⟨n, h⟩)) else 0

theorem trips_eq : k0_t1_loop.trips = 5 := by decide

/-- The ids chunk k reads, entry r: the tile's id 1280 k + r. -/
theorem ld_seg (seg : Vec Ideal S1x6400 .i32) (k : Fin k0_t1_loop.trips) (r : Fin 1280) (h : 1280 * k.val + r.val < 6400) :
    (View.ld seg (Reg0.rs k) : Vec Ideal S1x1280 .i32) (ix2 0 r) = seg (ix2 0 ⟨1280 * k.val + r.val, h⟩) := by
  show seg ((Reg0.rs k).idx (ix2 0 r)) = _
  refine congrArg seg (funext fun a => Fin.ext ?_)
  match a with
  | ⟨0, _⟩ =>
    show k0_off2 k 0 + 1 * 0 = 0
    rw [k0_off2_eq]; rfl
  | ⟨1, _⟩ =>
    show k0_off2 k 1 + 1 * r.val = 1280 * k.val + r.val
    rw [k0_off2_eq]; simp

/-- The rows chunk k reads, entry (r, j): the tile's row 1280 k + r. -/
theorem ld_x (x : Vec Ideal S6400x256 .f32) (k : Fin k0_t1_loop.trips) (r : Fin 1280) (j : Fin 256) (h : 1280 * k.val + r.val < 6400) :
    (View.ld x (Reg0.rx k) : Vec Ideal S1280x256 .f32) (ix2 r j) = x (ix2 ⟨1280 * k.val + r.val, h⟩ j) := by
  show x ((Reg0.rx k).idx (ix2 r j)) = _
  refine congrArg x (funext fun a => Fin.ext ?_)
  match a with
  | ⟨0, _⟩ =>
    show k0_off1 k 0 + 1 * r.val = 1280 * k.val + r.val
    rw [k0_off1_eq]; simp
  | ⟨1, _⟩ =>
    show k0_off1 k 1 + 1 * j.val = j.val
    rw [k0_off1_eq]; simp

/-- One chunk adds its 1280 rows' terms to the sum block's entry. -/
theorem chunk_sum (x : Vec Ideal S6400x256 .f32) (seg : Vec Ideal S1x6400 .i32) (k : Fin k0_t1_loop.trips)
    (a : Vec Ideal S1x512x256 .f32 × Vec Ideal S1x512x1 .f32) (s : Fin 512) (j : Fin 256) :
    (Reg0.chunk (F := Ideal) x seg k a).1 (ix3 0 s j)
      = a.1 (ix3 0 s j) + ∑ r ∈ Finset.range 1280, term x seg s j (1280 * k.val + r) := by
  have hk : k.val < 5 := trips_eq ▸ k.isLt
  unfold Reg0.chunk
  refine (pay4_apply (View.ld x (Reg0.rx k)) (View.ld seg (Reg0.rs k)) a.1 s j).trans ?_
  refine congrArg (a.1 (ix3 0 s j) + ·) ?_
  rw [Finset.sum_range]
  refine Finset.sum_congr rfl fun r _ => ?_
  have h : 1280 * k.val + r.val < 6400 := by have := r.isLt; omega
  unfold term
  rw [dif_pos h, ld_seg seg k r h, ld_x x k r j h]

/-- One chunk adds its 1280 rows' one-hot entries to the count block's entry. -/
theorem chunk_cnt (x : Vec Ideal S6400x256 .f32) (seg : Vec Ideal S1x6400 .i32) (k : Fin k0_t1_loop.trips)
    (a : Vec Ideal S1x512x256 .f32 × Vec Ideal S1x512x1 .f32) (s : Fin 512) :
    (Reg0.chunk (F := Ideal) x seg k a).2 (ix3 0 s 0)
      = a.2 (ix3 0 s 0) + ∑ r ∈ Finset.range 1280, cterm seg s (1280 * k.val + r) := by
  have hk : k.val < 5 := trips_eq ▸ k.isLt
  unfold Reg0.chunk
  refine (pay5_apply (View.ld seg (Reg0.rs k)) a.2 s).trans ?_
  refine congrArg (a.2 (ix3 0 s 0) + ·) ?_
  rw [Finset.sum_range]
  refine Finset.sum_congr rfl fun r _ => ?_
  have h : 1280 * k.val + r.val < 6400 := by have := r.isLt; omega
  unfold cterm
  rw [dif_pos h, ld_seg seg k r h]

theorem accum_succ (x : Vec Ideal S6400x256 .f32) (seg : Vec Ideal S1x6400 .i32)
    (init : Vec Ideal S1x512x256 .f32 × Vec Ideal S1x512x1 .f32) (n : ℕ) (h : n < k0_t1_loop.trips) :
    Reg0.accum (F := Ideal) x seg init (n + 1) = Reg0.chunk x seg ⟨n, h⟩ (Reg0.accum x seg init n) := dif_pos h

/-- The first n chunks add the tile's first 1280 n rows' terms. -/
theorem accum_sum (x : Vec Ideal S6400x256 .f32) (seg : Vec Ideal S1x6400 .i32)
    (init : Vec Ideal S1x512x256 .f32 × Vec Ideal S1x512x1 .f32) (s : Fin 512) (j : Fin 256) :
    ∀ n : ℕ, n ≤ 5 → (Reg0.accum (F := Ideal) x seg init n).1 (ix3 0 s j)
      = init.1 (ix3 0 s j) + ∑ r ∈ Finset.range (1280 * n), term x seg s j r
  | 0, _ => by
    show init.1 (ix3 0 s j) = _
    rw [Nat.mul_zero, Finset.sum_range_zero, add_zero]
  | n + 1, h => by
    have hk : n < k0_t1_loop.trips := by rw [trips_eq]; omega
    rw [accum_succ x seg init n hk, chunk_sum, accum_sum x seg init s j n (by omega), add_assoc, Nat.mul_succ,
      Finset.sum_range_add]

/-- The first n chunks add the tile's first 1280 n rows' one-hot entries. -/
theorem accum_cnt (x : Vec Ideal S6400x256 .f32) (seg : Vec Ideal S1x6400 .i32)
    (init : Vec Ideal S1x512x256 .f32 × Vec Ideal S1x512x1 .f32) (s : Fin 512) :
    ∀ n : ℕ, n ≤ 5 → (Reg0.accum (F := Ideal) x seg init n).2 (ix3 0 s 0)
      = init.2 (ix3 0 s 0) + ∑ r ∈ Finset.range (1280 * n), cterm seg s r
  | 0, _ => by
    show init.2 (ix3 0 s 0) = _
    rw [Nat.mul_zero, Finset.sum_range_zero, add_zero]
  | n + 1, h => by
    have hk : n < k0_t1_loop.trips := by rw [trips_eq]; omega
    rw [accum_succ x seg init n hk, chunk_cnt, accum_cnt x seg init s n (by omega), add_assoc, Nat.mul_succ,
      Finset.sum_range_add]

/-- A whole tile adds its 6400 rows' terms. -/
theorem tile_sum (x : Vec Ideal S6400x256 .f32) (seg : Vec Ideal S1x6400 .i32)
    (init : Vec Ideal S1x512x256 .f32 × Vec Ideal S1x512x1 .f32) (s : Fin 512) (j : Fin 256) :
    (Reg0.tile (F := Ideal) x seg init).1 (ix3 0 s j) = init.1 (ix3 0 s j) + ∑ r ∈ Finset.range 6400, term x seg s j r := by
  unfold Reg0.tile
  rw [trips_eq]
  exact accum_sum x seg init s j 5 le_rfl

/-- A whole tile adds its 6400 rows' one-hot entries. -/
theorem tile_cnt (x : Vec Ideal S6400x256 .f32) (seg : Vec Ideal S1x6400 .i32)
    (init : Vec Ideal S1x512x256 .f32 × Vec Ideal S1x512x1 .f32) (s : Fin 512) :
    (Reg0.tile (F := Ideal) x seg init).2 (ix3 0 s 0) = init.2 (ix3 0 s 0) + ∑ r ∈ Finset.range 6400, cterm seg s r := by
  unfold Reg0.tile
  rw [trips_eq]
  exact accum_cnt x seg init s 5 le_rfl

/-! ## A tile as rows of the arrays -/

/-- Row n of the node array as a term of the sum: its one-hot entry times its entry in column j; 0 past the array. -/
def gterm (X : S51200x256.Idx → EReal) (ID : S1x51200.Idx → BitVec 32) (s : Fin 512) (j : Fin 256) (n : ℕ) : EReal :=
  if h : n < 51200 then hot s (ID (ix2 0 ⟨n, h⟩)) * X (ix2 ⟨n, h⟩ j) else 0

/-- Row n of the ids as a term of the count: its one-hot entry; 0 past the array. -/
def gcterm (ID : S1x51200.Idx → BitVec 32) (s : Fin 512) (n : ℕ) : EReal :=
  if h : n < 51200 then hot s (ID (ix2 0 ⟨n, h⟩)) else 0

/-- If a tile's blocks are rows 6400 t + r of the arrays, its terms are the arrays'. -/
theorem term_eq (x : Vec Ideal S6400x256 .f32) (seg : Vec Ideal S1x6400 .i32) (X : S51200x256.Idx → EReal)
    (ID : S1x51200.Idx → BitVec 32) (t : ℕ) (ht : t < 8)
    (hx : ∀ (r : Fin 6400) (j : Fin 256) (h : 6400 * t + r.val < 51200), x (ix2 r j) = X (ix2 ⟨6400 * t + r.val, h⟩ j))
    (hs : ∀ (r : Fin 6400) (h : 6400 * t + r.val < 51200), seg (ix2 0 r) = ID (ix2 0 ⟨6400 * t + r.val, h⟩))
    (s : Fin 512) (j : Fin 256) (n : ℕ) (hn : n < 6400) : term x seg s j n = gterm X ID s j (6400 * t + n) := by
  have h : 6400 * t + n < 51200 := by omega
  unfold term gterm
  rw [dif_pos hn, dif_pos h, hx ⟨n, hn⟩ j h, hs ⟨n, hn⟩ h]

theorem cterm_eq (seg : Vec Ideal S1x6400 .i32) (ID : S1x51200.Idx → BitVec 32) (t : ℕ) (ht : t < 8)
    (hs : ∀ (r : Fin 6400) (h : 6400 * t + r.val < 51200), seg (ix2 0 r) = ID (ix2 0 ⟨6400 * t + r.val, h⟩))
    (s : Fin 512) (n : ℕ) (hn : n < 6400) : cterm seg s n = gcterm ID s (6400 * t + n) := by
  have h : 6400 * t + n < 51200 := by omega
  unfold cterm gcterm
  rw [dif_pos hn, dif_pos h, hs ⟨n, hn⟩ h]

variable (V : (c : Dev nD) → (b : Ref sig .tc) → Buf (Elt Ideal) ((c : Thread nD τ).loc b))

/-- The padded node array and the ids row as the region finds them. -/
abbrev xs (c : Dev nD) : S51200x256.Idx → EReal := V c main_v9
abbrev ids (c : Dev nD) : S1x51200.Idx → BitVec 32 := V c main_v11

/-- Window 0's block at point t is row block t; window 1's is column block t. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)

/-- The rows block of point t at (r, j) is the node array at (6400 t + r, j). -/
theorem iblk0_apply (c : Dev nD) (t : Fin cfg0.N) (r : Fin 6400) (j : Fin 256) (h : 6400 * t.val + r.val < 51200) :
    (Reg0.iblk V c 0 t : Vec Ideal S6400x256 .f32) (ix2 r j) = xs V c (ix2 ⟨6400 * t.val + r.val, h⟩ j) := by
  unfold Reg0.iblk
  rw [View.read_apply]
  show V c main_v9 _ = V c main_v9 _
  congr 1
  funext a
  apply Fin.ext
  match a with
  | ⟨0, _⟩ => show win0_0.index t 0 * 6400 + 1 * r.val = 6400 * t.val + r.val; rw [(idx0 t).1]; omega
  | ⟨1, _⟩ => show win0_0.index t 1 * 256 + 1 * j.val = j.val; rw [(idx0 t).2]; omega

/-- The ids block of point t at (0, r) is the ids row at (0, 6400 t + r). -/
theorem iblk1_apply (c : Dev nD) (t : Fin cfg0.N) (r : Fin 6400) (h : 6400 * t.val + r.val < 51200) :
    (Reg0.iblk V c 1 t : Vec Ideal S1x6400 .i32) (ix2 0 r) = ids V c (ix2 0 ⟨6400 * t.val + r.val, h⟩) := by
  unfold Reg0.iblk
  rw [View.read_apply]
  show V c main_v11 _ = V c main_v11 _
  congr 1
  funext a
  apply Fin.ext
  match a with
  | ⟨0, _⟩ => show win0_1.index t 0 * 1 + 1 * 0 = 0; rw [(idx1 t).1]
  | ⟨1, _⟩ => show win0_1.index t 1 * 6400 + 1 * r.val = 6400 * t.val + r.val; rw [(idx1 t).2]; omega

/-- The tile of point t adds the arrays' rows [6400 t, 6400 t + 6400). -/
theorem tile_at_sum (c : Dev nD) (t : Fin cfg0.N) (init : Vec Ideal S1x512x256 .f32 × Vec Ideal S1x512x1 .f32)
    (s : Fin 512) (j : Fin 256) :
    (Reg0.tile (F := Ideal) (Reg0.iblk V c 0 t) (Reg0.iblk V c 1 t) init).1 (ix3 0 s j)
      = init.1 (ix3 0 s j) + ∑ r ∈ Finset.range 6400, gterm (xs V c) (ids V c) s j (6400 * t.val + r) := by
  have hN : cfg0.N = 8 := N_0
  refine (tile_sum (Reg0.iblk V c 0 t) (Reg0.iblk V c 1 t) init s j).trans ?_
  refine congrArg (init.1 (ix3 0 s j) + ·) ?_
  refine Finset.sum_congr rfl fun r hr => ?_
  exact term_eq (Reg0.iblk V c 0 t) (Reg0.iblk V c 1 t) (xs V c) (ids V c) t.val (by have := t.isLt; omega)
    (fun r j h => iblk0_apply V c t r j h) (fun r h => iblk1_apply V c t r h) s j r (Finset.mem_range.mp hr)

theorem tile_at_cnt (c : Dev nD) (t : Fin cfg0.N) (init : Vec Ideal S1x512x256 .f32 × Vec Ideal S1x512x1 .f32)
    (s : Fin 512) :
    (Reg0.tile (F := Ideal) (Reg0.iblk V c 0 t) (Reg0.iblk V c 1 t) init).2 (ix3 0 s 0)
      = init.2 (ix3 0 s 0) + ∑ r ∈ Finset.range 6400, gcterm (ids V c) s (6400 * t.val + r) := by
  have hN : cfg0.N = 8 := N_0
  refine (tile_cnt (Reg0.iblk V c 0 t) (Reg0.iblk V c 1 t) init s).trans ?_
  refine congrArg (init.2 (ix3 0 s 0) + ·) ?_
  refine Finset.sum_congr rfl fun r hr => ?_
  exact cterm_eq (Reg0.iblk V c 1 t) (ids V c) t.val (by have := t.isLt; omega)
    (fun r h => iblk1_apply V c t r h) s r (Finset.mem_range.mp hr)

/-- The two blocks a core's first tile starts from are zero. -/
theorem zero_sum (s : Fin 512) (j : Fin 256) : (Reg0.zero (F := Ideal)).1 (ix3 0 s j) = 0 := by
  show k0_pay1 (F := Ideal) (ix3 0 s j) = 0
  unfold k0_pay1
  refine (shapeCast_apply _ _ (ix3 0 s j) (ix2 s j) ?_).trans ?_
  · rw [Shape.rowMajor_val_two, Shape.rowMajor_val_three]
    show s.val * 256 + j.val = (0 * 512 + s.val) * 256 + j.val
    omega
  exact Ideal.ofBits_zero_f32

theorem zero_cnt (s : Fin 512) : (Reg0.zero (F := Ideal)).2 (ix3 0 s 0) = 0 := by
  show k0_pay2 (F := Ideal) (ix3 0 s 0) = 0
  unfold k0_pay2
  refine (shapeCast_apply _ _ (ix3 0 s 0) (ix2 s 0) ?_).trans ?_
  · rw [Shape.rowMajor_val_two, Shape.rowMajor_val_three]
    show s.val * 1 + 0 = (0 * 512 + s.val) * 1 + 0
    omega
  exact Ideal.ofBits_zero_f32

/-! ## The tiles of a core -/

/-- After point n the sum block's entry is the sum of the terms of the core's rows walked so far:
    rows [25600 (n / 4), 25600 (n / 4) + 6400 (n % 4 + 1)). -/
theorem outsAt_sum (c : Dev nD) (s : Fin 512) (j : Fin 256) : ∀ (n : ℕ) (hn : n < cfg0.N),
    (Reg0.outsAt (F := Ideal) V c n hn).1 (ix3 0 s j)
      = ∑ r ∈ Finset.range (6400 * (n % 4 + 1)), gterm (xs V c) (ids V c) s j (25600 * (n / 4) + r) := by
  have first : ∀ (t : Fin cfg0.N), t.val % 4 = 0 → (Reg0.outsAt (F := Ideal) V c t.val t.isLt).1 (ix3 0 s j)
      = ∑ r ∈ Finset.range (6400 * (t.val % 4 + 1)), gterm (xs V c) (ids V c) s j (25600 * (t.val / 4) + r) := by
    intro t h0
    refine (congrArg (fun p => p.1 (ix3 0 s j)) (Reg0.outsAt_first V c t h0)).trans ?_
    refine (tile_at_sum V c t Reg0.zero s j).trans ?_
    rw [zero_sum, zero_add, h0, Nat.zero_add, Nat.mul_one]
    refine Finset.sum_congr rfl fun r _ => ?_
    congr 1; omega
  intro n
  induction n with
  | zero => intro hn; exact first ⟨0, hn⟩ rfl
  | succ n ih =>
    intro hn
    by_cases h0 : (n + 1) % 4 = 0
    · exact first ⟨n + 1, hn⟩ h0
    · refine (congrArg (fun p => p.1 (ix3 0 s j)) (Reg0.outsAt_later V c ⟨n + 1, hn⟩ h0)).trans ?_
      refine (tile_at_sum V c ⟨n + 1, hn⟩ (Reg0.outsAt V c n (Nat.lt_of_succ_lt hn)) s j).trans ?_
      have e1 : (n + 1) / 4 = n / 4 := by omega
      have e2 : (n + 1) % 4 = n % 4 + 1 := by omega
      rw [ih (Nat.lt_of_succ_lt hn), e1, e2, show 6400 * (n % 4 + 1 + 1) = 6400 * (n % 4 + 1) + 6400 by omega,
        Finset.sum_range_add]
      refine congrArg (_ + ·) (Finset.sum_congr rfl fun r _ => ?_)
      congr 1
      show 6400 * (n + 1) + r = _
      omega

/-- After point n the count block's entry is the number of hits among the core's rows walked so far. -/
theorem outsAt_cnt (c : Dev nD) (s : Fin 512) : ∀ (n : ℕ) (hn : n < cfg0.N),
    (Reg0.outsAt (F := Ideal) V c n hn).2 (ix3 0 s 0)
      = ∑ r ∈ Finset.range (6400 * (n % 4 + 1)), gcterm (ids V c) s (25600 * (n / 4) + r) := by
  have first : ∀ (t : Fin cfg0.N), t.val % 4 = 0 → (Reg0.outsAt (F := Ideal) V c t.val t.isLt).2 (ix3 0 s 0)
      = ∑ r ∈ Finset.range (6400 * (t.val % 4 + 1)), gcterm (ids V c) s (25600 * (t.val / 4) + r) := by
    intro t h0
    refine (congrArg (fun p => p.2 (ix3 0 s 0)) (Reg0.outsAt_first V c t h0)).trans ?_
    refine (tile_at_cnt V c t Reg0.zero s).trans ?_
    rw [zero_cnt, zero_add, h0, Nat.zero_add, Nat.mul_one]
    refine Finset.sum_congr rfl fun r _ => ?_
    congr 1; omega
  intro n
  induction n with
  | zero => intro hn; exact first ⟨0, hn⟩ rfl
  | succ n ih =>
    intro hn
    by_cases h0 : (n + 1) % 4 = 0
    · exact first ⟨n + 1, hn⟩ h0
    · refine (congrArg (fun p => p.2 (ix3 0 s 0)) (Reg0.outsAt_later V c ⟨n + 1, hn⟩ h0)).trans ?_
      refine (tile_at_cnt V c ⟨n + 1, hn⟩ (Reg0.outsAt V c n (Nat.lt_of_succ_lt hn)) s).trans ?_
      have e1 : (n + 1) / 4 = n / 4 := by omega
      have e2 : (n + 1) % 4 = n % 4 + 1 := by omega
      rw [ih (Nat.lt_of_succ_lt hn), e1, e2, show 6400 * (n % 4 + 1 + 1) = 6400 * (n % 4 + 1) + 6400 by omega,
        Finset.sum_range_add]
      refine congrArg (_ + ·) (Finset.sum_congr rfl fun r _ => ?_)
      congr 1
      show 6400 * (n + 1) + r = _
      omega

/-! ## The halves of the specification as sums over a core's rows -/

/-- A sum over 2 N naturals that keeps those of half q is the sum over that half. -/
theorem half_range (N : ℕ) (hN : 0 < N) (g : ℕ → EReal) (q : ℕ) (hq : q < 2) :
    ∑ n ∈ Finset.range (N + N), (if n / N = q then g n else 0) = ∑ r ∈ Finset.range N, g (N * q + r) := by
  have h1 : ∀ n ∈ Finset.range N, n / N = 0 := fun n hn => Nat.div_eq_of_lt (Finset.mem_range.mp hn)
  have h2 : ∀ n ∈ Finset.range N, (N + n) / N = 1 := fun n hn => by
    rw [Nat.add_div_left _ hN, h1 n hn]
  rw [Finset.sum_range_add]
  interval_cases q
  · have a1 : ∑ x ∈ Finset.range N, (if x / N = 0 then g x else 0) = ∑ x ∈ Finset.range N, g x :=
      Finset.sum_congr rfl fun n hn => if_pos (h1 n hn)
    have a2 : ∑ x ∈ Finset.range N, (if (N + x) / N = 0 then g (N + x) else 0) = 0 :=
      Finset.sum_eq_zero fun n hn => if_neg (by rw [h2 n hn]; decide)
    rw [a1, a2, add_zero]
    refine Finset.sum_congr rfl fun n _ => ?_
    rw [Nat.mul_zero, Nat.zero_add]
  · have a1 : ∑ x ∈ Finset.range N, (if x / N = 1 then g x else 0) = 0 :=
      Finset.sum_eq_zero fun n hn => if_neg (by rw [h1 n hn]; decide)
    have a2 : ∑ x ∈ Finset.range N, (if (N + x) / N = 1 then g (N + x) else 0) = ∑ x ∈ Finset.range N, g (N + x) :=
      Finset.sum_congr rfl fun n hn => if_pos (h2 n hn)
    rw [a1, a2, zero_add]
    refine Finset.sum_congr rfl fun n _ => ?_
    rw [Nat.mul_one]

/-- Core q's half sum is the sum of the terms of its 25600 rows. -/
theorem halfSum_eq (X : S51200x256.Idx → EReal) (ID : S1x51200.Idx → BitVec 32) (q : Fin 2) (s : Fin 512) (j : Fin 256) :
    SegMlp.halfSum 25600 X ID q s j = ∑ r ∈ Finset.range 25600, gterm X ID s j (25600 * q.val + r) := by
  rw [← half_range 25600 (by decide) (gterm X ID s j) q.val q.isLt]
  show _ = ∑ n ∈ Finset.range 51200, _
  rw [Finset.sum_range]
  unfold SegMlp.halfSum
  refine Finset.sum_congr rfl fun r _ => ?_
  unfold gterm hot
  rw [dif_pos r.isLt]
  by_cases h1 : r.val / 25600 = q.val
  · by_cases h2 : ID (ix2 0 r) = BitVec.ofNat 32 s.val
    · rw [if_pos ⟨h1, h2⟩, if_pos h1]
      show _ = (if ID (ix2 0 r) = BitVec.ofNat 32 s.val then (1 : EReal) else 0) * X (ix2 r j)
      rw [if_pos h2, one_mul]
    · rw [if_neg (fun h => h2 h.2), if_pos h1]
      show _ = (if ID (ix2 0 r) = BitVec.ofNat 32 s.val then (1 : EReal) else 0) * X (ix2 r j)
      rw [if_neg h2, zero_mul]
  · rw [if_neg (fun h => h1 h.1), if_neg h1]

/-- Core q's half count is the number of hits among its 25600 rows. -/
theorem halfCnt_eq (ID : S1x51200.Idx → BitVec 32) (q : Fin 2) (s : Fin 512) :
    SegMlp.halfCnt 25600 ID q s = ∑ r ∈ Finset.range 25600, gcterm ID s (25600 * q.val + r) := by
  rw [← half_range 25600 (by decide) (gcterm ID s) q.val q.isLt]
  show _ = ∑ n ∈ Finset.range 51200, _
  rw [Finset.sum_range]
  unfold SegMlp.halfCnt
  refine Finset.sum_congr rfl fun r _ => ?_
  unfold gcterm hot
  rw [dif_pos r.isLt, one_eq]
  by_cases h1 : r.val / 25600 = q.val
  · by_cases h2 : ID (ix2 0 r) = BitVec.ofNat 32 s.val
    · rw [if_pos ⟨h1, h2⟩, if_pos h1]
      show _ = (if ID (ix2 0 r) = BitVec.ofNat 32 s.val then (1 : EReal) else 0)
      rw [if_pos h2]
    · rw [if_neg (fun h => h2 h.2), if_pos h1]
      show _ = (if ID (ix2 0 r) = BitVec.ofNat 32 s.val then (1 : EReal) else 0)
      rw [if_neg h2]
  · rw [if_neg (fun h => h1 h.1), if_neg h1]

/-! ## From the blocks to the arrays -/

/-- The sums array the region leaves: entry (q, s, j) is core q's half sum. -/
def sumArr (c : Dev nD) : S2x512x256.Idx → EReal :=
  fun i => SegMlp.halfSum 25600 (xs V c) (ids V c) (i 0) (i 1) (i 2)

/-- The counts array the region leaves: entry (q, s, 0) is core q's half count. -/
def cntArr (c : Dev nD) : S2x512x1.Idx → EReal :=
  fun i => SegMlp.halfCnt 25600 (ids V c) (i 0) (i 1)

/-- Windows 2 and 3's block at point t is slab t / 4. -/
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)
theorem idx3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- What a core's last tile writes back to the sums array is its slab of the half sums. -/
theorem flushed2_eq (c : Dev nD) (t : Fin cfg0.N) (hf : (cfg0.win 2).flush t = true) :
    (Reg0.dat V c).flushed 2 t = ((cfg0.win 2).blk t).view.read (Elt Ideal) (sumArr V c) := by
  have hN : cfg0.N = 8 := N_0
  have h3 : t.val % 4 = 3 := (flush0_2 t).mp hf
  have hq : t.val / 4 < 2 := by have := t.isLt; omega
  show (cfg0.win 2).cut (grid0.coords t) ((Reg0.dat V c).after 2 t) = _
  rw [Reg0.after_2]
  funext y
  rw [View.read_apply, cast_eq]
  show (Reg0.outsAt V c t.val t.isLt).1 ((cfg0.win 2).xinj (grid0.coords t) y) = _
  have y0 : (y 0).val < 1 := (y 0).isLt
  have y1 : (y 1).val < 512 := (y 1).isLt
  have y2 : (y 2).val < 256 := (y 2).isLt
  have e1 : (cfg0.win 2).xinj (grid0.coords t) y = ix3 0 ⟨(y 1).val, y1⟩ ⟨(y 2).val, y2⟩ := by
    funext a; apply Fin.ext
    match a with
    | ⟨0, _⟩ => show (y 0).val = 0; omega
    | ⟨1, _⟩ => rfl
    | ⟨2, _⟩ => rfl
  have e2 : ((cfg0.win 2).blk t).view.emb y = ix3 ⟨t.val / 4, hq⟩ ⟨(y 1).val, y1⟩ ⟨(y 2).val, y2⟩ := by
    funext a; apply Fin.ext
    match a with
    | ⟨0, _⟩ => show win0_2.index t 0 * 1 + 1 * (y 0).val = t.val / 4; rw [(idx2 t).1]; omega
    | ⟨1, _⟩ => show win0_2.index t 1 * 512 + 1 * (y 1).val = (y 1).val; rw [(idx2 t).2.1]; omega
    | ⟨2, _⟩ => show win0_2.index t 2 * 256 + 1 * (y 2).val = (y 2).val; rw [(idx2 t).2.2]; omega
  rw [e1, e2]
  show _ = SegMlp.halfSum 25600 (xs V c) (ids V c) ⟨t.val / 4, hq⟩ ⟨(y 1).val, y1⟩ ⟨(y 2).val, y2⟩
  rw [outsAt_sum V c _ _ t.val t.isLt, halfSum_eq, h3]

/-- What a core's last tile writes back to the counts array is its slab of the half counts. -/
theorem flushed3_eq (c : Dev nD) (t : Fin cfg0.N) (hf : (cfg0.win 3).flush t = true) :
    (Reg0.dat V c).flushed 3 t = ((cfg0.win 3).blk t).view.read (Elt Ideal) (cntArr V c) := by
  have hN : cfg0.N = 8 := N_0
  have h3 : t.val % 4 = 3 := (flush0_3 t).mp hf
  have hq : t.val / 4 < 2 := by have := t.isLt; omega
  show (cfg0.win 3).cut (grid0.coords t) ((Reg0.dat V c).after 3 t) = _
  rw [Reg0.after_3]
  funext y
  rw [View.read_apply, cast_eq]
  show (Reg0.outsAt V c t.val t.isLt).2 ((cfg0.win 3).xinj (grid0.coords t) y) = _
  have y0 : (y 0).val < 1 := (y 0).isLt
  have y1 : (y 1).val < 512 := (y 1).isLt
  have y2 : (y 2).val < 1 := (y 2).isLt
  have e1 : (cfg0.win 3).xinj (grid0.coords t) y = ix3 0 ⟨(y 1).val, y1⟩ 0 := by
    funext a; apply Fin.ext
    match a with
    | ⟨0, _⟩ => show (y 0).val = 0; omega
    | ⟨1, _⟩ => rfl
    | ⟨2, _⟩ => show (y 2).val = 0; omega
  have e2 : ((cfg0.win 3).blk t).view.emb y = ix3 ⟨t.val / 4, hq⟩ ⟨(y 1).val, y1⟩ 0 := by
    funext a; apply Fin.ext
    match a with
    | ⟨0, _⟩ => show win0_3.index t 0 * 1 + 1 * (y 0).val = t.val / 4; rw [(idx3 t).1]; omega
    | ⟨1, _⟩ => show win0_3.index t 1 * 512 + 1 * (y 1).val = (y 1).val; rw [(idx3 t).2.1]; omega
    | ⟨2, _⟩ => show win0_3.index t 2 * 1 + 1 * (y 2).val = 0; rw [(idx3 t).2.2]; omega
  rw [e1, e2]
  show _ = SegMlp.halfCnt 25600 (ids V c) ⟨t.val / 4, hq⟩ ⟨(y 1).val, y1⟩
  rw [outsAt_cnt V c _ t.val t.isLt, halfCnt_eq, h3]

/-- The sums array after the region: entry (q, s, j). -/
theorem arr_sum (c : Dev nD) (q : Fin 2) (s : Fin 512) (j : Fin 256) :
    ((Reg0.dat (F := Ideal) V c).arrAt 2 cfg0.N : S2x512x256.Idx → EReal) (ix3 q s j)
      = SegMlp.halfSum 25600 (V c main_v9 : S51200x256.Idx → EReal) (V c main_v11 : S1x51200.Idx → BitVec 32) q s j := by
  have hN : cfg0.N = 8 := N_0
  have ht : 4 * q.val + 3 < cfg0.N := by have := q.isLt; omega
  have hf : (cfg0.win 2).flush ⟨4 * q.val + 3, ht⟩ = true :=
    (flush0_2 ⟨4 * q.val + 3, ht⟩).mpr (by show (4 * q.val + 3) % 4 = 3; omega)
  refine ((Reg0.dat V c).arrAt_apply_of_mem 2 (sumArr V c) (flushed2_eq V c) cfg0.N ⟨4 * q.val + 3, ht⟩ (ix3 q s j) ht hf ?_).trans rfl
  show ix3 q s j ∈ ((View.whole main_v13_0).slice (win0_2.rect ⟨4 * q.val + 3, ht⟩)).set
  rw [View.set_slice_whole, Rect.mem_set_unit]
  intro a
  have e := idx2 ⟨4 * q.val + 3, ht⟩
  match a with
  | ⟨0, _⟩ =>
    show win0_2.index ⟨4 * q.val + 3, ht⟩ 0 * 1 ≤ q.val ∧ q.val < win0_2.index ⟨4 * q.val + 3, ht⟩ 0 * 1 + 1
    rw [e.1]; show (4 * q.val + 3) / 4 * 1 ≤ q.val ∧ q.val < (4 * q.val + 3) / 4 * 1 + 1; omega
  | ⟨1, _⟩ =>
    show win0_2.index ⟨4 * q.val + 3, ht⟩ 1 * 512 ≤ s.val ∧ s.val < win0_2.index ⟨4 * q.val + 3, ht⟩ 1 * 512 + 512
    rw [e.2.1]; have := s.isLt; omega
  | ⟨2, _⟩ =>
    show win0_2.index ⟨4 * q.val + 3, ht⟩ 2 * 256 ≤ j.val ∧ j.val < win0_2.index ⟨4 * q.val + 3, ht⟩ 2 * 256 + 256
    rw [e.2.2]; have := j.isLt; omega

/-- The counts array after the region: entry (q, s, 0). -/
theorem arr_cnt (c : Dev nD) (q : Fin 2) (s : Fin 512) :
    ((Reg0.dat (F := Ideal) V c).arrAt 3 cfg0.N : S2x512x1.Idx → EReal) (ix3 q s 0)
      = SegMlp.halfCnt 25600 (V c main_v11 : S1x51200.Idx → BitVec 32) q s := by
  have hN : cfg0.N = 8 := N_0
  have ht : 4 * q.val + 3 < cfg0.N := by have := q.isLt; omega
  have hf : (cfg0.win 3).flush ⟨4 * q.val + 3, ht⟩ = true :=
    (flush0_3 ⟨4 * q.val + 3, ht⟩).mpr (by show (4 * q.val + 3) % 4 = 3; omega)
  refine ((Reg0.dat V c).arrAt_apply_of_mem 3 (cntArr V c) (flushed3_eq V c) cfg0.N ⟨4 * q.val + 3, ht⟩ (ix3 q s 0) ht hf ?_).trans rfl
  show ix3 q s 0 ∈ ((View.whole main_v13_1).slice (win0_3.rect ⟨4 * q.val + 3, ht⟩)).set
  rw [View.set_slice_whole, Rect.mem_set_unit]
  intro a
  have e := idx3 ⟨4 * q.val + 3, ht⟩
  match a with
  | ⟨0, _⟩ =>
    show win0_3.index ⟨4 * q.val + 3, ht⟩ 0 * 1 ≤ q.val ∧ q.val < win0_3.index ⟨4 * q.val + 3, ht⟩ 0 * 1 + 1
    rw [e.1]; show (4 * q.val + 3) / 4 * 1 ≤ q.val ∧ q.val < (4 * q.val + 3) / 4 * 1 + 1; omega
  | ⟨1, _⟩ =>
    show win0_3.index ⟨4 * q.val + 3, ht⟩ 1 * 512 ≤ s.val ∧ s.val < win0_3.index ⟨4 * q.val + 3, ht⟩ 1 * 512 + 512
    rw [e.2.1]; have := s.isLt; omega
  | ⟨2, _⟩ =>
    show win0_3.index ⟨4 * q.val + 3, ht⟩ 2 * 1 ≤ 0 ∧ 0 < win0_3.index ⟨4 * q.val + 3, ht⟩ 2 * 1 + 1
    rw [e.2.2]; omega

end Cert.KernelIdeal.Val0

end
-- ==== Proof.KI.Val1.lean ====
/-
  Region 1's two result arrays at an entry: core q's slab of the [2, 128, 512] sums (segments along the last axis) is its 800000 rows' one-hot sum, its slab
  of the [2, 512, 1] counts their hit count — the five chunks of a tile, the fifty tiles of a core and the write-back at a
  core's last tile put together.
-/
import proofs.«411700_j6279242186981_3_alg».proof.Proof.KI.Reg1
import proofs.«411700_j6279242186981_3_alg».proof.Proof.SpecHalves
import proofs.«411700_j6279242186981_3_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val1

open Idealize.ShloMosaic Idealize.ShloMosaic.ValueIdx Idealize.ShloMosaic.TcCoe Idealize.SL.Sem Cert.KernelIdeal Cert.KernelIdeal.Gen

/-! ## Words: the one-hot entry -/

/-- The one-hot entry of segment s at an id word: 1 where the word is s's, else 0. -/
def hot (s : Fin 512) (w : BitVec 32) : EReal := if w = BitVec.ofNat 32 s.val then 1 else 0

/-- The word 1.0 is the extended real 1. -/
theorem one_eq : SegMlp.one = (1 : EReal) := by
  simp [SegMlp.one, Ideal.ofBits, Ideal.ieee, -EReal.coe_mul]; norm_num

/-- A widened one-bit word read as a signed integer is 0 or 1. -/
theorem bit_toInt (b : Bool) : (((((BitVec.ofBool b).setWidth 32).toInt : ℤ) : ℝ) : EReal) = if b then 1 else 0 := by
  cases b
  · have h : ((BitVec.ofBool false).setWidth 32).toInt = 0 := by decide
    rw [h]; simp
  · have h : ((BitVec.ofBool true).setWidth 32).toInt = 1 := by decide
    rw [h]; simp

/-- The comparison's bit at (s, r): the iota word s against the id word r. -/
theorem pay3_apply (seg : Vec Ideal S1x3200 .i32) (s : Fin 512) (r : Fin 3200) :
    k1_pay3 (F := Ideal) seg (ix2 s r) = IntOp.cmpi .eq (BitVec.ofNat 32 s.val) (seg (ix2 0 r)) := by
  unfold k1_pay3
  show IntOp.cmpi .eq (iota .tc S512x3200 32 [0] iota_S512x3200_d0_w32 (ix2 s r)) (broadcastTo S512x3200 _ broadcasts_S1x3200_S512x3200 (ix2 s r)) = _
  rw [iota_single_apply, broadcastTo_apply _ _ (ix2 s r) (ix2 0 r) (fun a => by
    match a with
    | ⟨0, _⟩ => rfl
    | ⟨1, _⟩ => rfl), shapeCast_self]

/-- The widened, converted comparison at (s, r) is the one-hot entry. -/
theorem onehot_apply (seg : Vec Ideal S1x3200 .i32) (s : Fin 512) (r : Fin 3200) :
    (sitofp .f32 (extui 32 (k1_pay3 (F := Ideal) seg) natLt_1_32) : FVec Ideal S512x3200 .f32) (ix2 s r) = hot s (seg (ix2 0 r)) := by
  rw [sitofp_apply, extui_apply, pay3_apply]
  show (((((BitVec.ofBool (BitVec.ofNat 32 s.val == seg (ix2 0 r))).setWidth 32).toInt : ℤ) : ℝ) : EReal) = _
  rw [bit_toInt]
  unfold hot
  by_cases h : seg (ix2 0 r) = BitVec.ofNat 32 s.val
  · rw [if_pos h, h]; simp
  · rw [if_neg h, if_neg (fun e => h (eq_of_beq e).symm)]

/-! ## The contraction: rows against the one-hot block, the rows' axis 0 with the one-hot's axis 1 -/

theorem lhs_rows_0 (i : S128x512.Idx) (q : dot_S3200x128_S512x3200_S128x512_0_1_1_0_n_n.contr.Idx) :
    (dot_S3200x128_S512x3200_S128x512_0_1_1_0_n_n.lhsIdx i q 0).val = (q ⟨0, by decide⟩).val :=
  dot_S3200x128_S512x3200_S128x512_0_1_1_0_n_n.lhsIdx_val_of_single rfl i q
theorem lhs_rows_1 (i : S128x512.Idx) (q : dot_S3200x128_S512x3200_S128x512_0_1_1_0_n_n.contr.Idx) :
    (dot_S3200x128_S512x3200_S128x512_0_1_1_0_n_n.lhsIdx i q 1).val = (i 0).val := by
  unfold DotDims.lhsIdx
  rw [dif_neg (show ¬(1 : Fin S3200x128.rank) ∈ dot_S3200x128_S512x3200_S128x512_0_1_1_0_n_n.lhsBatch by decide), dif_pos (show (1 : Fin S3200x128.rank) ∈ dot_S3200x128_S512x3200_S128x512_0_1_1_0_n_n.lhsNonContracting by decide)]
  rfl
theorem rhs_hot_0 (i : S128x512.Idx) (q : dot_S3200x128_S512x3200_S128x512_0_1_1_0_n_n.contr.Idx) :
    (dot_S3200x128_S512x3200_S128x512_0_1_1_0_n_n.rhsIdx i q 0).val = (i 1).val := by
  unfold DotDims.rhsIdx
  rw [dif_neg (show ¬(0 : Fin S512x3200.rank) ∈ dot_S3200x128_S512x3200_S128x512_0_1_1_0_n_n.rhsBatch by decide), dif_pos (show (0 : Fin S512x3200.rank) ∈ dot_S3200x128_S512x3200_S128x512_0_1_1_0_n_n.rhsNonContracting by decide)]
  rfl
theorem rhs_hot_1 (i : S128x512.Idx) (q : dot_S3200x128_S512x3200_S128x512_0_1_1_0_n_n.contr.Idx) :
    (dot_S3200x128_S512x3200_S128x512_0_1_1_0_n_n.rhsIdx i q 1).val = (q ⟨0, by decide⟩).val :=
  dot_S3200x128_S512x3200_S128x512_0_1_1_0_n_n.rhsIdx_val_of_single rfl i q

/-- The product into the zero accumulator at (j, s): the sum over the 3200 rows r of A(r, j) · B(s, r). -/
theorem matmul_rows_apply {φ₁ φ₂ : FTy} (A : FVec Ideal S3200x128 φ₁) (B : FVec Ideal S512x3200 φ₂) (j : Fin 128) (s : Fin 512) :
    matmul (F := Ideal) dot_S3200x128_S512x3200_S128x512_0_1_1_0_n_n none A B (constant S128x512 .f32 0x00000000#32) (ix2 j s)
      = ∑ r : Fin 3200, A (ix2 r j) * B (ix2 s r) := by
  show FloatOps.matmul _ none A B _ (ix2 j s) = _
  rw [Ideal.matmul_constant_zero_apply, ← Equiv.sum_comp (contrEquiv1 dot_S3200x128_S512x3200_S128x512_0_1_1_0_n_n 3200 rfl rfl).symm]
  refine Finset.sum_congr rfl fun r _ => ?_
  have hr := contrEquiv1_symm_val dot_S3200x128_S512x3200_S128x512_0_1_1_0_n_n 3200 rfl rfl r
  have el : dot_S3200x128_S512x3200_S128x512_0_1_1_0_n_n.lhsIdx (ix2 j s) ((contrEquiv1 dot_S3200x128_S512x3200_S128x512_0_1_1_0_n_n 3200 rfl rfl).symm r) = ix2 r j := funext fun a => Fin.ext (by
    match a with
    | ⟨0, _⟩ => exact (lhs_rows_0 _ _).trans hr
    | ⟨1, _⟩ => exact lhs_rows_1 _ _)
  have er : dot_S3200x128_S512x3200_S128x512_0_1_1_0_n_n.rhsIdx (ix2 j s) ((contrEquiv1 dot_S3200x128_S512x3200_S128x512_0_1_1_0_n_n 3200 rfl rfl).symm r) = ix2 s r := funext fun a => Fin.ext (by
    match a with
    | ⟨0, _⟩ => exact rhs_hot_0 _ _
    | ⟨1, _⟩ => exact (rhs_hot_1 _ _).trans hr)
  rw [el, er]

/-! ## The payloads at an entry -/

/-- One chunk's sum block at (0, j, s): what it held plus the product's entry. -/
theorem pay4_apply (x : Vec Ideal S3200x128 .f32) (seg : Vec Ideal S1x3200 .i32) (a : Vec Ideal S1x128x512 .f32)
    (s : Fin 512) (j : Fin 128) :
    k1_pay4 (F := Ideal) x seg a (ix3 0 j s) = a (ix3 0 j s) + ∑ r : Fin 3200, hot s (seg (ix2 0 r)) * x (ix2 r j) := by
  unfold k1_pay4
  refine (shapeCast_apply _ _ (ix3 0 j s) (ix2 j s) ?_).trans ?_
  · rw [Shape.rowMajor_val_two, Shape.rowMajor_val_three]
    show j.val * 512 + s.val = (0 * 128 + j.val) * 512 + s.val
    omega
  rw [addf_apply]
  refine congrArg₂ (· + ·) ?_ ?_
  · refine shapeCast_apply _ _ (ix2 j s) (ix3 0 j s) ?_
    rw [Shape.rowMajor_val_two, Shape.rowMajor_val_three]
    show (0 * 128 + j.val) * 512 + s.val = j.val * 512 + s.val
    omega
  · refine (matmul_rows_apply _ _ j s).trans ?_
    refine Finset.sum_congr rfl fun r _ => ?_
    rw [truncf_apply, truncf_apply, onehot_apply, mul_comm]

/-- One chunk's count block at (0, s, 0): what it held plus the number of the chunk's hits. -/
theorem pay5_apply (seg : Vec Ideal S1x3200 .i32) (a : Vec Ideal S1x512x1 .f32) (s : Fin 512) :
    k1_pay5 (F := Ideal) seg a (ix3 0 s 0) = a (ix3 0 s 0) + ∑ r : Fin 3200, hot s (seg (ix2 0 r)) := by
  unfold k1_pay5
  refine (shapeCast_apply _ _ (ix3 0 s 0) (ix2 s 0) ?_).trans ?_
  · rw [Shape.rowMajor_val_two, Shape.rowMajor_val_three]
    show s.val * 1 + 0 = (0 * 512 + s.val) * 1 + 0
    omega
  rw [addf_apply]
  refine congrArg₂ (· + ·) ?_ ?_
  · refine shapeCast_apply _ _ (ix2 s 0) (ix3 0 s 0) ?_
    rw [Shape.rowMajor_val_two, Shape.rowMajor_val_three]
    show (0 * 512 + s.val) * 1 + 0 = s.val * 1 + 0
    omega
  · refine (shapeCast_apply _ _ (ix2 s 0) (ix1 s) ?_).trans ?_
    · rw [Shape.rowMajor_val_two, Shape.rowMajor_val_one]
      show s.val = s.val * 1 + 0
      omega
    refine (Ideal.multiReduction_add_single _ _ reduces_S512x3200_S512 _ _ (ix1 s)).trans ?_
    refine Finset.sum_congr rfl fun r _ => ?_
    exact onehot_apply seg s r

/-! ## A chunk, the chunks of a tile -/

/-- Row n of a tile's block as a term of the sum: its one-hot entry times its entry in column j; 0 past the block. -/
def term (x : Vec Ideal S16000x128 .f32) (seg : Vec Ideal S1x16000 .i32) (s : Fin 512) (j : Fin 128) (n : ℕ) : EReal :=
  if h : n < 16000 then hot s (seg (ix2 0 ⟨n, h⟩)) * x (ix2 ⟨n, h⟩ j) else 0

/-- Row n of a tile's block as a term of the count: its one-hot entry; 0 past the block. -/
def cterm (seg : Vec Ideal S1x16000 .i32) (s : Fin 512) (n : ℕ) : EReal :=
  if h : n < 16000 then hot s (seg (ix2 0 ⟨n, h⟩)) else 0

theorem trips_eq : k1_t1_loop.trips = 5 := by decide

/-- The ids chunk k reads, entry r: the tile's id 3200 k + r. -/
theorem ld_seg (seg : Vec Ideal S1x16000 .i32) (k : Fin k1_t1_loop.trips) (r : Fin 3200) (h : 3200 * k.val + r.val < 16000) :
    (View.ld seg (Reg1.rs k) : Vec Ideal S1x3200 .i32) (ix2 0 r) = seg (ix2 0 ⟨3200 * k.val + r.val, h⟩) := by
  show seg ((Reg1.rs k).idx (ix2 0 r)) = _
  refine congrArg seg (funext fun a => Fin.ext ?_)
  match a with
  | ⟨0, _⟩ =>
    show k1_off2 k 0 + 1 * 0 = 0
    rw [k1_off2_eq]; rfl
  | ⟨1, _⟩ =>
    show k1_off2 k 1 + 1 * r.val = 3200 * k.val + r.val
    rw [k1_off2_eq]; simp

/-- The rows chunk k reads, entry (r, j): the tile's row 3200 k + r. -/
theorem ld_x (x : Vec Ideal S16000x128 .f32) (k : Fin k1_t1_loop.trips) (r : Fin 3200) (j : Fin 128) (h : 3200 * k.val + r.val < 16000) :
    (View.ld x (Reg1.rx k) : Vec Ideal S3200x128 .f32) (ix2 r j) = x (ix2 ⟨3200 * k.val + r.val, h⟩ j) := by
  show x ((Reg1.rx k).idx (ix2 r j)) = _
  refine congrArg x (funext fun a => Fin.ext ?_)
  match a with
  | ⟨0, _⟩ =>
    show k1_off1 k 0 + 1 * r.val = 3200 * k.val + r.val
    rw [k1_off1_eq]; simp
  | ⟨1, _⟩ =>
    show k1_off1 k 1 + 1 * j.val = j.val
    rw [k1_off1_eq]; simp

/-- One chunk adds its 3200 rows' terms to the sum block's entry. -/
theorem chunk_sum (x : Vec Ideal S16000x128 .f32) (seg : Vec Ideal S1x16000 .i32) (k : Fin k1_t1_loop.trips)
    (a : Vec Ideal S1x128x512 .f32 × Vec Ideal S1x512x1 .f32) (s : Fin 512) (j : Fin 128) :
    (Reg1.chunk (F := Ideal) x seg k a).1 (ix3 0 j s)
      = a.1 (ix3 0 j s) + ∑ r ∈ Finset.range 3200, term x seg s j (3200 * k.val + r) := by
  have hk : k.val < 5 := trips_eq ▸ k.isLt
  unfold Reg1.chunk
  refine (pay4_apply (View.ld x (Reg1.rx k)) (View.ld seg (Reg1.rs k)) a.1 s j).trans ?_
  refine congrArg (a.1 (ix3 0 j s) + ·) ?_
  rw [Finset.sum_range]
  refine Finset.sum_congr rfl fun r _ => ?_
  have h : 3200 * k.val + r.val < 16000 := by have := r.isLt; omega
  unfold term
  rw [dif_pos h, ld_seg seg k r h, ld_x x k r j h]

/-- One chunk adds its 3200 rows' one-hot entries to the count block's entry. -/
theorem chunk_cnt (x : Vec Ideal S16000x128 .f32) (seg : Vec Ideal S1x16000 .i32) (k : Fin k1_t1_loop.trips)
    (a : Vec Ideal S1x128x512 .f32 × Vec Ideal S1x512x1 .f32) (s : Fin 512) :
    (Reg1.chunk (F := Ideal) x seg k a).2 (ix3 0 s 0)
      = a.2 (ix3 0 s 0) + ∑ r ∈ Finset.range 3200, cterm seg s (3200 * k.val + r) := by
  have hk : k.val < 5 := trips_eq ▸ k.isLt
  unfold Reg1.chunk
  refine (pay5_apply (View.ld seg (Reg1.rs k)) a.2 s).trans ?_
  refine congrArg (a.2 (ix3 0 s 0) + ·) ?_
  rw [Finset.sum_range]
  refine Finset.sum_congr rfl fun r _ => ?_
  have h : 3200 * k.val + r.val < 16000 := by have := r.isLt; omega
  unfold cterm
  rw [dif_pos h, ld_seg seg k r h]

theorem accum_succ (x : Vec Ideal S16000x128 .f32) (seg : Vec Ideal S1x16000 .i32)
    (init : Vec Ideal S1x128x512 .f32 × Vec Ideal S1x512x1 .f32) (n : ℕ) (h : n < k1_t1_loop.trips) :
    Reg1.accum (F := Ideal) x seg init (n + 1) = Reg1.chunk x seg ⟨n, h⟩ (Reg1.accum x seg init n) := dif_pos h

/-- The first n chunks add the tile's first 3200 n rows' terms. -/
theorem accum_sum (x : Vec Ideal S16000x128 .f32) (seg : Vec Ideal S1x16000 .i32)
    (init : Vec Ideal S1x128x512 .f32 × Vec Ideal S1x512x1 .f32) (s : Fin 512) (j : Fin 128) :
    ∀ n : ℕ, n ≤ 5 → (Reg1.accum (F := Ideal) x seg init n).1 (ix3 0 j s)
      = init.1 (ix3 0 j s) + ∑ r ∈ Finset.range (3200 * n), term x seg s j r
  | 0, _ => by
    show init.1 (ix3 0 j s) = _
    rw [Nat.mul_zero, Finset.sum_range_zero, add_zero]
  | n + 1, h => by
    have hk : n < k1_t1_loop.trips := by rw [trips_eq]; omega
    rw [accum_succ x seg init n hk, chunk_sum, accum_sum x seg init s j n (by omega), add_assoc, Nat.mul_succ,
      Finset.sum_range_add]

/-- The first n chunks add the tile's first 3200 n rows' one-hot entries. -/
theorem accum_cnt (x : Vec Ideal S16000x128 .f32) (seg : Vec Ideal S1x16000 .i32)
    (init : Vec Ideal S1x128x512 .f32 × Vec Ideal S1x512x1 .f32) (s : Fin 512) :
    ∀ n : ℕ, n ≤ 5 → (Reg1.accum (F := Ideal) x seg init n).2 (ix3 0 s 0)
      = init.2 (ix3 0 s 0) + ∑ r ∈ Finset.range (3200 * n), cterm seg s r
  | 0, _ => by
    show init.2 (ix3 0 s 0) = _
    rw [Nat.mul_zero, Finset.sum_range_zero, add_zero]
  | n + 1, h => by
    have hk : n < k1_t1_loop.trips := by rw [trips_eq]; omega
    rw [accum_succ x seg init n hk, chunk_cnt, accum_cnt x seg init s n (by omega), add_assoc, Nat.mul_succ,
      Finset.sum_range_add]

/-- A whole tile adds its 16000 rows' terms. -/
theorem tile_sum (x : Vec Ideal S16000x128 .f32) (seg : Vec Ideal S1x16000 .i32)
    (init : Vec Ideal S1x128x512 .f32 × Vec Ideal S1x512x1 .f32) (s : Fin 512) (j : Fin 128) :
    (Reg1.tile (F := Ideal) x seg init).1 (ix3 0 j s) = init.1 (ix3 0 j s) + ∑ r ∈ Finset.range 16000, term x seg s j r := by
  unfold Reg1.tile
  rw [trips_eq]
  exact accum_sum x seg init s j 5 le_rfl

/-- A whole tile adds its 16000 rows' one-hot entries. -/
theorem tile_cnt (x : Vec Ideal S16000x128 .f32) (seg : Vec Ideal S1x16000 .i32)
    (init : Vec Ideal S1x128x512 .f32 × Vec Ideal S1x512x1 .f32) (s : Fin 512) :
    (Reg1.tile (F := Ideal) x seg init).2 (ix3 0 s 0) = init.2 (ix3 0 s 0) + ∑ r ∈ Finset.range 16000, cterm seg s r := by
  unfold Reg1.tile
  rw [trips_eq]
  exact accum_cnt x seg init s 5 le_rfl

/-! ## A tile as rows of the arrays -/

/-- Row n of the edge array as a term of the sum: its one-hot entry times its entry in column j; 0 past the array. -/
def gterm (X : S1600000x128.Idx → EReal) (ID : S1x1600000.Idx → BitVec 32) (s : Fin 512) (j : Fin 128) (n : ℕ) : EReal :=
  if h : n < 1600000 then hot s (ID (ix2 0 ⟨n, h⟩)) * X (ix2 ⟨n, h⟩ j) else 0

/-- Row n of the ids as a term of the count: its one-hot entry; 0 past the array. -/
def gcterm (ID : S1x1600000.Idx → BitVec 32) (s : Fin 512) (n : ℕ) : EReal :=
  if h : n < 1600000 then hot s (ID (ix2 0 ⟨n, h⟩)) else 0

/-- If a tile's blocks are rows 16000 t + r of the arrays, its terms are the arrays'. -/
theorem term_eq (x : Vec Ideal S16000x128 .f32) (seg : Vec Ideal S1x16000 .i32) (X : S1600000x128.Idx → EReal)
    (ID : S1x1600000.Idx → BitVec 32) (t : ℕ) (ht : t < 100)
    (hx : ∀ (r : Fin 16000) (j : Fin 128) (h : 16000 * t + r.val < 1600000), x (ix2 r j) = X (ix2 ⟨16000 * t + r.val, h⟩ j))
    (hs : ∀ (r : Fin 16000) (h : 16000 * t + r.val < 1600000), seg (ix2 0 r) = ID (ix2 0 ⟨16000 * t + r.val, h⟩))
    (s : Fin 512) (j : Fin 128) (n : ℕ) (hn : n < 16000) : term x seg s j n = gterm X ID s j (16000 * t + n) := by
  have h : 16000 * t + n < 1600000 := by omega
  unfold term gterm
  rw [dif_pos hn, dif_pos h, hx ⟨n, hn⟩ j h, hs ⟨n, hn⟩ h]

theorem cterm_eq (seg : Vec Ideal S1x16000 .i32) (ID : S1x1600000.Idx → BitVec 32) (t : ℕ) (ht : t < 100)
    (hs : ∀ (r : Fin 16000) (h : 16000 * t + r.val < 1600000), seg (ix2 0 r) = ID (ix2 0 ⟨16000 * t + r.val, h⟩))
    (s : Fin 512) (n : ℕ) (hn : n < 16000) : cterm seg s n = gcterm ID s (16000 * t + n) := by
  have h : 16000 * t + n < 1600000 := by omega
  unfold cterm gcterm
  rw [dif_pos hn, dif_pos h, hs ⟨n, hn⟩ h]

variable (V : (c : Dev nD) → (b : Ref sig .tc) → Buf (Elt Ideal) ((c : Thread nD τ).loc b))

/-- The edge array and the ids row as the region finds them. -/
abbrev xs (c : Dev nD) : S1600000x128.Idx → EReal := V c main_arg2
abbrev ids (c : Dev nD) : S1x1600000.Idx → BitVec 32 := V c main_v12

/-- Window 0's block at point t is row block t; window 1's is column block t. -/
theorem idx0 : ∀ t : Fin cfg1.N, win1_0.index t 0 = t.val ∧ win1_0.index t 1 = 0 :=
  (by decide +kernel : ∀ t : Fin grid1.N, win1_0.index t 0 = t.val ∧ win1_0.index t 1 = 0)
theorem idx1 : ∀ t : Fin cfg1.N, win1_1.index t 0 = 0 ∧ win1_1.index t 1 = t.val :=
  (by decide +kernel : ∀ t : Fin grid1.N, win1_1.index t 0 = 0 ∧ win1_1.index t 1 = t.val)

/-- The rows block of point t at (r, j) is the edge array at (16000 t + r, j). -/
theorem iblk0_apply (c : Dev nD) (t : Fin cfg1.N) (r : Fin 16000) (j : Fin 128) (h : 16000 * t.val + r.val < 1600000) :
    (Reg1.iblk V c 0 t : Vec Ideal S16000x128 .f32) (ix2 r j) = xs V c (ix2 ⟨16000 * t.val + r.val, h⟩ j) := by
  unfold Reg1.iblk
  rw [View.read_apply]
  show V c main_arg2 _ = V c main_arg2 _
  congr 1
  funext a
  apply Fin.ext
  match a with
  | ⟨0, _⟩ => show win1_0.index t 0 * 16000 + 1 * r.val = 16000 * t.val + r.val; rw [(idx0 t).1]; omega
  | ⟨1, _⟩ => show win1_0.index t 1 * 128 + 1 * j.val = j.val; rw [(idx0 t).2]; omega

/-- The ids block of point t at (0, r) is the ids row at (0, 16000 t + r). -/
theorem iblk1_apply (c : Dev nD) (t : Fin cfg1.N) (r : Fin 16000) (h : 16000 * t.val + r.val < 1600000) :
    (Reg1.iblk V c 1 t : Vec Ideal S1x16000 .i32) (ix2 0 r) = ids V c (ix2 0 ⟨16000 * t.val + r.val, h⟩) := by
  unfold Reg1.iblk
  rw [View.read_apply]
  show V c main_v12 _ = V c main_v12 _
  congr 1
  funext a
  apply Fin.ext
  match a with
  | ⟨0, _⟩ => show win1_1.index t 0 * 1 + 1 * 0 = 0; rw [(idx1 t).1]
  | ⟨1, _⟩ => show win1_1.index t 1 * 16000 + 1 * r.val = 16000 * t.val + r.val; rw [(idx1 t).2]; omega

/-- The tile of point t adds the arrays' rows [16000 t, 16000 t + 16000). -/
theorem tile_at_sum (c : Dev nD) (t : Fin cfg1.N) (init : Vec Ideal S1x128x512 .f32 × Vec Ideal S1x512x1 .f32)
    (s : Fin 512) (j : Fin 128) :
    (Reg1.tile (F := Ideal) (Reg1.iblk V c 0 t) (Reg1.iblk V c 1 t) init).1 (ix3 0 j s)
      = init.1 (ix3 0 j s) + ∑ r ∈ Finset.range 16000, gterm (xs V c) (ids V c) s j (16000 * t.val + r) := by
  have hN : cfg1.N = 100 := N_1
  refine (tile_sum (Reg1.iblk V c 0 t) (Reg1.iblk V c 1 t) init s j).trans ?_
  refine congrArg (init.1 (ix3 0 j s) + ·) ?_
  refine Finset.sum_congr rfl fun r hr => ?_
  exact term_eq (Reg1.iblk V c 0 t) (Reg1.iblk V c 1 t) (xs V c) (ids V c) t.val (by have := t.isLt; omega)
    (fun r j h => iblk0_apply V c t r j h) (fun r h => iblk1_apply V c t r h) s j r (Finset.mem_range.mp hr)

theorem tile_at_cnt (c : Dev nD) (t : Fin cfg1.N) (init : Vec Ideal S1x128x512 .f32 × Vec Ideal S1x512x1 .f32)
    (s : Fin 512) :
    (Reg1.tile (F := Ideal) (Reg1.iblk V c 0 t) (Reg1.iblk V c 1 t) init).2 (ix3 0 s 0)
      = init.2 (ix3 0 s 0) + ∑ r ∈ Finset.range 16000, gcterm (ids V c) s (16000 * t.val + r) := by
  have hN : cfg1.N = 100 := N_1
  refine (tile_cnt (Reg1.iblk V c 0 t) (Reg1.iblk V c 1 t) init s).trans ?_
  refine congrArg (init.2 (ix3 0 s 0) + ·) ?_
  refine Finset.sum_congr rfl fun r hr => ?_
  exact cterm_eq (Reg1.iblk V c 1 t) (ids V c) t.val (by have := t.isLt; omega)
    (fun r h => iblk1_apply V c t r h) s r (Finset.mem_range.mp hr)

/-- The two blocks a core's first tile starts from are zero. -/
theorem zero_sum (s : Fin 512) (j : Fin 128) : (Reg1.zero (F := Ideal)).1 (ix3 0 j s) = 0 := by
  show k1_pay1 (F := Ideal) (ix3 0 j s) = 0
  unfold k1_pay1
  refine (shapeCast_apply _ _ (ix3 0 j s) (ix2 j s) ?_).trans ?_
  · rw [Shape.rowMajor_val_two, Shape.rowMajor_val_three]
    show j.val * 512 + s.val = (0 * 128 + j.val) * 512 + s.val
    omega
  exact Ideal.ofBits_zero_f32

theorem zero_cnt (s : Fin 512) : (Reg1.zero (F := Ideal)).2 (ix3 0 s 0) = 0 := by
  show k1_pay2 (F := Ideal) (ix3 0 s 0) = 0
  unfold k1_pay2
  refine (shapeCast_apply _ _ (ix3 0 s 0) (ix2 s 0) ?_).trans ?_
  · rw [Shape.rowMajor_val_two, Shape.rowMajor_val_three]
    show s.val * 1 + 0 = (0 * 512 + s.val) * 1 + 0
    omega
  exact Ideal.ofBits_zero_f32

/-! ## The tiles of a core -/

/-- After point n the sum block's entry is the sum of the terms of the core's rows walked so far:
    rows [800000 (n / 50), 800000 (n / 50) + 16000 (n % 50 + 1)). -/
theorem outsAt_sum (c : Dev nD) (s : Fin 512) (j : Fin 128) : ∀ (n : ℕ) (hn : n < cfg1.N),
    (Reg1.outsAt (F := Ideal) V c n hn).1 (ix3 0 j s)
      = ∑ r ∈ Finset.range (16000 * (n % 50 + 1)), gterm (xs V c) (ids V c) s j (800000 * (n / 50) + r) := by
  have first : ∀ (t : Fin cfg1.N), t.val % 50 = 0 → (Reg1.outsAt (F := Ideal) V c t.val t.isLt).1 (ix3 0 j s)
      = ∑ r ∈ Finset.range (16000 * (t.val % 50 + 1)), gterm (xs V c) (ids V c) s j (800000 * (t.val / 50) + r) := by
    intro t h0
    refine (congrArg (fun p => p.1 (ix3 0 j s)) (Reg1.outsAt_first V c t h0)).trans ?_
    refine (tile_at_sum V c t Reg1.zero s j).trans ?_
    rw [zero_sum, zero_add, h0, Nat.zero_add, Nat.mul_one]
    refine Finset.sum_congr rfl fun r _ => ?_
    congr 1; omega
  intro n
  induction n with
  | zero => intro hn; exact first ⟨0, hn⟩ rfl
  | succ n ih =>
    intro hn
    by_cases h0 : (n + 1) % 50 = 0
    · exact first ⟨n + 1, hn⟩ h0
    · refine (congrArg (fun p => p.1 (ix3 0 j s)) (Reg1.outsAt_later V c ⟨n + 1, hn⟩ h0)).trans ?_
      refine (tile_at_sum V c ⟨n + 1, hn⟩ (Reg1.outsAt V c n (Nat.lt_of_succ_lt hn)) s j).trans ?_
      have e1 : (n + 1) / 50 = n / 50 := by omega
      have e2 : (n + 1) % 50 = n % 50 + 1 := by omega
      rw [ih (Nat.lt_of_succ_lt hn), e1, e2, show 16000 * (n % 50 + 1 + 1) = 16000 * (n % 50 + 1) + 16000 by omega,
        Finset.sum_range_add]
      refine congrArg (_ + ·) (Finset.sum_congr rfl fun r _ => ?_)
      congr 1
      show 16000 * (n + 1) + r = _
      omega

/-- After point n the count block's entry is the number of hits among the core's rows walked so far. -/
theorem outsAt_cnt (c : Dev nD) (s : Fin 512) : ∀ (n : ℕ) (hn : n < cfg1.N),
    (Reg1.outsAt (F := Ideal) V c n hn).2 (ix3 0 s 0)
      = ∑ r ∈ Finset.range (16000 * (n % 50 + 1)), gcterm (ids V c) s (800000 * (n / 50) + r) := by
  have first : ∀ (t : Fin cfg1.N), t.val % 50 = 0 → (Reg1.outsAt (F := Ideal) V c t.val t.isLt).2 (ix3 0 s 0)
      = ∑ r ∈ Finset.range (16000 * (t.val % 50 + 1)), gcterm (ids V c) s (800000 * (t.val / 50) + r) := by
    intro t h0
    refine (congrArg (fun p => p.2 (ix3 0 s 0)) (Reg1.outsAt_first V c t h0)).trans ?_
    refine (tile_at_cnt V c t Reg1.zero s).trans ?_
    rw [zero_cnt, zero_add, h0, Nat.zero_add, Nat.mul_one]
    refine Finset.sum_congr rfl fun r _ => ?_
    congr 1; omega
  intro n
  induction n with
  | zero => intro hn; exact first ⟨0, hn⟩ rfl
  | succ n ih =>
    intro hn
    by_cases h0 : (n + 1) % 50 = 0
    · exact first ⟨n + 1, hn⟩ h0
    · refine (congrArg (fun p => p.2 (ix3 0 s 0)) (Reg1.outsAt_later V c ⟨n + 1, hn⟩ h0)).trans ?_
      refine (tile_at_cnt V c ⟨n + 1, hn⟩ (Reg1.outsAt V c n (Nat.lt_of_succ_lt hn)) s).trans ?_
      have e1 : (n + 1) / 50 = n / 50 := by omega
      have e2 : (n + 1) % 50 = n % 50 + 1 := by omega
      rw [ih (Nat.lt_of_succ_lt hn), e1, e2, show 16000 * (n % 50 + 1 + 1) = 16000 * (n % 50 + 1) + 16000 by omega,
        Finset.sum_range_add]
      refine congrArg (_ + ·) (Finset.sum_congr rfl fun r _ => ?_)
      congr 1
      show 16000 * (n + 1) + r = _
      omega

/-! ## The halves of the specification as sums over a core's rows -/

/-- A sum over 2 N naturals that keeps those of half q is the sum over that half. -/
theorem half_range (N : ℕ) (hN : 0 < N) (g : ℕ → EReal) (q : ℕ) (hq : q < 2) :
    ∑ n ∈ Finset.range (N + N), (if n / N = q then g n else 0) = ∑ r ∈ Finset.range N, g (N * q + r) := by
  have h1 : ∀ n ∈ Finset.range N, n / N = 0 := fun n hn => Nat.div_eq_of_lt (Finset.mem_range.mp hn)
  have h2 : ∀ n ∈ Finset.range N, (N + n) / N = 1 := fun n hn => by
    rw [Nat.add_div_left _ hN, h1 n hn]
  rw [Finset.sum_range_add]
  interval_cases q
  · have a1 : ∑ x ∈ Finset.range N, (if x / N = 0 then g x else 0) = ∑ x ∈ Finset.range N, g x :=
      Finset.sum_congr rfl fun n hn => if_pos (h1 n hn)
    have a2 : ∑ x ∈ Finset.range N, (if (N + x) / N = 0 then g (N + x) else 0) = 0 :=
      Finset.sum_eq_zero fun n hn => if_neg (by rw [h2 n hn]; decide)
    rw [a1, a2, add_zero]
    refine Finset.sum_congr rfl fun n _ => ?_
    rw [Nat.mul_zero, Nat.zero_add]
  · have a1 : ∑ x ∈ Finset.range N, (if x / N = 1 then g x else 0) = 0 :=
      Finset.sum_eq_zero fun n hn => if_neg (by rw [h1 n hn]; decide)
    have a2 : ∑ x ∈ Finset.range N, (if (N + x) / N = 1 then g (N + x) else 0) = ∑ x ∈ Finset.range N, g (N + x) :=
      Finset.sum_congr rfl fun n hn => if_pos (h2 n hn)
    rw [a1, a2, zero_add]
    refine Finset.sum_congr rfl fun n _ => ?_
    rw [Nat.mul_one]

/-- Core q's half sum is the sum of the terms of its 800000 rows. -/
theorem halfSum_eq (X : S1600000x128.Idx → EReal) (ID : S1x1600000.Idx → BitVec 32) (q : Fin 2) (s : Fin 512) (j : Fin 128) :
    SegMlp.halfSum 800000 X ID q s j = ∑ r ∈ Finset.range 800000, gterm X ID s j (800000 * q.val + r) := by
  rw [← half_range 800000 (by decide) (gterm X ID s j) q.val q.isLt]
  show _ = ∑ n ∈ Finset.range 1600000, _
  rw [Finset.sum_range]
  unfold SegMlp.halfSum
  refine Finset.sum_congr rfl fun r _ => ?_
  unfold gterm hot
  rw [dif_pos r.isLt]
  by_cases h1 : r.val / 800000 = q.val
  · by_cases h2 : ID (ix2 0 r) = BitVec.ofNat 32 s.val
    · rw [if_pos ⟨h1, h2⟩, if_pos h1]
      show _ = (if ID (ix2 0 r) = BitVec.ofNat 32 s.val then (1 : EReal) else 0) * X (ix2 r j)
      rw [if_pos h2, one_mul]
    · rw [if_neg (fun h => h2 h.2), if_pos h1]
      show _ = (if ID (ix2 0 r) = BitVec.ofNat 32 s.val then (1 : EReal) else 0) * X (ix2 r j)
      rw [if_neg h2, zero_mul]
  · rw [if_neg (fun h => h1 h.1), if_neg h1]

/-- Core q's half count is the number of hits among its 800000 rows. -/
theorem halfCnt_eq (ID : S1x1600000.Idx → BitVec 32) (q : Fin 2) (s : Fin 512) :
    SegMlp.halfCnt 800000 ID q s = ∑ r ∈ Finset.range 800000, gcterm ID s (800000 * q.val + r) := by
  rw [← half_range 800000 (by decide) (gcterm ID s) q.val q.isLt]
  show _ = ∑ n ∈ Finset.range 1600000, _
  rw [Finset.sum_range]
  unfold SegMlp.halfCnt
  refine Finset.sum_congr rfl fun r _ => ?_
  unfold gcterm hot
  rw [dif_pos r.isLt, one_eq]
  by_cases h1 : r.val / 800000 = q.val
  · by_cases h2 : ID (ix2 0 r) = BitVec.ofNat 32 s.val
    · rw [if_pos ⟨h1, h2⟩, if_pos h1]
      show _ = (if ID (ix2 0 r) = BitVec.ofNat 32 s.val then (1 : EReal) else 0)
      rw [if_pos h2]
    · rw [if_neg (fun h => h2 h.2), if_pos h1]
      show _ = (if ID (ix2 0 r) = BitVec.ofNat 32 s.val then (1 : EReal) else 0)
      rw [if_neg h2]
  · rw [if_neg (fun h => h1 h.1), if_neg h1]

/-! ## From the blocks to the arrays -/

/-- The sums array the region leaves: entry (q, j, s) is core q's half sum of column j over segment s. -/
def sumArr (c : Dev nD) : S2x128x512.Idx → EReal :=
  fun i => SegMlp.halfSum 800000 (xs V c) (ids V c) (i 0) (i 2) (i 1)

/-- The counts array the region leaves: entry (q, s, 0) is core q's half count. -/
def cntArr (c : Dev nD) : S2x512x1.Idx → EReal :=
  fun i => SegMlp.halfCnt 800000 (ids V c) (i 0) (i 1)

/-- Windows 2 and 3's block at point t is slab t / 50. -/
theorem idx2 : ∀ t : Fin cfg1.N, win1_2.index t 0 = t.val / 50 ∧ win1_2.index t 1 = 0 ∧ win1_2.index t 2 = 0 :=
  (by decide +kernel : ∀ t : Fin grid1.N, win1_2.index t 0 = t.val / 50 ∧ win1_2.index t 1 = 0 ∧ win1_2.index t 2 = 0)
theorem idx3 : ∀ t : Fin cfg1.N, win1_3.index t 0 = t.val / 50 ∧ win1_3.index t 1 = 0 ∧ win1_3.index t 2 = 0 :=
  (by decide +kernel : ∀ t : Fin grid1.N, win1_3.index t 0 = t.val / 50 ∧ win1_3.index t 1 = 0 ∧ win1_3.index t 2 = 0)

/-- What a core's last tile writes back to the sums array is its slab of the half sums. -/
theorem flushed2_eq (c : Dev nD) (t : Fin cfg1.N) (hf : (cfg1.win 2).flush t = true) :
    (Reg1.dat V c).flushed 2 t = ((cfg1.win 2).blk t).view.read (Elt Ideal) (sumArr V c) := by
  have hN : cfg1.N = 100 := N_1
  have h49 : t.val % 50 = 49 := (flush1_2 t).mp hf
  have hq : t.val / 50 < 2 := by have := t.isLt; omega
  show (cfg1.win 2).cut (grid1.coords t) ((Reg1.dat V c).after 2 t) = _
  rw [Reg1.after_2]
  funext y
  rw [View.read_apply, cast_eq]
  show (Reg1.outsAt V c t.val t.isLt).1 ((cfg1.win 2).xinj (grid1.coords t) y) = _
  have y0 : (y 0).val < 1 := (y 0).isLt
  have y1 : (y 1).val < 128 := (y 1).isLt
  have y2 : (y 2).val < 512 := (y 2).isLt
  have e1 : (cfg1.win 2).xinj (grid1.coords t) y = ix3 0 ⟨(y 1).val, y1⟩ ⟨(y 2).val, y2⟩ := by
    funext a; apply Fin.ext
    match a with
    | ⟨0, _⟩ => show (y 0).val = 0; omega
    | ⟨1, _⟩ => rfl
    | ⟨2, _⟩ => rfl
  have e2 : ((cfg1.win 2).blk t).view.emb y = ix3 ⟨t.val / 50, hq⟩ ⟨(y 1).val, y1⟩ ⟨(y 2).val, y2⟩ := by
    funext a; apply Fin.ext
    match a with
    | ⟨0, _⟩ => show win1_2.index t 0 * 1 + 1 * (y 0).val = t.val / 50; rw [(idx2 t).1]; omega
    | ⟨1, _⟩ => show win1_2.index t 1 * 128 + 1 * (y 1).val = (y 1).val; rw [(idx2 t).2.1]; omega
    | ⟨2, _⟩ => show win1_2.index t 2 * 512 + 1 * (y 2).val = (y 2).val; rw [(idx2 t).2.2]; omega
  rw [e1, e2]
  show _ = SegMlp.halfSum 800000 (xs V c) (ids V c) ⟨t.val / 50, hq⟩ ⟨(y 2).val, y2⟩ ⟨(y 1).val, y1⟩
  rw [outsAt_sum V c _ _ t.val t.isLt, halfSum_eq, h49]

/-- What a core's last tile writes back to the counts array is its slab of the half counts. -/
theorem flushed3_eq (c : Dev nD) (t : Fin cfg1.N) (hf : (cfg1.win 3).flush t = true) :
    (Reg1.dat V c).flushed 3 t = ((cfg1.win 3).blk t).view.read (Elt Ideal) (cntArr V c) := by
  have hN : cfg1.N = 100 := N_1
  have h49 : t.val % 50 = 49 := (flush1_3 t).mp hf
  have hq : t.val / 50 < 2 := by have := t.isLt; omega
  show (cfg1.win 3).cut (grid1.coords t) ((Reg1.dat V c).after 3 t) = _
  rw [Reg1.after_3]
  funext y
  rw [View.read_apply, cast_eq]
  show (Reg1.outsAt V c t.val t.isLt).2 ((cfg1.win 3).xinj (grid1.coords t) y) = _
  have y0 : (y 0).val < 1 := (y 0).isLt
  have y1 : (y 1).val < 512 := (y 1).isLt
  have y2 : (y 2).val < 1 := (y 2).isLt
  have e1 : (cfg1.win 3).xinj (grid1.coords t) y = ix3 0 ⟨(y 1).val, y1⟩ 0 := by
    funext a; apply Fin.ext
    match a with
    | ⟨0, _⟩ => show (y 0).val = 0; omega
    | ⟨1, _⟩ => rfl
    | ⟨2, _⟩ => show (y 2).val = 0; omega
  have e2 : ((cfg1.win 3).blk t).view.emb y = ix3 ⟨t.val / 50, hq⟩ ⟨(y 1).val, y1⟩ 0 := by
    funext a; apply Fin.ext
    match a with
    | ⟨0, _⟩ => show win1_3.index t 0 * 1 + 1 * (y 0).val = t.val / 50; rw [(idx3 t).1]; omega
    | ⟨1, _⟩ => show win1_3.index t 1 * 512 + 1 * (y 1).val = (y 1).val; rw [(idx3 t).2.1]; omega
    | ⟨2, _⟩ => show win1_3.index t 2 * 1 + 1 * (y 2).val = 0; rw [(idx3 t).2.2]; omega
  rw [e1, e2]
  show _ = SegMlp.halfCnt 800000 (ids V c) ⟨t.val / 50, hq⟩ ⟨(y 1).val, y1⟩
  rw [outsAt_cnt V c _ t.val t.isLt, halfCnt_eq, h49]

/-- The sums array after the region: entry (q, j, s). -/
theorem arr_sum (c : Dev nD) (q : Fin 2) (s : Fin 512) (j : Fin 128) :
    ((Reg1.dat (F := Ideal) V c).arrAt 2 cfg1.N : S2x128x512.Idx → EReal) (ix3 q j s)
      = SegMlp.halfSum 800000 (V c main_arg2 : S1600000x128.Idx → EReal) (V c main_v12 : S1x1600000.Idx → BitVec 32) q s j := by
  have hN : cfg1.N = 100 := N_1
  have ht : 50 * q.val + 49 < cfg1.N := by have := q.isLt; omega
  have hf : (cfg1.win 2).flush ⟨50 * q.val + 49, ht⟩ = true :=
    (flush1_2 ⟨50 * q.val + 49, ht⟩).mpr (by show (50 * q.val + 49) % 50 = 49; omega)
  refine ((Reg1.dat V c).arrAt_apply_of_mem 2 (sumArr V c) (flushed2_eq V c) cfg1.N ⟨50 * q.val + 49, ht⟩ (ix3 q j s) ht hf ?_).trans rfl
  show ix3 q j s ∈ ((View.whole main_v14_0).slice (win1_2.rect ⟨50 * q.val + 49, ht⟩)).set
  rw [View.set_slice_whole, Rect.mem_set_unit]
  intro a
  have e := idx2 ⟨50 * q.val + 49, ht⟩
  match a with
  | ⟨0, _⟩ =>
    show win1_2.index ⟨50 * q.val + 49, ht⟩ 0 * 1 ≤ q.val ∧ q.val < win1_2.index ⟨50 * q.val + 49, ht⟩ 0 * 1 + 1
    rw [e.1]; show (50 * q.val + 49) / 50 * 1 ≤ q.val ∧ q.val < (50 * q.val + 49) / 50 * 1 + 1; omega
  | ⟨1, _⟩ =>
    show win1_2.index ⟨50 * q.val + 49, ht⟩ 1 * 128 ≤ j.val ∧ j.val < win1_2.index ⟨50 * q.val + 49, ht⟩ 1 * 128 + 128
    rw [e.2.1]; have := j.isLt; omega
  | ⟨2, _⟩ =>
    show win1_2.index ⟨50 * q.val + 49, ht⟩ 2 * 512 ≤ s.val ∧ s.val < win1_2.index ⟨50 * q.val + 49, ht⟩ 2 * 512 + 512
    rw [e.2.2]; have := s.isLt; omega

/-- The counts array after the region: entry (q, s, 0). -/
theorem arr_cnt (c : Dev nD) (q : Fin 2) (s : Fin 512) :
    ((Reg1.dat (F := Ideal) V c).arrAt 3 cfg1.N : S2x512x1.Idx → EReal) (ix3 q s 0)
      = SegMlp.halfCnt 800000 (V c main_v12 : S1x1600000.Idx → BitVec 32) q s := by
  have hN : cfg1.N = 100 := N_1
  have ht : 50 * q.val + 49 < cfg1.N := by have := q.isLt; omega
  have hf : (cfg1.win 3).flush ⟨50 * q.val + 49, ht⟩ = true :=
    (flush1_3 ⟨50 * q.val + 49, ht⟩).mpr (by show (50 * q.val + 49) % 50 = 49; omega)
  refine ((Reg1.dat V c).arrAt_apply_of_mem 3 (cntArr V c) (flushed3_eq V c) cfg1.N ⟨50 * q.val + 49, ht⟩ (ix3 q s 0) ht hf ?_).trans rfl
  show ix3 q s 0 ∈ ((View.whole main_v14_1).slice (win1_3.rect ⟨50 * q.val + 49, ht⟩)).set
  rw [View.set_slice_whole, Rect.mem_set_unit]
  intro a
  have e := idx3 ⟨50 * q.val + 49, ht⟩
  match a with
  | ⟨0, _⟩ =>
    show win1_3.index ⟨50 * q.val + 49, ht⟩ 0 * 1 ≤ q.val ∧ q.val < win1_3.index ⟨50 * q.val + 49, ht⟩ 0 * 1 + 1
    rw [e.1]; show (50 * q.val + 49) / 50 * 1 ≤ q.val ∧ q.val < (50 * q.val + 49) / 50 * 1 + 1; omega
  | ⟨1, _⟩ =>
    show win1_3.index ⟨50 * q.val + 49, ht⟩ 1 * 512 ≤ s.val ∧ s.val < win1_3.index ⟨50 * q.val + 49, ht⟩ 1 * 512 + 512
    rw [e.2.1]; have := s.isLt; omega
  | ⟨2, _⟩ =>
    show win1_3.index ⟨50 * q.val + 49, ht⟩ 2 * 1 ≤ 0 ∧ 0 < win1_3.index ⟨50 * q.val + 49, ht⟩ 2 * 1 + 1
    rw [e.2.2]; omega

end Cert.KernelIdeal.Val1

end
-- ==== Proof.SpecBlocks.lean ====
/-
  The same mathematics in the arrangement the kernel computes it in: each segment mean from two per-core partial sums and
  counts, and the first affine layer with its 512 weight rows taken as three blocks of 128, 256 and 128 rows.
-/
import proofs.«411700_j6279242186981_3_alg».proof.Proof.Spec

noncomputable section

namespace SegMlp

open Idealize.ShloMosaic Idealize.ShloMosaic.ValueIdx

/-- A [2, a, b] array of extended reals: one [a, b] slab per core. -/
abbrev Slabs (a b : Nat) := (⟨3, ![2, a, b]⟩ : Shape).Idx → EReal

/-- Segment s's mean of column j from per-core sums laid out [core, segment, column] and counts [core, segment, 1]. -/
def meanN {d : Nat} (xs : Slabs 512 d) (xc : Slabs 512 1) (s : Fin 512) (j : Fin d) : EReal :=
  Ideal.div (∑ q : Fin 2, xs (ix3 q s j)) (max (∑ q : Fin 2, xc (ix3 q s 0)) one)

/-- The same from per-core sums laid out [core, column, segment]. -/
def meanT {d : Nat} (es : Slabs d 512) (ec : Slabs 512 1) (s : Fin 512) (j : Fin d) : EReal :=
  Ideal.div (∑ q : Fin 2, es (ix3 q j s)) (max (∑ q : Fin 2, ec (ix3 q s 0)) one)

/-- The first affine layer with the weight's rows in three blocks, summed block by block. -/
def lin1B (u : Mat 512 128) (xa : Fin 512 → Fin 256 → EReal) (ea : Fin 512 → Fin 128 → EReal)
    (w1u : Mat 128 512) (w1x : Mat 256 512) (w1e : Mat 128 512) (b1 : Row 512) (s j : Fin 512) : EReal :=
  ((∑ k : Fin 128, u (ix2 s k) * w1u (ix2 k j)) + (∑ k : Fin 256, xa s k * w1x (ix2 k j)))
    + (∑ k : Fin 128, ea s k * w1e (ix2 k j)) + b1 (ix1 j)

end SegMlp

end
-- ==== Proof.KI.Val2.lean ====
/-
  Region 2's value at an entry: the per-core partial sums joined, each segment mean, the three-block affine layer, the
  batch normalisation over the rows, the rectifier and the second affine layer — read off the body's payloads at the
  ideal values, where every change of float format is the identity and every matrix product into zero a plain sum.
-/
import proofs.«411700_j6279242186981_3_alg».proof.Proof.KI.Reg2
import proofs.«411700_j6279242186981_3_alg».proof.Proof.SpecBlocks
import proofs.«411700_j6279242186981_3_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val2

open Idealize.ShloMosaic Idealize.ShloMosaic.ValueIdx Cert.KernelIdeal Cert.KernelIdeal.Gen

/-! ## General readings at coordinates -/

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the leading axis of an `[n, a, b]` array, read at `(i, j)`, is the sum over `q` of the entries `(q, i, j)`. -/
theorem sum3_axis0_apply {φ : FTy} {n a b : ℕ} (src : FVec Ideal ⟨3, ![n, a, b]⟩ φ) (acc : BitVec φ.bits)
    (h : (⟨3, ![n, a, b]⟩ : Shape).Reduces [0] ⟨2, ![a, b]⟩) (hφ : FKind.Formats φ) (hacc : acc = FKind.add.neutral φ hφ)
    (i : Fin a) (j : Fin b) :
    multiReduction .add [0] ⟨2, ![a, b]⟩ src acc h hφ hacc (ix2 i j) = ∑ q : Fin n, src (ix3 q i j) := by
  refine (Ideal.multiReduction_add_single src acc h hφ hacc (ix2 i j)).trans ?_
  refine Finset.sum_congr rfl fun q _ => congrArg src ?_
  funext ax; apply Fin.ext
  match ax with
  | ⟨0, _⟩ => rfl
  | ⟨1, _⟩ => rfl
  | ⟨2, _⟩ => rfl

/-- A sum over the rows of an `[n, a]` array, read at `j`, is the sum over `q` of the entries `(q, j)`. -/
theorem sum2_axis0_apply {φ : FTy} {n a : ℕ} (src : FVec Ideal ⟨2, ![n, a]⟩ φ) (acc : BitVec φ.bits)
    (h : (⟨2, ![n, a]⟩ : Shape).Reduces [0] ⟨1, ![a]⟩) (hφ : FKind.Formats φ) (hacc : acc = FKind.add.neutral φ hφ)
    (j : Fin a) :
    multiReduction .add [0] ⟨1, ![a]⟩ src acc h hφ hacc (ix1 j) = ∑ q : Fin n, src (ix2 q j) := by
  refine (Ideal.multiReduction_add_single src acc h hφ hacc (ix1 j)).trans ?_
  refine Finset.sum_congr rfl fun q _ => congrArg src ?_
  funext ax; apply Fin.ext
  match ax with
  | ⟨0, _⟩ => rfl
  | ⟨1, _⟩ => rfl

/-- The reciprocal square root of an array of extended reals, read at an index. -/
theorem rsqrt_apply {s : Shape} {φ : FTy} (a : FVec Ideal s φ) (i : s.Idx) : rsqrt a i = Ideal.rsqrt (a i) := rfl

/-! ## The small payloads -/

/-- The first input block passes through its change of format unchanged. -/
theorem pay2_apply (x0 : Vec Ideal S512x128 .f32) (i : S512x128.Idx) : k2_pay2 (F := Ideal) x0 i = x0 i := rfl

/-- The first weight block passes through unchanged. -/
theorem pay5_apply (x : Vec Ideal S128x512 .f32) (i : S128x512.Idx) : k2_pay5 (F := Ideal) x i = x i := by
  unfold k2_pay5
  simp only [truncf_apply, shapeCast_self]

/-- The second weight block passes through unchanged. -/
theorem pay6_apply (x : Vec Ideal S256x512 .f32) (i : S256x512.Idx) : k2_pay6 (F := Ideal) x i = x i := by
  unfold k2_pay6
  simp only [truncf_apply, shapeCast_self]

/-- The third weight block passes through unchanged. -/
theorem pay7_apply (x : Vec Ideal S128x512 .f32) (i : S128x512.Idx) : k2_pay7 (F := Ideal) x i = x i := by
  unfold k2_pay7
  simp only [shapeCast_self]

/-- The node mean at (s, j): the two per-core sums added, over the two counts added and floored at 1. -/
theorem pay3_apply (x1 : Vec Ideal S2x512x256 .f32) (x2 : Vec Ideal S2x512x1 .f32) (s : Fin 512) (j : Fin 256) :
    k2_pay3 (F := Ideal) x1 x2 (ix2 s j) = SegMlp.meanN x1 x2 s j := by
  unfold k2_pay3 SegMlp.meanN
  simp only [shapeCast_self, truncf_apply, divf_apply]
  refine congrArg₂ Ideal.div ?_ ?_
  · exact sum3_axis0_apply _ _ _ _ _ s j
  · refine (broadcastTo_a1_ab_apply _ _ s j).trans ?_
    refine congrArg₂ max ?_ rfl
    exact sum3_axis0_apply _ _ _ _ _ s 0

/-- The edge mean at (s, j): the per-core sums lie [core, column, segment], so the transposed sum is read at (j, s). -/
theorem pay4_apply (x3 : Vec Ideal S2x128x512 .f32) (x4 : Vec Ideal S2x512x1 .f32) (s : Fin 512) (j : Fin 128) :
    k2_pay4 (F := Ideal) x3 x4 (ix2 s j) = SegMlp.meanT x3 x4 s j := by
  unfold k2_pay4 SegMlp.meanT
  simp only [shapeCast_self, truncf_apply, divf_apply]
  refine congrArg₂ Ideal.div ?_ ?_
  · refine (transpose_ix2_apply _ _ s j).trans ?_
    exact sum3_axis0_apply _ _ _ _ _ j s
  · refine (broadcastTo_a1_ab_apply _ _ s j).trans ?_
    refine congrArg₂ max ?_ rfl
    exact sum3_axis0_apply _ _ _ _ _ s 0

/-- The last payload adds the second bias, one row broadcast over the 512 rows. -/
theorem pay1_apply (v74 : FVec Ideal S512x128 .f32) (v76 : FVec Ideal S1x128 .f32) (s : Fin 512) (o : Fin 128) :
    k2_pay1 (F := Ideal) v74 v76 (ix2 s o) = v74 (ix2 s o) + v76 (ix2 (0 : Fin 1) o) := by
  unfold k2_pay1
  simp only [addf_apply]
  rw [broadcastTo_1b_ab_apply]

/-- The second bias as a one-row array. -/
theorem pay9_apply (x12 : Vec Ideal S128 .f32) (u : Fin 1) (o : Fin 128) :
    k2_pay9 (F := Ideal) x12 (ix2 u o) = x12 (ix1 o) := by
  unfold k2_pay9
  exact shapeCast_a_1a_apply _ _ u o

/-! ## The large payload, in four parts: the first affine layer, the column mean, the column variance, the rectified
normalisation; then the second matrix product -/

/-- The first affine layer as the body forms it: three products into zero, added left to right, plus the bias row. -/
def hid (v1 : FVec Ideal S512x128 .bf16) (v12 : FVec Ideal S512x256 .bf16) (v24 : FVec Ideal S512x128 .bf16)
    (v27 : FVec Ideal S128x512 .bf16) (v30 : FVec Ideal S256x512 .bf16) (v32 : FVec Ideal S128x512 .f32)
    (v39 : Vec Ideal S512 .f32) : FVec Ideal S512x512 .f32 :=
  addf
    (addf
      (addf
        (matmul dot_S512x128_S128x512_S512x512_1_0_0_1_n_n none v1 v27 (constant (F := Ideal) S512x512 .f32 0x00000000#32))
        (matmul dot_S512x256_S256x512_S512x512_1_0_0_1_n_n none v12 v30 (constant (F := Ideal) S512x512 .f32 0x00000000#32)))
      (matmul dot_S512x128_S128x512_S512x512_1_0_0_1_n_n none v24 (truncf .bf16 v32 bitsLt_bf16_f32)
        (constant (F := Ideal) S512x512 .f32 0x00000000#32)))
    (broadcastTo S512x512 (shapeCast S1x512 v39 shapeCasts_S512_S1x512) broadcasts_S1x512_S512x512)

/-- The column means as a one-row array: each column's sum over the rows, over 512. -/
def cmean (h : FVec Ideal S512x512 .f32) : FVec Ideal S1x512 .f32 :=
  divf (shapeCast S1x512 (multiReduction .add [0] S512 h 0x00000000#32 reduces_S512x512_S512 (.inl rfl) rfl) shapeCasts_S512_S1x512)
    (broadcast S1x512 (Scalar.ofBits .f32 0x44000000#32))

/-- The entries less their column's mean. -/
def cdev (h : FVec Ideal S512x512 .f32) : FVec Ideal S512x512 .f32 :=
  subf h (broadcastTo S512x512 (cmean h) broadcasts_S1x512_S512x512)

/-- The column variances as a one-row array: each column's sum of squared deviations, over 512. -/
def cvar (h : FVec Ideal S512x512 .f32) : FVec Ideal S1x512 .f32 :=
  divf (shapeCast S1x512 (multiReduction .add [0] S512 (mulf (cdev h) (cdev h)) 0x00000000#32 reduces_S512x512_S512 (.inl rfl) rfl)
      shapeCasts_S512_S1x512)
    (broadcast S1x512 (Scalar.ofBits .f32 0x44000000#32))

/-- The normalised, scaled, shifted and rectified array. -/
def actv (h : FVec Ideal S512x512 .f32) (v61 v65 : Vec Ideal S512 .f32) : FVec Ideal S512x512 .f32 :=
  maximumf
    (addf
      (mulf
        (mulf (cdev h)
          (broadcastTo S512x512 (rsqrt (addf (cvar h) (broadcast S1x512 (Scalar.ofBits .f32 0x3727C5AC#32)))) broadcasts_S1x512_S512x512))
        (broadcastTo S512x512 (shapeCast S1x512 v61 shapeCasts_S512_S1x512) broadcasts_S1x512_S512x512))
      (broadcastTo S512x512 (shapeCast S1x512 v65 shapeCasts_S512_S1x512) broadcasts_S1x512_S512x512))
    (broadcast S512x512 (Scalar.ofBits .f32 0x00000000#32))

/-- The large payload is the second product of the rectified normalisation of the first affine layer. -/
theorem pay8_eq (v1 : FVec Ideal S512x128 .bf16) (v12 : FVec Ideal S512x256 .bf16) (v24 : FVec Ideal S512x128 .bf16)
    (v27 : FVec Ideal S128x512 .bf16) (v30 : FVec Ideal S256x512 .bf16) (v32 : FVec Ideal S128x512 .f32)
    (v39 v61 v65 : Vec Ideal S512 .f32) (v72 : Vec Ideal S512x128 .f32) :
    k2_pay8 (F := Ideal) v1 v12 v24 v27 v30 v32 v39 v61 v65 v72
      = matmul dot_S512x512_S512x128_S512x128_1_0_0_1_n_n none
          (truncf .bf16 (actv (hid v1 v12 v24 v27 v30 v32 v39) v61 v65) bitsLt_bf16_f32)
          (truncf .bf16 v72 bitsLt_bf16_f32) (constant (F := Ideal) S512x128 .f32 0x00000000#32) := rfl

/-- The first affine layer at (s, j): three plain sums and the bias. -/
theorem hid_apply (v1 : FVec Ideal S512x128 .bf16) (v12 : FVec Ideal S512x256 .bf16) (v24 : FVec Ideal S512x128 .bf16)
    (v27 : FVec Ideal S128x512 .bf16) (v30 : FVec Ideal S256x512 .bf16) (v32 : FVec Ideal S128x512 .f32)
    (v39 : Vec Ideal S512 .f32) (s j : Fin 512) :
    hid v1 v12 v24 v27 v30 v32 v39 (ix2 s j)
      = ((∑ k : Fin 128, v1 (ix2 s k) * v27 (ix2 k j)) + (∑ k : Fin 256, v12 (ix2 s k) * v30 (ix2 k j)))
          + (∑ k : Fin 128, v24 (ix2 s k) * v32 (ix2 k j)) + v39 (ix1 j) := by
  unfold hid
  simp only [addf_apply]
  refine congrArg₂ (· + ·) (congrArg₂ (· + ·) (congrArg₂ (· + ·) ?_ ?_) ?_) ?_
  · exact PlainMatmul.matmul_zero_apply_of_eq _ rfl none v1 v27 s j
  · exact PlainMatmul.matmul_zero_apply_of_eq _ rfl none v12 v30 s j
  · exact PlainMatmul.matmul_zero_apply_of_eq _ rfl none v24 (truncf .bf16 v32 bitsLt_bf16_f32) s j
  · exact (broadcastTo_1b_ab_apply _ _ s j).trans (shapeCast_a_1a_apply _ _ 0 j)

/-- The column mean at j. -/
theorem cmean_apply (h : FVec Ideal S512x512 .f32) (u : Fin 1) (j : Fin 512) :
    cmean h (ix2 u j) = SegMlp.colMean (fun s j => h (ix2 s j)) j := by
  unfold cmean SegMlp.colMean
  simp only [divf_apply, broadcast_apply]
  refine congrArg₂ Ideal.div ?_ rfl
  exact (shapeCast_a_1a_apply _ _ u j).trans (sum2_axis0_apply _ _ _ _ _ j)

/-- The deviation at (s, j). -/
theorem cdev_apply (h : FVec Ideal S512x512 .f32) (s j : Fin 512) :
    cdev h (ix2 s j) = h (ix2 s j) - SegMlp.colMean (fun s j => h (ix2 s j)) j := by
  unfold cdev
  simp only [subf_apply]
  exact congrArg₂ (· - ·) rfl ((broadcastTo_1b_ab_apply _ _ s j).trans (cmean_apply h 0 j))

/-- The column variance at j. -/
theorem cvar_apply (h : FVec Ideal S512x512 .f32) (u : Fin 1) (j : Fin 512) :
    cvar h (ix2 u j) = SegMlp.colVar (fun s j => h (ix2 s j)) j := by
  unfold cvar SegMlp.colVar
  simp only [divf_apply, broadcast_apply]
  refine congrArg₂ Ideal.div ?_ rfl
  refine ((shapeCast_a_1a_apply _ _ u j).trans (sum2_axis0_apply _ _ _ _ _ j)).trans ?_
  refine Finset.sum_congr rfl fun s _ => ?_
  simp only [mulf_apply]
  rw [cdev_apply]

/-- The rectified normalisation at (s, j). -/
theorem actv_apply (h : FVec Ideal S512x512 .f32) (v61 v65 : Vec Ideal S512 .f32) (s j : Fin 512) :
    actv h v61 v65 (ix2 s j) = SegMlp.act (fun s j => h (ix2 s j)) v61 v65 s j := by
  unfold actv SegMlp.act
  simp only [maximumf_apply, addf_apply, mulf_apply, broadcast_apply]
  refine congrArg₂ max (congrArg₂ (· + ·) (congrArg₂ (· * ·) (congrArg₂ (· * ·) ?_ ?_) ?_) ?_) ?_
  · exact cdev_apply h s j
  · refine (broadcastTo_1b_ab_apply _ _ s j).trans ?_
    refine (rsqrt_apply _ _).trans (congrArg Ideal.rsqrt ?_)
    simp only [addf_apply, broadcast_apply]
    exact congrArg₂ (· + ·) (cvar_apply h 0 j) rfl
  · exact (broadcastTo_1b_ab_apply _ _ s j).trans (shapeCast_a_1a_apply _ _ 0 j)
  · exact (broadcastTo_1b_ab_apply _ _ s j).trans (shapeCast_a_1a_apply _ _ 0 j)
  · exact Ideal.ofBits_zero_f32

/-- The large payload at (s, o). -/
theorem pay8_apply (v1 : FVec Ideal S512x128 .bf16) (v12 : FVec Ideal S512x256 .bf16) (v24 : FVec Ideal S512x128 .bf16)
    (v27 : FVec Ideal S128x512 .bf16) (v30 : FVec Ideal S256x512 .bf16) (v32 : FVec Ideal S128x512 .f32)
    (v39 v61 v65 : Vec Ideal S512 .f32) (v72 : Vec Ideal S512x128 .f32) (s : Fin 512) (o : Fin 128) :
    k2_pay8 (F := Ideal) v1 v12 v24 v27 v30 v32 v39 v61 v65 v72 (ix2 s o)
      = ∑ j : Fin 512, SegMlp.act (fun s j => hid v1 v12 v24 v27 v30 v32 v39 (ix2 s j)) v61 v65 s j * v72 (ix2 j o) := by
  rw [pay8_eq]
  refine (PlainMatmul.matmul_zero_apply_of_eq _ rfl none _ _ s o).trans ?_
  refine Finset.sum_congr rfl fun j _ => ?_
  simp only [truncf_apply]
  rw [actv_apply]

/-! ## The whole body -/

/-- The body's value at (s, o), from its thirteen input blocks as plain arrays. -/
theorem out_apply (x0 : Vec Ideal S512x128 .f32) (x1 : Vec Ideal S2x512x256 .f32) (x2 : Vec Ideal S2x512x1 .f32)
    (x3 : Vec Ideal S2x128x512 .f32) (x4 : Vec Ideal S2x512x1 .f32) (x5 : Vec Ideal S128x512 .f32)
    (x6 : Vec Ideal S256x512 .f32) (x7 : Vec Ideal S128x512 .f32) (x8 x9 x10 : Vec Ideal S512 .f32)
    (x11 : Vec Ideal S512x128 .f32) (x12 : Vec Ideal S128 .f32) (s : Fin 512) (o : Fin 128) :
    Reg2.out (F := Ideal) x0 x1 x2 x3 x4 x5 x6 x7 x8 x9 x10 x11 x12 (ix2 s o)
      = SegMlp.lin2 (SegMlp.act (SegMlp.lin1B x0 (SegMlp.meanN x1 x2) (SegMlp.meanT x3 x4) x5 x6 x7 x8) x9 x10) x11 x12 s o := by
  unfold Reg2.out SegMlp.lin2
  rw [pay1_apply, pay9_apply, pay8_apply]
  refine congrArg₂ (· + ·) (Finset.sum_congr rfl fun j _ => congrArg₂ (· * ·) ?_ rfl) rfl
  refine congrArg (fun h => SegMlp.act h x9 x10 s j) ?_
  funext s' j'
  rw [hid_apply]
  unfold SegMlp.lin1B
  simp only [pay2_apply, pay3_apply, pay4_apply, pay5_apply, pay6_apply, pay7_apply]

end Cert.KernelIdeal.Val2

end
-- ==== Proof.SpecLemmas.lean ====
/-
  Sums rearranged: an id word names a segment exactly when its signed reading does; two cores' halves make the whole;
  rows padded with zeros under the all-ones id add nothing; and a product with a 512-row weight is the sum of the products
  with its three row blocks.
-/
import proofs.«411700_j6279242186981_3_alg».proof.Proof.Spec
import proofs.«411700_j6279242186981_3_alg».proof.Proof.SpecBlocks
import proofs.«411700_j6279242186981_3_alg».proof.Proof.SpecHalves

noncomputable section

namespace SegMlp

open Idealize.ShloMosaic Idealize.ShloMosaic.ValueIdx

/-- A 32-bit id word is segment s's number exactly when, read signed, it is s. -/
theorem word_eq_iff (id : BitVec 32) (s : Fin 512) : id = BitVec.ofNat 32 s.val ↔ id.toInt = (s.val : ℤ) := by
  have hs := s.isLt
  have h0 : (BitVec.ofNat 32 s.val).toInt = (s.val : ℤ) := by
    rw [BitVec.toInt_ofNat', Int.bmod_def]
    omega
  rw [← BitVec.toInt_inj, h0]

/-- The all-ones word is no segment's number. -/
theorem sl_allOnes_ne (s : Fin 512) : ¬ (4294967295#32 : BitVec 32) = BitVec.ofNat 32 s.val := by
  rw [word_eq_iff]
  have h1 : (4294967295#32 : BitVec 32).toInt = -1 := by decide
  rw [h1]
  omega

/-- Every row of an array of 2n rows lies in one of the two halves. -/
theorem sl_half_cases {m : Nat} (n : Nat) (hm : m = 2 * n) (r : Fin m) : r.val / n = 0 ∨ r.val / n = 1 := by
  have h1 : r.val < n * 2 := by have := r.isLt; omega
  have h2 : r.val / n < 2 := Nat.div_lt_of_lt_mul h1
  generalize r.val / n = c at h2 ⊢
  omega

/-- A term kept by exactly one of the two halves. -/
theorem sl_half_split {m : Nat} (n : Nat) (hm : m = 2 * n) (r : Fin m) (P : Prop) [Decidable P] (v : EReal) :
    (∑ q : Fin 2, if r.val / n = q.val ∧ P then v else 0) = if P then v else 0 := by
  rw [Fin.sum_univ_two]
  rcases sl_half_cases n hm r with h | h <;> by_cases hp : P <;> simp [h, hp]

/-- The two cores' sums add up to the sum over all rows. -/
theorem halfSum_add {m d : Nat} (n : Nat) (hn : 0 < n) (hm : m = 2 * n) (vals : Mat m d) (ids : IdRow m) (s : Fin 512) (j : Fin d) :
    (∑ q : Fin 2, halfSum n vals ids q s j)
      = ∑ r : Fin m, if ids (ix2 0 r) = BitVec.ofNat 32 s.val then vals (ix2 r j) else 0 := by
  unfold halfSum
  rw [Finset.sum_comm]
  apply Finset.sum_congr rfl
  intro r _
  exact sl_half_split n hm r _ _

/-- The two cores' counts add up to the count over all rows. -/
theorem halfCnt_add {m : Nat} (n : Nat) (hn : 0 < n) (hm : m = 2 * n) (ids : IdRow m) (s : Fin 512) :
    (∑ q : Fin 2, halfCnt n ids q s)
      = ∑ r : Fin m, if ids (ix2 0 r) = BitVec.ofNat 32 s.val then one else 0 := by
  unfold halfCnt
  rw [Finset.sum_comm]
  apply Finset.sum_congr rfl
  intro r _
  exact sl_half_split n hm r _ _

/-- A sum over M rows of a function that vanishes past the first N rows is the sum over those N rows. -/
theorem sl_sum_pad {N M : Nat} (hNM : N ≤ M) (g : Fin N → EReal) :
    (∑ r : Fin M, if h : r.val < N then g ⟨r.val, h⟩ else 0) = ∑ r : Fin N, g r := by
  obtain ⟨k, rfl⟩ : ∃ k, M = N + k := ⟨M - N, by omega⟩
  rw [Fin.sum_univ_add]
  have h2 : ∀ i : Fin k, (if h : (Fin.natAdd N i).val < N then g ⟨(Fin.natAdd N i).val, h⟩ else 0) = 0 := by
    intro i
    rw [dif_neg]
    simp
  simp only [h2, Finset.sum_const_zero, add_zero]
  apply Finset.sum_congr rfl
  intro i _
  rw [dif_pos (by simp)]
  rfl

/-- Rows past the first N, zero under the all-ones id, add nothing: the sum over the M padded rows is the segment sum of
    the N rows. -/
theorem padded_segSum {N M d : Nat} (vals : Mat N d) (ids : Ids N) (vals' : Mat M d) (ids' : IdRow M)
    (hv : ∀ (r : Fin M) (j : Fin d), vals' (ix2 r j) = if h : r.val < N then vals (ix2 ⟨r.val, h⟩ j) else 0)
    (hi : ∀ r : Fin M, ids' (ix2 0 r) = if h : r.val < N then ids (ix1 ⟨r.val, h⟩) else 4294967295#32)
    (hNM : N ≤ M) (s : Fin 512) (j : Fin d) :
    (∑ r : Fin M, if ids' (ix2 0 r) = BitVec.ofNat 32 s.val then vals' (ix2 r j) else 0) = segSum vals ids s j := by
  unfold segSum
  rw [← sl_sum_pad hNM (fun r => if (ids (ix1 r)).toInt = (s.val : ℤ) then vals (ix2 r j) else 0)]
  apply Finset.sum_congr rfl
  intro r _
  rw [hi r, hv r j]
  by_cases h : r.val < N
  · simp only [dif_pos h, word_eq_iff]
  · simp only [dif_neg h, ite_self]

/-- The same for the count. -/
theorem padded_segCnt {N M : Nat} (ids : Ids N) (ids' : IdRow M)
    (hi : ∀ r : Fin M, ids' (ix2 0 r) = if h : r.val < N then ids (ix1 ⟨r.val, h⟩) else 4294967295#32)
    (hNM : N ≤ M) (s : Fin 512) :
    (∑ r : Fin M, if ids' (ix2 0 r) = BitVec.ofNat 32 s.val then one else 0) = segCnt ids s := by
  unfold segCnt
  rw [← sl_sum_pad hNM (fun r => if (ids (ix1 r)).toInt = (s.val : ℤ) then one else 0)]
  apply Finset.sum_congr rfl
  intro r _
  rw [hi r]
  by_cases h : r.val < N
  · simp only [dif_pos h, word_eq_iff]
  · simp only [dif_neg h, if_neg (sl_allOnes_ne s)]

/-- A sum over a + b terms is the sum of the first a and of the last b. -/
theorem sl_sum_split {a b n : Nat} (h : n = a + b) (f : Fin n → EReal) :
    (∑ k, f k) = (∑ k : Fin a, f ⟨k.val, by omega⟩) + ∑ k : Fin b, f ⟨a + k.val, by omega⟩ := by
  subst h
  rw [Fin.sum_univ_add]
  rfl

/-- The joined row on its first 128 columns. -/
theorem sl_cat_u (u : Mat 512 128) (xa : Fin 512 → Fin 256 → EReal) (ea : Fin 512 → Fin 128 → EReal) (s : Fin 512)
    (k : Fin 128) : cat u xa ea s ⟨k.val, by omega⟩ = u (ix2 s k) := by
  unfold cat
  rw [dif_pos k.isLt]

/-- The joined row on its middle 256 columns. -/
theorem sl_cat_x (u : Mat 512 128) (xa : Fin 512 → Fin 256 → EReal) (ea : Fin 512 → Fin 128 → EReal) (s : Fin 512)
    (k : Fin 256) : cat u xa ea s ⟨128 + k.val, by omega⟩ = xa s k := by
  unfold cat
  have h1 : ¬ (128 + k.val < 128) := by omega
  have h2 : 128 + k.val < 384 := by omega
  rw [dif_neg h1, dif_pos h2]
  congr 1
  apply Fin.ext
  simp

/-- The joined row on its last 128 columns. -/
theorem sl_cat_e (u : Mat 512 128) (xa : Fin 512 → Fin 256 → EReal) (ea : Fin 512 → Fin 128 → EReal) (s : Fin 512)
    (k : Fin 128) : cat u xa ea s ⟨384 + k.val, by omega⟩ = ea s k := by
  unfold cat
  have h1 : ¬ (384 + k.val < 128) := by omega
  have h2 : ¬ (384 + k.val < 384) := by omega
  rw [dif_neg h1, dif_neg h2]
  congr 1
  apply Fin.ext
  simp

/-- The affine layer over the 512 joined columns is the sum of the three blocks' products. -/
theorem lin1_blocks (u : Mat 512 128) (xa : Fin 512 → Fin 256 → EReal) (ea : Fin 512 → Fin 128 → EReal)
    (W1 : Mat 512 512) (b1 : Row 512) (w1u : Mat 128 512) (w1x : Mat 256 512) (w1e : Mat 128 512)
    (hu : ∀ (k : Fin 128) (j : Fin 512), w1u (ix2 k j) = W1 (ix2 ⟨k.val, by omega⟩ j))
    (hx : ∀ (k : Fin 256) (j : Fin 512), w1x (ix2 k j) = W1 (ix2 ⟨128 + k.val, by omega⟩ j))
    (he : ∀ (k : Fin 128) (j : Fin 512), w1e (ix2 k j) = W1 (ix2 ⟨384 + k.val, by omega⟩ j))
    (s j : Fin 512) :
    lin1 (cat u xa ea) W1 b1 s j = lin1B u xa ea w1u w1x w1e b1 s j := by
  unfold lin1 lin1B
  congr 1
  rw [sl_sum_split (n := 512) (a := 128) (b := 384) rfl, sl_sum_split (n := 384) (a := 256) (b := 128) rfl, ← add_assoc]
  congr 1
  · congr 1
    · apply Finset.sum_congr rfl
      intro k _
      rw [sl_cat_u, hu k j]
    · apply Finset.sum_congr rfl
      intro k _
      rw [sl_cat_x, hx k j]
  · apply Finset.sum_congr rfl
    intro k _
    have hk : (⟨128 + (256 + k.val), by omega⟩ : Fin 512) = ⟨384 + k.val, by omega⟩ := Fin.ext (by simp; omega)
    rw [hk, sl_cat_e, he k j]

end SegMlp

end
-- ==== Proof.KI.Bridge.lean ====
/-
  The kernel's result array is the specification's function of the argument arrays: the two regions' per-core sums and
  counts are halves of the segment sums and counts (padding rows adding nothing), their joined quotients the segment means,
  the three-block affine layer the affine layer over the joined columns, and the rest of region 2 the specification's
  batch normalisation, rectifier and second layer verbatim.
-/
import proofs.«411700_j6279242186981_3_alg».proof.Proof.KI.Launch
import proofs.«411700_j6279242186981_3_alg».proof.Proof.KI.Glue
import proofs.«411700_j6279242186981_3_alg».proof.Proof.KI.GlueIdx
import proofs.«411700_j6279242186981_3_alg».proof.Proof.KI.Arr2
import proofs.«411700_j6279242186981_3_alg».proof.Proof.KI.Val0
import proofs.«411700_j6279242186981_3_alg».proof.Proof.KI.Val1
import proofs.«411700_j6279242186981_3_alg».proof.Proof.KI.Val2
import proofs.«411700_j6279242186981_3_alg».proof.Proof.SpecLemmas

noncomputable section

namespace Cert.KernelIdeal.Bridge

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- The four partial-result arrays region 2 is entered with, at their literal types: node sums [2, 512, 256] and counts
    [2, 512, 1], edge sums [2, 128, 512] and counts [2, 512, 1]. -/
abbrev xs (c : Dev nD) : S2x512x256.Idx → EReal := Launch.V8 m c main_v13_0
abbrev xc (c : Dev nD) : S2x512x1.Idx → EReal := Launch.V8 m c main_v13_1
abbrev es (c : Dev nD) : S2x128x512.Idx → EReal := Launch.V8 m c main_v14_0
abbrev ec (c : Dev nD) : S2x512x1.Idx → EReal := Launch.V8 m c main_v14_1
/-- What regions 0 and 1 are entered with, at their literal types: padded node rows and ids; edge rows and ids. -/
abbrev xp (c : Dev nD) : S51200x256.Idx → EReal := Launch.V5 m c main_v9
abbrev ip (c : Dev nD) : S1x51200.Idx → BitVec 32 := Launch.V5 m c main_v11
abbrev ee (c : Dev nD) : S1600000x128.Idx → EReal := Launch.V6 m c main_arg2
abbrev ie (c : Dev nD) : S1x1600000.Idx → BitVec 32 := Launch.V6 m c main_v12
/-- The region results as arrays of their literal types. -/
abbrev r0s (c : Dev nD) : S2x512x256.Idx → EReal := (Reg0.dat (Launch.V5 m) c).arrAt 2 cfg0.N
abbrev r0c (c : Dev nD) : S2x512x1.Idx → EReal := (Reg0.dat (Launch.V5 m) c).arrAt 3 cfg0.N
abbrev r1s (c : Dev nD) : S2x128x512.Idx → EReal := (Reg1.dat (Launch.V6 m) c).arrAt 2 cfg1.N
abbrev r1c (c : Dev nD) : S2x512x1.Idx → EReal := (Reg1.dat (Launch.V6 m) c).arrAt 3 cfg1.N

theorem xs_eq (c : Dev nD) : xs m c = r0s m c := Glue.V8_v13_0 m c
theorem xc_eq (c : Dev nD) : xc m c = r0c m c := Glue.V8_v13_1 m c
theorem es_eq (c : Dev nD) : es m c = r1s m c := Glue.V8_v14_0 m c
theorem ec_eq (c : Dev nD) : ec m c = r1c m c := Glue.V8_v14_1 m c
theorem r0s_apply (c : Dev nD) (q : Fin 2) (s : Fin 512) (j : Fin 256) :
    r0s m c (ix3 q s j) = SegMlp.halfSum 25600 (xp m c) (ip m c) q s j := Val0.arr_sum (Launch.V5 m) c q s j
theorem r0c_apply (c : Dev nD) (q : Fin 2) (s : Fin 512) :
    r0c m c (ix3 q s 0) = SegMlp.halfCnt 25600 (ip m c) q s := Val0.arr_cnt (Launch.V5 m) c q s
theorem r1s_apply (c : Dev nD) (q : Fin 2) (s : Fin 512) (j : Fin 128) :
    r1s m c (ix3 q j s) = SegMlp.halfSum 800000 (ee m c) (ie m c) q s j := Val1.arr_sum (Launch.V6 m) c q s j
theorem r1c_apply (c : Dev nD) (q : Fin 2) (s : Fin 512) :
    r1c m c (ix3 q s 0) = SegMlp.halfCnt 800000 (ie m c) q s := Val1.arr_cnt (Launch.V6 m) c q s

/-- The node segment means from region 0's two result arrays. -/
theorem mean_nodes (c : Dev nD) (s : Fin 512) (j : Fin 256) :
    SegMlp.meanN (xs m c) (xc m c) s j = SegMlp.segMean (m ((c : Thread nD τ).loc main_arg0)) (m ((c : Thread nD τ).loc main_arg4)) s j := by
  unfold SegMlp.meanN SegMlp.segMean
  have hs : (∑ q : Fin 2, xs m c (ix3 q s j)) = SegMlp.segSum (m ((c : Thread nD τ).loc main_arg0)) (m ((c : Thread nD τ).loc main_arg4)) s j := by
    rw [xs_eq]
    simp only [r0s_apply]
    rw [SegMlp.halfSum_add 25600 (by norm_num) rfl]
    refine SegMlp.padded_segSum _ _ _ _ (fun r j => ?_) (fun r => ?_) (by norm_num) s j
    · show Launch.V5 m c main_v9 (ix2 r j) = _
      rw [Glue.V5_v9]; exact Glue.padRows_apply _ r j
    · show Launch.V5 m c main_v11 (ix2 0 r) = _
      rw [Glue.V5_v11]; exact Glue.padIds_apply _ r
  have hc : (∑ q : Fin 2, xc m c (ix3 q s 0)) = SegMlp.segCnt (m ((c : Thread nD τ).loc main_arg4)) s := by
    rw [xc_eq]
    simp only [r0c_apply]
    rw [SegMlp.halfCnt_add 25600 (by norm_num) rfl]
    refine SegMlp.padded_segCnt _ _ (fun r => ?_) (by norm_num) s
    show Launch.V5 m c main_v11 (ix2 0 r) = _
    rw [Glue.V5_v11]; exact Glue.padIds_apply _ r
  rw [hs, hc]

/-- The edge segment means from region 1's two result arrays, the edge ids the gathered node ids of the targets. -/
theorem mean_edges (c : Dev nD) (s : Fin 512) (j : Fin 128) :
    SegMlp.meanT (es m c) (ec m c) s j = SegMlp.segMean (m ((c : Thread nD τ).loc main_arg2)) (Glue.bcolK (m ((c : Thread nD τ).loc main_arg1)) (m ((c : Thread nD τ).loc main_arg4))) s j := by
  unfold SegMlp.meanT SegMlp.segMean
  have hi : ∀ r : Fin 1600000, ie m c (ix2 0 r)
      = if h : r.val < 1600000 then Glue.bcolK (m ((c : Thread nD τ).loc main_arg1)) (m ((c : Thread nD τ).loc main_arg4)) (ix1 ⟨r.val, h⟩) else 4294967295#32 := by
    intro r
    show Launch.V6 m c main_v12 (ix2 0 r) = _
    rw [Glue.V6_v12, Glue.V5_v12, Glue.rowOf_apply, dif_pos r.isLt]
  have hs : (∑ q : Fin 2, es m c (ix3 q j s)) = SegMlp.segSum (m ((c : Thread nD τ).loc main_arg2)) (Glue.bcolK (m ((c : Thread nD τ).loc main_arg1)) (m ((c : Thread nD τ).loc main_arg4))) s j := by
    rw [es_eq]
    simp only [r1s_apply]
    rw [SegMlp.halfSum_add 800000 (by norm_num) rfl]
    refine SegMlp.padded_segSum _ _ _ _ (fun r j => ?_) hi (le_refl _) s j
    show Launch.V6 m c main_arg2 (ix2 r j) = _
    rw [Glue.V6_arg2, dif_pos r.isLt]
  have hc : (∑ q : Fin 2, ec m c (ix3 q s 0)) = SegMlp.segCnt (Glue.bcolK (m ((c : Thread nD τ).loc main_arg1)) (m ((c : Thread nD τ).loc main_arg4))) s := by
    rw [ec_eq]
    simp only [r1c_apply]
    rw [SegMlp.halfCnt_add 800000 (by norm_num) rfl]
    exact SegMlp.padded_segCnt _ _ hi (le_refl _) s
  rw [hs, hc]

/-- THE RESULT: region 2's write-back is the specification's array of the arguments. -/
theorem result_eq (c : Dev nD) :
    ((Reg2.dat (Launch.V8 m) c).arrAt 13 cfg2.N : S512x128.Idx → EReal)
      = SegMlp.G (m ((c : Thread nD τ).loc main_arg0)) (Glue.bcolK (m ((c : Thread nD τ).loc main_arg1)) (m ((c : Thread nD τ).loc main_arg4))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Arr2.arr13]
  funext i
  obtain ⟨s, o, rfl⟩ : ∃ (s : Fin 512) (o : Fin 128), i = ix2 s o := ⟨i 0, i 1, eq_ix2 i⟩
  rw [SegMlp.G_ix2, Val2.out_apply]
  unfold SegMlp.result
  have hlin : SegMlp.lin1B (Launch.V8 m c main_arg3)
        (SegMlp.meanN (xs m c) (xc m c))
        (SegMlp.meanT (es m c) (ec m c))
        (Launch.V8 m c main_v15) (Launch.V8 m c main_v16) (Launch.V8 m c main_v17) (Launch.V8 m c main_arg6)
      = SegMlp.lin1 (SegMlp.cat (m ((c : Thread nD τ).loc main_arg3)) (SegMlp.segMean (m ((c : Thread nD τ).loc main_arg0)) (m ((c : Thread nD τ).loc main_arg4))) (SegMlp.segMean (m ((c : Thread nD τ).loc main_arg2)) (Glue.bcolK (m ((c : Thread nD τ).loc main_arg1)) (m ((c : Thread nD τ).loc main_arg4))))) (m ((c : Thread nD τ).loc main_arg5)) (m ((c : Thread nD τ).loc main_arg6)) := by
    funext s' j'
    have hx : SegMlp.meanN (xs m c) (xc m c)
        = SegMlp.segMean (m ((c : Thread nD τ).loc main_arg0)) (m ((c : Thread nD τ).loc main_arg4)) := funext fun a => funext fun b => mean_nodes m c a b
    have he : SegMlp.meanT (es m c) (ec m c)
        = SegMlp.segMean (m ((c : Thread nD τ).loc main_arg2)) (Glue.bcolK (m ((c : Thread nD τ).loc main_arg1)) (m ((c : Thread nD τ).loc main_arg4))) := funext fun a => funext fun b => mean_edges m c a b
    rw [hx, he, Glue.V8_arg m c main_arg3 (by decide), Glue.V8_arg m c main_arg6 (by decide), Glue.V8_v15, Glue.V8_v16, Glue.V8_v17]
    exact (SegMlp.lin1_blocks _ _ _ (m ((c : Thread nD τ).loc main_arg5)) _ _ _ _ (fun k j => Glue.w1u_apply _ k j) (fun k j => Glue.w1x_apply _ k j)
      (fun k j => Glue.w1e_apply _ k j) s' j').symm
  rw [hlin, Glue.V8_arg m c main_arg7 (by decide), Glue.V8_arg m c main_arg8 (by decide), Glue.V8_arg m c main_arg9 (by decide),
    Glue.V8_arg m c main_arg10 (by decide)]

end Cert.KernelIdeal.Bridge

end
-- ==== Proof.RefSide.lean ====
/-
  The reference's result, read one operation at a time, is the segment-mean / affine / batch-norm / rectifier / affine
  function of the specification at every entry: each scatter-add a sum over the rows whose id names the segment, the
  concatenation the three blocks side by side, each reduction a plain sum.
-/
import proofs.«411700_j6279242186981_3_alg».proof.Proof.Gen.ReferenceIdeal.Run
import proofs.«411700_j6279242186981_3_alg».proof.Proof.Gen.ReferenceIdeal.Read
import proofs.«411700_j6279242186981_3_alg».proof.Proof.Spec
import Idealize.ShloMosaic.Lib.ValueIdx
import Idealize.ShloMosaic.PureOps.Ideal.Laws

noncomputable section

namespace SegScatter

open Idealize.ShloMosaic Idealize.ShloMosaic.ValueIdx

/-- An update lands on operand index i exactly when, on every axis, its start plus its window coordinate is i's coordinate. -/
theorem resultIdx_eq_some_iff {s si u : Shape} (D : ScatterDims s si u) {w : Nat} (j : u.Idx) (idx : IVec si w) (i : s.Idx) :
    D.resultIdx? j idx = some i ↔ ∀ a, D.start j idx a + (D.window j a : ℤ) = ((i a).val : ℤ) := by
  unfold ScatterDims.resultIdx?
  split
  · next h =>
    rw [Option.some.injEq]
    constructor
    · intro hf a
      rw [← hf]
      exact (Int.toNat_of_nonneg (h a).1).symm
    · intro H
      funext a
      refine Fin.ext ?_
      show (D.start j idx a + (D.window j a : ℤ)).toNat = (i a).val
      rw [H a]; exact Int.toNat_natCast _
  · next h =>
    constructor
    · intro hf; cases hf
    · intro H
      exfalso; apply h
      intro a
      rw [H a]
      exact ⟨Int.natCast_nonneg _, by exact_mod_cast (i a).isLt⟩

/-- Rows [n, d] added into [S, d] by one id per row: update_window_dims [1], inserted_window_dims [0],
    scatter_dims_to_operand_dims [0], index_vector_dim 1, ids [n, 1]. -/
abbrev rowsDims (S n d : Nat) (wf : ScatterDims.WF ⟨2, ![S, d]⟩ ⟨2, ![n, 1]⟩ ⟨2, ![n, d]⟩ [1] [0] [0] 1) :
    ScatterDims ⟨2, ![S, d]⟩ ⟨2, ![n, 1]⟩ ⟨2, ![n, d]⟩ where
  updateWindowDims := [1]
  insertedWindowDims := [0]
  scatterDimsToOperandDims := [0]
  indexVectorDim := 1
  wf := wf

/-- Entries [n] added into [S] by one id per entry: no window axis. -/
abbrev vecDims (S n : Nat) (wf : ScatterDims.WF ⟨1, ![S]⟩ ⟨2, ![n, 1]⟩ ⟨1, ![n]⟩ [] [0] [0] 1) :
    ScatterDims ⟨1, ![S]⟩ ⟨2, ![n, 1]⟩ ⟨1, ![n]⟩ where
  updateWindowDims := []
  insertedWindowDims := [0]
  scatterDimsToOperandDims := [0]
  indexVectorDim := 1
  wf := wf

theorem rows_lands_iff {S n d w : Nat} (wf : ScatterDims.WF ⟨2, ![S, d]⟩ ⟨2, ![n, 1]⟩ ⟨2, ![n, d]⟩ [1] [0] [0] 1)
    (idx : IVec ⟨2, ![n, 1]⟩ w) (j : (⟨2, ![n, d]⟩ : Shape).Idx) (i : (⟨2, ![S, d]⟩ : Shape).Idx) :
    (rowsDims S n d wf).resultIdx? j idx = some i ↔
      (idx (ix2 (j 0) 0)).toInt = ((i 0).val : ℤ) ∧ (j 1).val = (i 1).val := by
  have hs0 : (rowsDims S n d wf).start j idx 0 = (idx (ix2 (j 0) 0)).toInt := by
    unfold ScatterDims.start
    rw [dif_pos (show (0 : Fin 2) ∈ [(0 : Fin 2)] from List.mem_singleton.mpr rfl)]
    congr 2
    funext b; refine Fin.ext ?_
    match b with
    | ⟨0, _⟩ => rfl
    | ⟨1, _⟩ => rfl
  have hs1 : (rowsDims S n d wf).start j idx 1 = 0 := by
    unfold ScatterDims.start
    rw [dif_neg (show ¬ (1 : Fin 2) ∈ [(0 : Fin 2)] by decide)]
  have hw0 : (rowsDims S n d wf).window j 0 = 0 := by
    unfold ScatterDims.window
    have hm : ¬ (0 : Fin 2) ∈ (rowsDims S n d wf).sKept := by
      show ¬ (0 : Fin 2) ∈ (List.finRange 2).filter (· ∉ [(0 : Fin 2)]); decide
    rw [dif_neg hm]
  have hw1 : (rowsDims S n d wf).window j 1 = (j 1).val := by
    unfold ScatterDims.window
    have hm : (1 : Fin 2) ∈ (rowsDims S n d wf).sKept := by
      show (1 : Fin 2) ∈ (List.finRange 2).filter (· ∉ [(0 : Fin 2)]); decide
    rw [dif_pos hm]
    rfl
  rw [resultIdx_eq_some_iff, Fin.forall_fin_two, hs0, hs1, hw0, hw1]
  simp only [Nat.cast_zero, add_zero, zero_add, Nat.cast_inj]

theorem vec_lands_iff {S n w : Nat} (wf : ScatterDims.WF ⟨1, ![S]⟩ ⟨2, ![n, 1]⟩ ⟨1, ![n]⟩ [] [0] [0] 1)
    (idx : IVec ⟨2, ![n, 1]⟩ w) (j : (⟨1, ![n]⟩ : Shape).Idx) (i : (⟨1, ![S]⟩ : Shape).Idx) :
    (vecDims S n wf).resultIdx? j idx = some i ↔ (idx (ix2 (j 0) 0)).toInt = ((i 0).val : ℤ) := by
  have hs0 : (vecDims S n wf).start j idx 0 = (idx (ix2 (j 0) 0)).toInt := by
    unfold ScatterDims.start
    rw [dif_pos (show (0 : Fin 1) ∈ [(0 : Fin 1)] from List.mem_singleton.mpr rfl)]
    congr 2
    funext b; refine Fin.ext ?_
    match b with
    | ⟨0, _⟩ => rfl
    | ⟨1, _⟩ => rfl
  have hw0 : (vecDims S n wf).window j 0 = 0 := by
    unfold ScatterDims.window
    have hm : ¬ (0 : Fin 1) ∈ (vecDims S n wf).sKept := by
      show ¬ (0 : Fin 1) ∈ (List.finRange 1).filter (· ∉ [(0 : Fin 1)]); decide
    rw [dif_neg hm]
  rw [resultIdx_eq_some_iff, Fin.forall_fin_one, hs0, hw0]
  simp only [Nat.cast_zero, add_zero]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating scatter of rows at (s, c): the operand there plus column c of the rows whose id is s. -/
theorem rows_scatterAdd_apply {S n d w : Nat} (wf : ScatterDims.WF ⟨2, ![S, d]⟩ ⟨2, ![n, 1]⟩ ⟨2, ![n, d]⟩ [1] [0] [0] 1)
    (x : (⟨2, ![S, d]⟩ : Shape).Idx → EReal) (idx : IVec ⟨2, ![n, 1]⟩ w) (upd : (⟨2, ![n, d]⟩ : Shape).Idx → EReal)
    (s : Fin S) (c : Fin d) :
    Ideal.hostScatterAdd (rowsDims S n d wf) x idx upd (ix2 s c)
      = x (ix2 s c) + ∑ r : Fin n, if (idx (ix2 r 0)).toInt = (s.val : ℤ) then upd (ix2 r c) else 0 := by
  unfold Ideal.hostScatterAdd
  congr 1
  rw [Finset.sum_filter, sum_idx2]
  refine Finset.sum_congr rfl fun r _ => ?_
  rw [Finset.sum_eq_single c]
  · rw [if_congr (rows_lands_iff wf idx (ix2 r c) (ix2 s c)) rfl rfl]
    show (if (idx (ix2 r 0)).toInt = (s.val : ℤ) ∧ c.val = c.val then _ else _) = _
    simp only [and_true]
  · intro b _ hb
    rw [if_neg]
    rw [rows_lands_iff]
    intro h; exact hb (Fin.ext h.2)
  · intro h; exact absurd (Finset.mem_univ c) h

/-- The accumulating scatter of entries at s: the operand there plus the entries whose id is s. -/
theorem vec_scatterAdd_apply {S n w : Nat} (wf : ScatterDims.WF ⟨1, ![S]⟩ ⟨2, ![n, 1]⟩ ⟨1, ![n]⟩ [] [0] [0] 1)
    (x : (⟨1, ![S]⟩ : Shape).Idx → EReal) (idx : IVec ⟨2, ![n, 1]⟩ w) (upd : (⟨1, ![n]⟩ : Shape).Idx → EReal)
    (s : Fin S) :
    Ideal.hostScatterAdd (vecDims S n wf) x idx upd (ix1 s)
      = x (ix1 s) + ∑ r : Fin n, if (idx (ix2 r 0)).toInt = (s.val : ℤ) then upd (ix1 r) else 0 := by
  unfold Ideal.hostScatterAdd
  congr 1
  rw [Finset.sum_filter, sum_idx1]
  refine Finset.sum_congr rfl fun r _ => ?_
  exact if_congr (vec_lands_iff wf idx (ix1 r) (ix1 s)) rfl rfl

end SegScatter

namespace SegScatter

open Idealize.ShloMosaic Idealize.ShloMosaic.ValueIdx

/-- Rows added by id into an array of zeros: the segment sum. -/
theorem rows_segSum {n d : Nat} (D : ScatterDims ⟨2, ![512, d]⟩ ⟨2, ![n, 1]⟩ ⟨2, ![n, d]⟩)
    (wf : ScatterDims.WF ⟨2, ![512, d]⟩ ⟨2, ![n, 1]⟩ ⟨2, ![n, d]⟩ [1] [0] [0] 1) (hD : D = rowsDims 512 n d wf)
    (z : (⟨2, ![512, d]⟩ : Shape).Idx → EReal) (hz : ∀ i, z i = 0)
    (idx : IVec ⟨2, ![n, 1]⟩ 32) (ids : SegMlp.Ids n) (hidx : ∀ r : Fin n, idx (ix2 r 0) = ids (ix1 r))
    (vals : SegMlp.Mat n d) (s : Fin 512) (c : Fin d) :
    Host.scatterAdd (F := Ideal) (φ := .f32) D z idx vals (ix2 s c) = SegMlp.segSum vals ids s c := by
  subst hD
  unfold Host.scatterAdd SegMlp.segSum
  rw [Ideal.hostScatterAdd_def, rows_scatterAdd_apply, hz, zero_add]
  refine Finset.sum_congr rfl fun r _ => ?_
  rw [hidx]

/-- Ones added by id into a vector of zeros: the segment count. -/
theorem vec_segCnt {n : Nat} (D : ScatterDims ⟨1, ![512]⟩ ⟨2, ![n, 1]⟩ ⟨1, ![n]⟩)
    (wf : ScatterDims.WF ⟨1, ![512]⟩ ⟨2, ![n, 1]⟩ ⟨1, ![n]⟩ [] [0] [0] 1) (hD : D = vecDims 512 n wf)
    (z : (⟨1, ![512]⟩ : Shape).Idx → EReal) (hz : ∀ i, z i = 0)
    (idx : IVec ⟨2, ![n, 1]⟩ 32) (ids : SegMlp.Ids n) (hidx : ∀ r : Fin n, idx (ix2 r 0) = ids (ix1 r))
    (ones : (⟨1, ![n]⟩ : Shape).Idx → EReal) (hones : ∀ i, ones i = SegMlp.one) (s : Fin 512) :
    Host.scatterAdd (F := Ideal) (φ := .f32) D z idx ones (ix1 s) = SegMlp.segCnt ids s := by
  subst hD
  unfold Host.scatterAdd SegMlp.segCnt
  rw [Ideal.hostScatterAdd_def, vec_scatterAdd_apply, hz, zero_add]
  refine Finset.sum_congr rfl fun r _ => ?_
  rw [hidx, hones]

end SegScatter

namespace Cert.ReferenceIdeal.RefSide

open Idealize.ShloMosaic Idealize.ShloMosaic.ValueIdx Cert.ReferenceIdeal Cert.ReferenceIdeal.Read

/-! ## The two segment means -/

theorem idx_v3_at (r : Fin 50000) (z : Fin 1) : idx_main_v3 (ix2 r z) = ix1 r :=
  funext fun a => by match a with | ⟨0, _⟩ => rfl
theorem idx_v7_at (r : Fin 50000) (z : Fin 1) : idx_main_v7 (ix2 r z) = ix1 r :=
  funext fun a => by match a with | ⟨0, _⟩ => rfl
theorem idx_v22_at (r : Fin 1600000) (z : Fin 1) : idx_main_v22 (ix2 r z) = ix1 r :=
  funext fun a => by match a with | ⟨0, _⟩ => rfl
theorem idx_v26_at (r : Fin 1600000) (z : Fin 1) : idx_main_v26 (ix2 r z) = ix1 r :=
  funext fun a => by match a with | ⟨0, _⟩ => rfl

theorem dims_v4 : scatter_S512x256_S50000x1_S50000x256_1_0_0_1
    = SegScatter.rowsDims 512 50000 256 Gen.scatter_S512x256_S50000x1_S50000x256_1_0_0_1_wf := rfl
theorem dims_v8 : scatter_S512_S50000x1_S50000_n_0_0_1
    = SegScatter.vecDims 512 50000 Gen.scatter_S512_S50000x1_S50000_n_0_0_1_wf := rfl
theorem dims_v23 : scatter_S512x128_S1600000x1_S1600000x128_1_0_0_1
    = SegScatter.rowsDims 512 1600000 128 Gen.scatter_S512x128_S1600000x1_S1600000x128_1_0_0_1_wf := rfl
theorem dims_v27 : scatter_S512_S1600000x1_S1600000_n_0_0_1
    = SegScatter.vecDims 512 1600000 Gen.scatter_S512_S1600000x1_S1600000_n_0_0_1_wf := rfl

theorem v2_zero (i : S512x256.Idx) : val_main_v2 (F := Ideal) i = 0 := by
  rw [val_main_v2_apply, val_main_cst_apply, Ideal.ofBits_def, Ideal.ofBits_zero_f32]
theorem v6_zero (i : S512.Idx) : val_main_v6 (F := Ideal) i = 0 := by
  rw [val_main_v6_apply, val_main_cst_1_apply, Ideal.ofBits_def, Ideal.ofBits_zero_f32]
theorem v21_zero (i : S512x128.Idx) : val_main_v21 (F := Ideal) i = 0 := by
  rw [val_main_v21_apply, val_main_cst_4_apply, Ideal.ofBits_def, Ideal.ofBits_zero_f32]
theorem v25_zero (i : S512.Idx) : val_main_v25 (F := Ideal) i = 0 := by
  rw [val_main_v25_apply, val_main_cst_6_apply, Ideal.ofBits_def, Ideal.ofBits_zero_f32]
theorem v5_one (i : S50000.Idx) : val_main_v5 (F := Ideal) i = SegMlp.one := by
  rw [val_main_v5_apply, val_main_cst_0_apply, Ideal.ofBits_def]
theorem v24_one (i : S1600000.Idx) : val_main_v24 (F := Ideal) i = SegMlp.one := by
  rw [val_main_v24_apply, val_main_cst_5_apply, Ideal.ofBits_def]

/-- The node rows added by node id: the segment sum. -/
theorem v4_at (x0 : (⟨S50000x256, .f32⟩ : BufTy).Contents (Elt Ideal)) (x4 : (⟨S50000, .i32⟩ : BufTy).Contents (Elt Ideal)) (s : Fin 512) (c : Fin 256) :
    val_main_v4 (F := Ideal) x0 x4 (ix2 s c) = SegMlp.segSum x0 x4 s c :=
  SegScatter.rows_segSum _ _ dims_v4 _ v2_zero (val_main_v3 (F := Ideal) x4) x4
    (fun r => by rw [val_main_v3_apply, idx_v3_at]) x0 s c

/-- The ones added by node id: the segment count. -/
theorem v8_at (x4 : (⟨S50000, .i32⟩ : BufTy).Contents (Elt Ideal)) (s : Fin 512) :
    val_main_v8 (F := Ideal) x4 (ix1 s) = SegMlp.segCnt x4 s :=
  SegScatter.vec_segCnt _ _ dims_v8 _ v6_zero (val_main_v7 (F := Ideal) x4) x4
    (fun r => by rw [val_main_v7_apply, idx_v7_at]) _ v5_one s

/-- The node mean. -/
theorem v13_at (x0 : (⟨S50000x256, .f32⟩ : BufTy).Contents (Elt Ideal)) (x4 : (⟨S50000, .i32⟩ : BufTy).Contents (Elt Ideal)) (s : Fin 512) (c : Fin 256) :
    val_main_v13 (F := Ideal) x0 x4 (ix2 s c) = SegMlp.segMean x0 x4 s c := by
  have e1 : idx_main_v11 (idx_main_v12 (ix2 s c)) = ix1 s := funext fun a => by match a with | ⟨0, _⟩ => rfl
  unfold SegMlp.segMean
  rw [val_main_v13_apply, v4_at, val_main_v12_apply, val_main_v11_apply, val_main_v10_apply, e1, v8_at,
    val_main_v9_apply, val_main_cst_2_apply, Ideal.ofBits_def, Ideal.hostDivf_def, Ideal.maximumf_def]

/-- The edge rows added by the gathered ids: the segment sum. -/
theorem v23_at (x1 : (⟨S2x1600000, .i32⟩ : BufTy).Contents (Elt Ideal)) (x2 : (⟨S1600000x128, .f32⟩ : BufTy).Contents (Elt Ideal)) (x4 : (⟨S50000, .i32⟩ : BufTy).Contents (Elt Ideal)) (s : Fin 512) (c : Fin 128) :
    val_main_v23 (F := Ideal) x1 x2 x4 (ix2 s c) = SegMlp.segSum x2 (val_main_v20 (F := Ideal) x1 x4) s c :=
  SegScatter.rows_segSum _ _ dims_v23 _ v21_zero (val_main_v22 (F := Ideal) x1 x4) (val_main_v20 (F := Ideal) x1 x4)
    (fun r => by rw [val_main_v22_apply, idx_v22_at]) x2 s c

/-- The ones added by the gathered ids: the segment count. -/
theorem v27_at (x1 : (⟨S2x1600000, .i32⟩ : BufTy).Contents (Elt Ideal)) (x4 : (⟨S50000, .i32⟩ : BufTy).Contents (Elt Ideal)) (s : Fin 512) :
    val_main_v27 (F := Ideal) x1 x4 (ix1 s) = SegMlp.segCnt (val_main_v20 (F := Ideal) x1 x4) s :=
  SegScatter.vec_segCnt _ _ dims_v27 _ v25_zero (val_main_v26 (F := Ideal) x1 x4) (val_main_v20 (F := Ideal) x1 x4)
    (fun r => by rw [val_main_v26_apply, idx_v26_at]) _ v24_one s

/-- The edge mean. -/
theorem v32_at (x1 : (⟨S2x1600000, .i32⟩ : BufTy).Contents (Elt Ideal)) (x2 : (⟨S1600000x128, .f32⟩ : BufTy).Contents (Elt Ideal)) (x4 : (⟨S50000, .i32⟩ : BufTy).Contents (Elt Ideal)) (s : Fin 512) (c : Fin 128) :
    val_main_v32 (F := Ideal) x1 x2 x4 (ix2 s c) = SegMlp.segMean x2 (val_main_v20 (F := Ideal) x1 x4) s c := by
  have e1 : idx_main_v30 (idx_main_v31 (ix2 s c)) = ix1 s := funext fun a => by match a with | ⟨0, _⟩ => rfl
  unfold SegMlp.segMean
  rw [val_main_v32_apply, v23_at, val_main_v31_apply, val_main_v30_apply, val_main_v29_apply, e1, v27_at,
    val_main_v28_apply, val_main_cst_7_apply, Ideal.ofBits_def, Ideal.hostDivf_def, Ideal.maximumf_def]

/-! ## The three blocks side by side -/

/-- Three blocks of 128, 256 and 128 columns joined along the columns, read at (s, k): the block whose span holds k,
    at k less the widths before it. -/
theorem cat3_at {α : Type} (A : S512x128.Idx → α) (B : S512x256.Idx → α) (C : S512x128.Idx → α)
    (h : Shape.Concatenates [S512x128, S512x256, S512x128] S512x512 1) (s : Fin 512) (k : Fin 512) :
    concatenate S512x512 1 [⟨S512x128, A⟩, ⟨S512x256, B⟩, ⟨S512x128, C⟩] h (ix2 s k)
      = if h1 : k.val < 128 then A (ix2 s ⟨k.val, h1⟩)
        else if h2 : k.val < 384 then B (ix2 s ⟨k.val - 128, by omega⟩)
        else C (ix2 s ⟨k.val - 384, by omega⟩) := by
  by_cases h1 : k.val < 128
  · rw [dif_pos h1]
    refine concatenate_apply_piece (t := S512x512) 1 [⟨S512x128, A⟩, ⟨S512x256, B⟩, ⟨S512x128, C⟩] h (ix2 s k) 0 (show (0 : ℕ) < 3 by omega) S512x128 A rfl rfl 0 rfl (ix2 s ⟨k.val, h1⟩) ?_ ?_
    · intro b hb
      match b with
      | ⟨0, _⟩ => rfl
      | ⟨1, _⟩ => exact absurd rfl hb
    · show 0 + k.val = k.val; omega
  · rw [dif_neg h1]
    by_cases h2 : k.val < 384
    · rw [dif_pos h2]
      refine concatenate_apply_piece (t := S512x512) 1 [⟨S512x128, A⟩, ⟨S512x256, B⟩, ⟨S512x128, C⟩] h (ix2 s k) 1 (show (1 : ℕ) < 3 by omega) S512x256 B rfl rfl 128 rfl (ix2 s ⟨k.val - 128, by omega⟩) ?_ ?_
      · intro b hb
        match b with
        | ⟨0, _⟩ => rfl
        | ⟨1, _⟩ => exact absurd rfl hb
      · show 128 + (k.val - 128) = k.val; omega
    · rw [dif_neg h2]
      refine concatenate_apply_piece (t := S512x512) 1 [⟨S512x128, A⟩, ⟨S512x256, B⟩, ⟨S512x128, C⟩] h (ix2 s k) 2 (show (2 : ℕ) < 3 by omega) S512x128 C rfl rfl 384 rfl (ix2 s ⟨k.val - 384, by omega⟩) ?_ ?_
      · intro b hb
        match b with
        | ⟨0, _⟩ => rfl
        | ⟨1, _⟩ => exact absurd rfl hb
      · show 384 + (k.val - 384) = k.val; omega

/-- The joined rows: u, the node means, the edge means. -/
theorem v33_at (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (s : Fin 512) (k : Fin 512) :
    val_main_v33 (F := Ideal) x0 x1 x2 x3 x4 (ix2 s k)
      = SegMlp.cat x3 (SegMlp.segMean x0 x4) (SegMlp.segMean x2 (val_main_v20 (F := Ideal) x1 x4)) s k := by
  unfold val_main_v33 SegMlp.cat
  rw [cat3_at]
  split
  · rfl
  · split
    · exact v13_at x0 x4 s _
    · exact v32_at x1 x2 x4 s _

/-! ## The first affine layer -/

/-- The contraction of the joined rows with the first weight, plus the bias along the rows. -/
theorem v37_at (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (x5 : (⟨S512x512, .f32⟩ : BufTy).Contents (Elt Ideal))
    (x6 : (⟨S512, .f32⟩ : BufTy).Contents (Elt Ideal)) (s j : Fin 512) :
    val_main_v37 (F := Ideal) x0 x1 x2 x3 x4 x5 x6 (ix2 s j)
      = SegMlp.lin1 (SegMlp.cat x3 (SegMlp.segMean x0 x4) (SegMlp.segMean x2 (val_main_v20 (F := Ideal) x1 x4))) x5 x6 s j := by
  have el : ∀ k : Fin 512, lidx_main_v34 (ix2 s j) k = ix2 s k := fun k => funext fun a => Fin.ext (by match a with | ⟨0, _⟩ => rfl | ⟨1, _⟩ => rfl)
  have er : ∀ k : Fin 512, ridx_main_v34 (ix2 s j) k = ix2 k j := fun k => funext fun a => Fin.ext (by match a with | ⟨0, _⟩ => rfl | ⟨1, _⟩ => rfl)
  have eb : idx_main_v35 (idx_main_v36 (ix2 s j)) = ix1 j := funext fun a => Fin.ext (by match a with | ⟨0, _⟩ => rfl)
  unfold SegMlp.lin1
  rw [val_main_v37_apply, val_main_v34_apply, val_main_v36_apply, val_main_v35_apply, eb, Ideal.addf_def]
  refine congrArg (· + _) (Finset.sum_congr rfl fun k _ => ?_)
  rw [el, er, v33_at]

/-! ## The batch normalisation, the rectifier and the second layer -/

/-- Column j's mean over the 512 rows. -/
theorem v40_at (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (x5 : (⟨S512x512, .f32⟩ : BufTy).Contents (Elt Ideal))
    (x6 : (⟨S512, .f32⟩ : BufTy).Contents (Elt Ideal)) (j : Fin 512) :
    val_main_v40 (F := Ideal) x0 x1 x2 x3 x4 x5 x6 (ix1 j) = SegMlp.colMean (SegMlp.lin1 (SegMlp.cat x3 (SegMlp.segMean x0 x4) (SegMlp.segMean x2 (val_main_v20 (F := Ideal) x1 x4))) x5 x6) j := by
  have e : ∀ k : Fin 512, idx_main_v38 (ix1 j) k = ix2 k j := fun k =>
    funext fun a => by match a with | ⟨0, _⟩ => rfl | ⟨1, _⟩ => rfl
  unfold SegMlp.colMean
  rw [val_main_v40_apply, val_main_v38_apply, val_main_cst_8_apply, Ideal.ofBits_def, Ideal.ofBits_zero_f32, zero_add,
    val_main_v39_apply, val_main_cst_9_apply, Ideal.ofBits_def, Ideal.hostDivf_def]
  refine congrArg (Ideal.div · _) (Finset.sum_congr rfl fun k _ => ?_)
  rw [e, v37_at]

/-- The centred entry (s, j). -/
theorem v43_at (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (x5 : (⟨S512x512, .f32⟩ : BufTy).Contents (Elt Ideal))
    (x6 : (⟨S512, .f32⟩ : BufTy).Contents (Elt Ideal)) (s j : Fin 512) :
    val_main_v43 (F := Ideal) x0 x1 x2 x3 x4 x5 x6 (ix2 s j) = (SegMlp.lin1 (SegMlp.cat x3 (SegMlp.segMean x0 x4) (SegMlp.segMean x2 (val_main_v20 (F := Ideal) x1 x4))) x5 x6) s j - SegMlp.colMean (SegMlp.lin1 (SegMlp.cat x3 (SegMlp.segMean x0 x4) (SegMlp.segMean x2 (val_main_v20 (F := Ideal) x1 x4))) x5 x6) j := by
  have e : idx_main_v41 (idx_main_v42 (ix2 s j)) = ix1 j := funext fun a => by match a with | ⟨0, _⟩ => rfl
  rw [val_main_v43_apply, v37_at, val_main_v42_apply, val_main_v41_apply, e, v40_at, Ideal.subf_def]

/-- Column j's biased variance over the 512 rows. -/
theorem v47_at (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (x5 : (⟨S512x512, .f32⟩ : BufTy).Contents (Elt Ideal))
    (x6 : (⟨S512, .f32⟩ : BufTy).Contents (Elt Ideal)) (j : Fin 512) :
    val_main_v47 (F := Ideal) x0 x1 x2 x3 x4 x5 x6 (ix1 j) = SegMlp.colVar (SegMlp.lin1 (SegMlp.cat x3 (SegMlp.segMean x0 x4) (SegMlp.segMean x2 (val_main_v20 (F := Ideal) x1 x4))) x5 x6) j := by
  have e : ∀ k : Fin 512, idx_main_v45 (ix1 j) k = ix2 k j := fun k =>
    funext fun a => by match a with | ⟨0, _⟩ => rfl | ⟨1, _⟩ => rfl
  unfold SegMlp.colVar
  rw [val_main_v47_apply, val_main_v45_apply, val_main_cst_10_apply, Ideal.ofBits_def, Ideal.ofBits_zero_f32, zero_add,
    val_main_v46_apply, val_main_cst_11_apply, Ideal.ofBits_def, Ideal.hostDivf_def]
  refine congrArg (Ideal.div · _) (Finset.sum_congr rfl fun k _ => ?_)
  rw [e, val_main_v44_apply, v43_at, Ideal.mulf_def]

/-- The normalised, scaled, shifted and rectified entry (s, j). -/
theorem v63_at (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (x5 : (⟨S512x512, .f32⟩ : BufTy).Contents (Elt Ideal))
    (x6 x7 x8 : (⟨S512, .f32⟩ : BufTy).Contents (Elt Ideal)) (s j : Fin 512) :
    val_main_v63 (F := Ideal) x0 x1 x2 x3 x4 x5 x6 x7 x8 (ix2 s j) = (SegMlp.act (SegMlp.lin1 (SegMlp.cat x3 (SegMlp.segMean x0 x4) (SegMlp.segMean x2 (val_main_v20 (F := Ideal) x1 x4))) x5 x6) x7 x8) s j := by
  have e49 : idx_main_v48 (idx_main_v49 (ix2 s j)) = ix1 j := funext fun a => by match a with | ⟨0, _⟩ => rfl
  have e55 : idx_main_v54 (idx_main_v55 (ix2 s j)) = ix1 j := funext fun a => by match a with | ⟨0, _⟩ => rfl
  have e58 : idx_main_v57 (idx_main_v58 (ix2 s j)) = ix1 j := funext fun a => by match a with | ⟨0, _⟩ => rfl
  have e61 : idx_main_v60 (idx_main_v61 (ix2 s j)) = ix1 j := funext fun a => by match a with | ⟨0, _⟩ => rfl
  unfold SegMlp.act
  rw [val_main_v63_apply, val_main_v62_apply, val_main_v59_apply, val_main_v56_apply, val_main_v50_apply, v37_at,
    val_main_v49_apply, val_main_v48_apply, e49, v40_at, val_main_v55_apply, val_main_v54_apply, e55, val_main_v53_apply,
    val_main_v52_apply, v47_at, val_main_v51_apply, val_main_cst_12_apply, val_main_v58_apply, val_main_v57_apply, e58,
    val_main_v61_apply, val_main_v60_apply, e61, val_main_call0_v0_apply, val_main_call0_cst_apply,
    Ideal.ofBits_def, Ideal.ofBits_def, Ideal.ofBits_zero_f32, Ideal.maximumf_def, Ideal.addf_def, Ideal.mulf_def, Ideal.mulf_def,
    Ideal.subf_def, Ideal.hostUnary_rsqrt_def, Ideal.addf_def]

/-- The second affine layer at (s, o). -/
theorem v67_at (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (x5 : (⟨S512x512, .f32⟩ : BufTy).Contents (Elt Ideal))
    (x6 x7 x8 : (⟨S512, .f32⟩ : BufTy).Contents (Elt Ideal))
    (x9 : (⟨S512x128, .f32⟩ : BufTy).Contents (Elt Ideal)) (x10 : (⟨S128, .f32⟩ : BufTy).Contents (Elt Ideal)) (s : Fin 512) (o : Fin 128) :
    val_main_v67 (F := Ideal) x0 x1 x2 x3 x4 x5 x6 x7 x8 x9 x10 (ix2 s o) = SegMlp.lin2 (SegMlp.act (SegMlp.lin1 (SegMlp.cat x3 (SegMlp.segMean x0 x4) (SegMlp.segMean x2 (val_main_v20 (F := Ideal) x1 x4))) x5 x6) x7 x8) x9 x10 s o := by
  have el : ∀ k : Fin 512, lidx_main_v64 (ix2 s o) k = ix2 s k := fun k =>
    funext fun a => by match a with | ⟨0, _⟩ => rfl | ⟨1, _⟩ => rfl
  have er : ∀ k : Fin 512, ridx_main_v64 (ix2 s o) k = ix2 k o := fun k =>
    funext fun a => by match a with | ⟨0, _⟩ => rfl | ⟨1, _⟩ => rfl
  have eb : idx_main_v65 (idx_main_v66 (ix2 s o)) = ix1 o := funext fun a => by match a with | ⟨0, _⟩ => rfl
  unfold SegMlp.lin2
  rw [val_main_v67_apply, val_main_v64_apply, val_main_v66_apply, val_main_v65_apply, eb, Ideal.addf_def]
  refine congrArg (· + _) (Finset.sum_congr rfl fun k _ => ?_)
  rw [el, er, v63_at]

/-- The reference's result array is the specification's, the edge ids being the reference's own gather of the node ids
    at each edge's (wrapped) target. -/
theorem ref_is_G (x0 : (⟨S50000x256, .f32⟩ : BufTy).Contents (Elt Ideal)) (x1 : (⟨S2x1600000, .i32⟩ : BufTy).Contents (Elt Ideal))
    (x2 : (⟨S1600000x128, .f32⟩ : BufTy).Contents (Elt Ideal)) (x3 : (⟨S512x128, .f32⟩ : BufTy).Contents (Elt Ideal))
    (x4 : (⟨S50000, .i32⟩ : BufTy).Contents (Elt Ideal)) (x5 : (⟨S512x512, .f32⟩ : BufTy).Contents (Elt Ideal))
    (x6 x7 x8 : (⟨S512, .f32⟩ : BufTy).Contents (Elt Ideal)) (x9 : (⟨S512x128, .f32⟩ : BufTy).Contents (Elt Ideal))
    (x10 : (⟨S128, .f32⟩ : BufTy).Contents (Elt Ideal)) :
    val_main_v67 (F := Ideal) x0 x1 x2 x3 x4 x5 x6 x7 x8 x9 x10
      = SegMlp.G x0 (val_main_v20 (F := Ideal) x1 x4) x2 x3 x4 x5 x6 x7 x8 x9 x10 := by
  funext i
  obtain ⟨s, o, rfl⟩ : ∃ (s : Fin 512) (o : Fin 128), i = ix2 s o := ⟨i 0, i 1, eq_ix2 i⟩
  rw [SegMlp.G_ix2]
  unfold SegMlp.result
  exact v67_at x0 x1 x2 x3 x4 x5 x6 x7 x8 x9 x10 s o

end Cert.ReferenceIdeal.RefSide

end
-- ==== Proof.BcolEq.lean ====
/-
  Both programs compute the node id of each edge's target by the same host operations on the same two arguments (row 1 of
  the edge index, a negative target wrapped by 50000, the node ids gathered there): the two terms are one function.
-/
import proofs.«411700_j6279242186981_3_alg».proof.Proof.KI.GlueDefs
import proofs.«411700_j6279242186981_3_alg».proof.Proof.Gen.ReferenceIdeal.Read

noncomputable section

namespace Cert.Proof.BcolEq

open Idealize.ShloMosaic

/-- The reference's gathered edge ids are the kernel's. -/
theorem bcol_eq (x1 : (⟨Cert.ReferenceIdeal.S2x1600000, .i32⟩ : BufTy).Contents (Elt Ideal))
    (x4 : (⟨Cert.ReferenceIdeal.S50000, .i32⟩ : BufTy).Contents (Elt Ideal)) :
    Cert.ReferenceIdeal.Read.val_main_v20 (F := Ideal) x1 x4 = Cert.KernelIdeal.Glue.bcolK x1 x4 := by
  unfold Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_c_3
    Cert.ReferenceIdeal.Read.val_main_v15 Cert.ReferenceIdeal.Read.val_main_v14 Cert.ReferenceIdeal.Read.val_main_c
    Cert.ReferenceIdeal.Read.val_main_v1 Cert.ReferenceIdeal.Read.val_main_v0
    Cert.KernelIdeal.Glue.bcolK Cert.KernelIdeal.Glue.targets
  rfl

end Cert.Proof.BcolEq

end
-- ==== Proof.lean ====
/-
  The five claims of this certificate.

  The kernel computes, for 512 graph segments, the mean node feature and the mean incoming-edge feature of each segment and
  feeds [u | node mean | edge mean] through an affine layer, a batch normalisation over the 512 rows, a rectifier and a second
  affine layer. It takes each segment mean as a one-hot matrix product: every row tile is walked in chunks, a chunk adding
  (ids == segment) · rows to a per-core sum block and the hits to a per-core count block; two cores each take half of the
  rows, and the last region joins the halves, divides by the count floored at one, and runs the two layers with the first
  weight in three row blocks. The reference takes the same means by scatter-add and the first layer over the joined columns.
  Over the extended reals the two are one function: a one-hot product is the sum of the rows whose id is the segment's
  (0 · v = 0 and 1 · v = v for every v), padding rows carry the id −1 and add nothing, two halves add up to the whole, and a
  product with a 512-row weight is the sum of the products with its row blocks; everything after the first layer is the same
  text on both sides. No step needs the inputs to be finite.

  frame (three programs): each program runs to the end from any memory, faults nowhere and leaves its arguments as they were
  — for the two kernel programs by the launch of their three regions among the host stretches (each region's body run once
  per grid point through its counted loop's invariant), for the reference by its run read back. preserves: the idealization
  rewrote nothing. algebraic: both idealized programs end with the specification's array of the arguments.
-/
import proofs.«411700_j6279242186981_3_alg».proof.Defs
import proofs.«411700_j6279242186981_3_alg».proof.Proof.Gen.Kernel
import proofs.«411700_j6279242186981_3_alg».proof.Proof.Gen.KernelIdeal
import proofs.«411700_j6279242186981_3_alg».proof.Proof.Gen.ReferenceIdeal
import proofs.«411700_j6279242186981_3_alg».proof.Proof.Gen.Pre_finite_inputs
import proofs.«411700_j6279242186981_3_alg».proof.Proof.Gen.ReferenceIdeal.Run
import proofs.«411700_j6279242186981_3_alg».proof.Proof.Gen.ReferenceIdeal.Read
import proofs.«411700_j6279242186981_3_alg».proof.Proof.K.Launch
import proofs.«411700_j6279242186981_3_alg».proof.Proof.KI.Launch
import proofs.«411700_j6279242186981_3_alg».proof.Proof.KI.Bridge
import proofs.«411700_j6279242186981_3_alg».proof.Proof.RefSide
import proofs.«411700_j6279242186981_3_alg».proof.Proof.BcolEq
import Idealize.ShloMosaic.Adequacy
import Idealize.ShloMosaic.Init

noncomputable section

namespace Cert.Proof

open Idealize.ShloMosaic Idealize.SL.Sem

/-- The bit-level kernel program runs and leaves its arguments unchanged. -/
theorem frame_k : Cert.frame_Kernel := fun m ρ _ => Cert.Kernel.Launch.frame (F := Bits) m ρ

/-- The idealized kernel program runs and leaves its arguments unchanged. -/
theorem frame_ki : Cert.frame_KernelIdeal := fun m ρ _ => Cert.KernelIdeal.Launch.frame (F := Ideal) m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's array of the arguments: the kernel's last region writes it back
    (the bridge), the reference's last operation is it (read one operation at a time), and the two programs' edge ids are
    one function of the arguments. -/
theorem algebraic : Cert.algebraic_KernelIdeal_ReferenceIdeal := by
  intro m ρ m' ρ' _ hagree
  refine ⟨fun c => SegMlp.G (m ((c.tc : Thread Cert.KernelIdeal.nD Cert.KernelIdeal.τ).loc Cert.KernelIdeal.main_arg0)) (Cert.KernelIdeal.Glue.bcolK (m ((c.tc : Thread Cert.KernelIdeal.nD Cert.KernelIdeal.τ).loc Cert.KernelIdeal.main_arg1)) (m ((c.tc : Thread Cert.KernelIdeal.nD Cert.KernelIdeal.τ).loc Cert.KernelIdeal.main_arg4))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun r h c => ⟨(h c).1.trans (Cert.KernelIdeal.Bridge.result_eq m c), (h c).2⟩)
      (Cert.KernelIdeal.Launch.run_value (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v67_eq, Cert.ReferenceIdeal.RefSide.ref_is_G, Cert.Proof.BcolEq.bcol_eq,
      h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
